-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x64 : Shape := ⟨2, ![4096, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4096x1024 .f32) (main_arg1 : FVec F S4096x64 .f32) (main_arg2 : IVec S4096x64 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S4096x1024 : Shape := ⟨2, ![4096, 1024]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x64 : Shape := ⟨2, ![512, 64]⟩
abbrev S512x1 : Shape := ⟨2, ![512, 1]⟩
abbrev S1024x512 : Shape := ⟨2, ![1024, 512]⟩
abbrev S512x512 : Shape := ⟨2, ![512, 512]⟩
abbrev S64x512 : Shape := ⟨2, ![64, 512]⟩
abbrev S512 : Shape := ⟨1, ![512]⟩

abbrev nBuf : Space → Nat
  | .hbm => 92
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x64, .f32⟩
  | .hbm, ⟨2, _⟩ => ⟨S4096x64, .i32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S_, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S4096x1, .f32⟩
  | .hbm, ⟨54, _⟩ => ⟨S4096x1, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .i1⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S_, .f32⟩
  | .hbm, ⟨81, _⟩ => ⟨S_, .f32⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_call0_v0 : Ref sig .tc := ⟨.hbm, 65, rfl⟩
abbrev main_call0_v1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c : Ref sig .tc := ⟨.hbm, 72, rfl⟩
abbrev main_v51 : Ref sig .tc := ⟨.hbm, 73, rfl⟩
abbrev main_c_14 : Ref sig .tc := ⟨.hbm, 74, rfl⟩
abbrev main_v52 : Ref sig .tc := ⟨.hbm, 75, rfl⟩
abbrev main_cst_15 : Ref sig .tc := ⟨.hbm, 76, rfl⟩
abbrev main_call1_v0 : Ref sig .tc := ⟨.hbm, 77, rfl⟩
abbrev main_call1_v1 : Ref sig .tc := ⟨.hbm, 78, rfl⟩
abbrev main_v53 : Ref sig .tc := ⟨.hbm, 79, rfl⟩
abbrev main_cst_16 : Ref sig .tc := ⟨.hbm, 80, rfl⟩
abbrev main_v54 : Ref sig .tc := ⟨.hbm, 81, rfl⟩
abbrev main_c_17 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_18 : Ref sig .tc := ⟨.hbm, 86, rfl⟩
abbrev main_call2_v0 : Ref sig .tc := ⟨.hbm, 87, rfl⟩
abbrev main_v58 : Ref sig .tc := ⟨.hbm, 88, rfl⟩
abbrev main_cst_19 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_32 : BitVec 32 := 0#32
  let v68 : BitVec 1 := Scalar.cmpi .ne v67 c0_i32_32
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S4096x64 : S_.BroadcastsInDim S4096x64 (![] : Fin 0 → Fin S4096x64.rank)
  reducesTo_S4096x64_S_d0_1 : S4096x64.ReducesTo [0, 1] S_
  h_S_ : 0 < S_.numel
  reducesTo_S4096x64_S4096_d1 : S4096x64.ReducesTo [1] S4096
  bcast_S_S4096 : S_.BroadcastsInDim S4096 (![] : Fin 0 → Fin S4096.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  transposes_S512x1024_p1_0_S1024x512 : S512x1024.Transposes [1, 0] S1024x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  shapeCasts_S4096x1_S4096 : S4096x1.ShapeCasts S4096
  natLt_1_32 : 1 < 32
  reducesTo_S4096_S_d0 : S4096.ReducesTo [0] S_
  dot_S512x1024_S1024x512_S512x512_1_0_0_1_n_n_wf : DotDims.WF S512x1024 S1024x512 S512x512 [1] [0] [0] [1] [] []
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v38_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x64 : Shape := ⟨2, ![4096, 64]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S64x4096 : Shape := ⟨2, ![64, 4096]⟩
abbrev S4096x1 : Shape := ⟨2, ![4096, 1]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x64, .f32⟩
  | .hbm, ⟨2, _⟩ => ⟨S4096x64, .i32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S_, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S1024x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .i32⟩
  | .hbm, ⟨59, _⟩ => ⟨S4096x4096, .i32⟩
  | .hbm, ⟨60, _⟩ => ⟨S_, .i32⟩
  | .hbm, ⟨61, _⟩ => ⟨S4096x4096, .i32⟩
  | .hbm, ⟨62, _⟩ => ⟨S4096x4096, .i32⟩
  | .hbm, ⟨63, _⟩ => ⟨S4096x4096, .i1⟩
  | .hbm, ⟨64, _⟩ => ⟨S4096x4096, .i1⟩
  | .hbm, ⟨65, _⟩ => ⟨S64x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .i1⟩
  | .hbm, ⟨70, _⟩ => ⟨S4096x4096, .i1⟩
  | .hbm, ⟨71, _⟩ => ⟨S_, .i1⟩
  | .hbm, ⟨72, _⟩ => ⟨S4096, .i1⟩
  | .hbm, ⟨73, _⟩ => ⟨S_, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S4096, .f32⟩
  | .hbm, ⟨89, _⟩ => ⟨S_, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S4096, .f32⟩
  | .hbm, ⟨99, _⟩ => ⟨S_, .f32⟩
  | .hbm, ⟨100, _⟩ => ⟨S_, .f32⟩
  | .hbm, ⟨101, _⟩ => ⟨S4096, .f32⟩
  | .hbm, ⟨102, _⟩ => ⟨S4096, .f32⟩
  | .hbm, ⟨103, _⟩ => ⟨S4096, .f32⟩
  | .hbm, ⟨104, _⟩ => ⟨S4096, .f32⟩
  | .hbm, ⟨105, _⟩ => ⟨S4096, .f32⟩
  | .hbm, ⟨106, _⟩ => ⟨S4096, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i1⟩
  | .hbm, ⟨111, _⟩ => ⟨S_, .f32⟩
  | .hbm, ⟨112, _⟩ => ⟨S_, .f32⟩
  | .hbm, ⟨113, _⟩ => ⟨S4096, .f32⟩
  | .hbm, ⟨114, _⟩ => ⟨S4096, .f32⟩
  | .hbm, ⟨115, _⟩ => ⟨S_, .f32⟩
  | .hbm, ⟨116, _⟩ => ⟨S_, .f32⟩
  | .hbm, ⟨117, _⟩ => ⟨S_, .i32⟩
  | .hbm, ⟨118, _⟩ => ⟨S_, .i32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_13 : Ref sig .tc := ⟨.hbm, 71, rfl⟩
abbrev main_v53 : Ref sig .tc := ⟨.hbm, 72, rfl⟩
abbrev main_cst_14 : Ref sig .tc := ⟨.hbm, 73, rfl⟩
abbrev main_call0_v0 : Ref sig .tc := ⟨.hbm, 74, rfl⟩
abbrev main_call0_v1 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_call1_v0 : Ref sig .tc := ⟨.hbm, 84, rfl⟩
abbrev main_call1_v1 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_cst_18 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_cst_20 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_21 : Ref sig .tc := ⟨.hbm, 99, rfl⟩
abbrev main_call3_v0 : Ref sig .tc := ⟨.hbm, 100, rfl⟩
abbrev main_call3_v1 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_22 : Ref sig .tc := ⟨.hbm, 107, rfl⟩
abbrev main_v72 : Ref sig .tc := ⟨.hbm, 108, rfl⟩
abbrev main_c_23 : Ref sig .tc := ⟨.hbm, 109, rfl⟩
abbrev main_v73 : Ref sig .tc := ⟨.hbm, 110, rfl⟩
abbrev main_cst_24 : Ref sig .tc := ⟨.hbm, 111, rfl⟩
abbrev main_call4_v0 : Ref sig .tc := ⟨.hbm, 112, rfl⟩
abbrev main_call4_v1 : Ref sig .tc := ⟨.hbm, 113, rfl⟩
abbrev main_v74 : Ref sig .tc := ⟨.hbm, 114, rfl⟩
abbrev main_cst_25 : Ref sig .tc := ⟨.hbm, 115, rfl⟩
abbrev main_v75 : Ref sig .tc := ⟨.hbm, 116, rfl⟩
abbrev main_c_26 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_27 : Ref sig .tc := ⟨.hbm, 121, rfl⟩
abbrev main_call5_v0 : Ref sig .tc := ⟨.hbm, 122, rfl⟩
abbrev main_v79 : Ref sig .tc := ⟨.hbm, 123, rfl⟩
abbrev main_cst_28 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  reducesTo_S4096x64_S_d0_1 : S4096x64.ReducesTo [0, 1] S_
  h_S_ : 0 < S_.numel
  reducesTo_S4096x64_S4096_d1 : S4096x64.ReducesTo [1] S4096
  bcast_S_S4096 : S_.BroadcastsInDim S4096 (![] : Fin 0 → Fin S4096.rank)
  transposes_S4096x1024_S1024x4096_1_0 : S4096x1024.Transposes [1, 0] S1024x4096
  bcast_S_S4096x4096 : S_.BroadcastsInDim S4096x4096 (![] : Fin 0 → Fin S4096x4096.rank)
  transposes_S4096x64_S64x4096_1_0 : S4096x64.Transposes [1, 0] S64x4096
  reducesTo_S4096x4096_S4096_d1 : S4096x4096.ReducesTo [1] S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  natLt_1_32 : 1 < 32
  reducesTo_S4096_S_d0 : S4096.ReducesTo [0] S_
  dot_S4096x1024_S1024x4096_S4096x4096_1_0_0_1_n_n_wf : DotDims.WF S4096x1024 S1024x4096 S4096x4096 [1] [0] [0] [1] [] []
  dot_S4096x64_S64x4096_S4096x4096_1_0_0_1_n_n_wf : DotDims.WF S4096x64 S64x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.KBody.lean ====
/-
  The kernel body at one grid point, as a triple over explicit contents.

  At a point with coordinates (row block, column block) the body
  * resets the three scratch buffers (running maximum to -∞, both running sums to 0) when the column block is the first;
  * loads the two embedding blocks and the two label blocks and the running maximum, and forms the block of scaled
    similarities, the off-diagonal mask, the positives' mask and the new maximum;
  * rescales both running sums by exp (old maximum - new maximum), adds the block's masked sums of exp (similarity - new
    maximum), and stores the new maximum;
  * copies both running sums to the two output blocks when the column block is the last.
  So the scratch buffers after the point are `stepM`, `stepP`, `stepN` of the four input blocks and of what the scratch
  buffers held before the point (the reset values at a first column block).
-/
import proofs.«136322_j23673859736131_1_alg».proof.Proof.Gen.KernelIdeal.Launch
import proofs.«136322_j23673859736131_1_alg».proof.Proof.Gen.KernelIdeal.Skeleton
import proofs.«136322_j23673859736131_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One point's arithmetic -/

/-- The running maximum after a point: the larger of the old one and the block's off-diagonal maximum. -/
def stepM (i : grid0.Coords) (x0 x1 : Vec F S512x1024 .f32) (sm : Vec F S512x1 .f32) : Vec F S512x1 .f32 :=
  k0_pay5 (k0_pay12 i x0 x1 sm)

/-- The positives' running sum after a point. -/
def stepP (i : grid0.Coords) (x0 x1 : Vec F S512x1024 .f32) (x2 x3 : Vec F S512x64 .f32) (sm sp : Vec F S512x1 .f32) : Vec F S512x1 .f32 :=
  k0_pay3 (k0_pay9 x0 x1) (k0_pay11 i x2 x3) (k0_pay12 i x0 x1 sm) sm sp

/-- The off-diagonal running sum after a point. -/
def stepN (i : grid0.Coords) (x0 x1 : Vec F S512x1024 .f32) (sm sn : Vec F S512x1 .f32) : Vec F S512x1 .f32 :=
  k0_pay4 (k0_pay9 x0 x1) (k0_pay10 i) (k0_pay12 i x0 x1 sm) sm sn

/-- The reset values: -∞ for the maximum, 0 for both sums. -/
abbrev resetM : Vec F S512x1 .f32 := k0_pay6 (F := F)
abbrev resetP : Vec F S512x1 .f32 := k0_pay7 (F := F)
abbrev resetN : Vec F S512x1 .f32 := k0_pay8 (F := F)

/-! ## The two branch conditions -/

/-- The column block is the first (the body's first `scf.if`). -/
abbrev condFirst (i : grid0.Coords) : Prop := (Scalar.cmpi .ne (Scalar.extui (Scalar.cmpi .eq (BitVec.ofNat 32 (i 1).val) 0#32)) 0#32) = 1#1
/-- The column block is the last (the body's second `scf.if`). -/
abbrev condLast (i : grid0.Coords) : Prop := k0_cond2 i = 1#1

/-! ## Whole-buffer loads and stores read back

Every load and store of the body is of a whole buffer: through the rectangle of the buffer's own sizes at zero
offsets. Through it a load reads the contents, and a store, once it is the last, leaves its payload whatever the
buffer held and whatever was stored before. -/

section ReadBack

variable {κ : Kind} {sp : Space} {S : Shape} {e : EltTy}

/-- A whole memref held at the raw contents that read `X`, loaded through the whole-shape rectangle at zero offsets,
    reads `X`. -/
theorem readAt_whole {m : Memref sig κ sp S e} (h : m.IsWhole) {off : Fin S.rank → ℕ} (hz : off = fun _ => 0)
    (inb : ∀ a, off a + S.size a ≤ S.size a) (X : S.Idx → Elt F e) :
    View.readAt (Elt F) m.view (Rect.unit off S.size inb).toLoadRect (h.unread X) = X :=
  (View.readAt_eq_ld m.view (h.unread X) (Rect.unit off S.size inb)).trans
    ((congrArg (fun Y => View.ld Y (Rect.unit off S.size inb)) (h.read_unread X)).trans (View.ld_unit_zero hz inb X))

/-- After a last store through the whole-shape rectangle at zero offsets the buffer reads that store's payload,
    whatever it held and whatever was stored before: the one rectangle holds every index. -/
theorem read_writes_whole_cons (v : View sig κ sp S e) (f : v.ty.Contents (Elt F)) {off : Fin S.rank → ℕ}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

end ReadBack

/-- The two zero offsets of a rank-2 rectangle, as the constant function. -/
theorem zero_offsets : (![0, 0] : Fin 2 → ℕ) = fun _ => 0 := by funext a; fin_cases a <;> rfl

/-! ## The body's triple, case by case

In each case the body is run from the buffers' raw contents: an input or an untouched output block is handed back as it
was; a buffer the body stored into ends with its last store's payload, in which every loaded value is read at the
contents the buffer held when it was loaded (the reset value, where the load follows the reset store). -/

set_option maxHeartbeats 1000000 in
/-- FIRST column block (and not the last): the scratch buffers, at anything, are reset and then updated; the output
    blocks are handed back untouched. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)
    (hc0 : condFirst i) (hc1 : ¬condLast i)
    (x0 x1 : Vec F S512x1024 .f32) (x2 x3 : Vec F S512x64 .f32) (o4 o5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare o4 ∗ owns (c : Thread nD τ) arg7 fullShare o5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare o4 ∗ owns (c : Thread nD τ) arg7 fullShare o5
            ∗ owns (c : Thread nD τ) arg8 fullShare (stepM i x0 x1 resetM)
            ∗ owns (c : Thread nD τ) arg9 fullShare (stepP i x0 x1 x2 x3 resetM resetP)
            ∗ owns (c : Thread nD τ) arg10 fullShare (stepN i x0 x1 resetM resetN)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9 arg10 harg10) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  -- the four input blocks, as they were
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  -- the two output blocks, untouched
  isplitl [H4]
  · iexists _; isplitr; · ipureintro; exact hf4
    iexact H4
  isplitl [H5]
  · iexists _; isplitr; · ipureintro; exact hf5
    iexact H5
  -- the running maximum: the last store's payload, the old maximum read as the reset value
  isplitl [H6]
  · iexists _; isplitr; swap; · iexact H6
    ipureintro
    sl_unfold_run_names
    rw [read_writes_whole_cons _ _ zero_offsets]
    simp only [readAt_whole harg2 zero_offsets, readAt_whole harg3 zero_offsets, View.readCov_unit_zero (S := S512x1) _ zero_offsets]
    rfl
  -- the positives' sum: old maximum and old sum read as the reset values
  isplitl [H7]
  · iexists _; isplitr; swap; · iexact H7
    ipureintro
    sl_unfold_run_names
    rw [read_writes_whole_cons _ _ zero_offsets]
    simp only [readAt_whole harg2 zero_offsets, readAt_whole harg3 zero_offsets, readAt_whole harg4 zero_offsets, readAt_whole harg5 zero_offsets, View.readCov_unit_zero (S := S512x1) _ zero_offsets]
    rfl
  -- the off-diagonal sum, likewise
  · iexists _; isplitr; swap; · iexact H8
    ipureintro
    sl_unfold_run_names
    rw [read_writes_whole_cons _ _ zero_offsets]
    simp only [readAt_whole harg2 zero_offsets, readAt_whole harg3 zero_offsets, View.readCov_unit_zero (S := S512x1) _ zero_offsets]
    rfl

set_option maxHeartbeats 1000000 in
/-- A MIDDLE column block: the scratch buffers at `sm`, `sp`, `sn` are updated; the output blocks are handed back
    untouched. -/
theorem run_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)
    (hc0 : ¬condFirst i) (hc1 : ¬condLast i)
    (x0 x1 : Vec F S512x1024 .f32) (x2 x3 : Vec F S512x64 .f32) (o4 o5 sm sp sn : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare o4 ∗ owns (c : Thread nD τ) arg7 fullShare o5
        ∗ owns (c : Thread nD τ) arg8 fullShare sm ∗ owns (c : Thread nD τ) arg9 fullShare sp ∗ owns (c : Thread nD τ) arg10 fullShare sn
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare o4 ∗ owns (c : Thread nD τ) arg7 fullShare o5
            ∗ owns (c : Thread nD τ) arg8 fullShare (stepM i x0 x1 sm)
            ∗ owns (c : Thread nD τ) arg9 fullShare (stepP i x0 x1 x2 x3 sm sp)
            ∗ owns (c : Thread nD τ) arg10 fullShare (stepN i x0 x1 sm sn)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9 arg10 harg10) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  obtain rfl := harg8.eq_unread hf6; obtain rfl := harg9.eq_unread hf7; obtain rfl := harg10.eq_unread hf8
  sl_exec (disch := first | exact hc0 | exact hc1)
  sl_step
  iapply Hk
  -- the four input blocks, as they were
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  -- the two output blocks, untouched
  isplitl [H4]
  · iexists _; isplitr; · ipureintro; exact hf4
    iexact H4
  isplitl [H5]
  · iexists _; isplitr; · ipureintro; exact hf5
    iexact H5
  -- the running maximum: the last store's payload, each load read at the held contents
  isplitl [H6]
  · iexists _; isplitr; swap; · iexact H6
    ipureintro
    sl_unfold_run_names
    rw [read_writes_whole_cons _ _ zero_offsets]
    simp only [readAt_whole harg2 zero_offsets, readAt_whole harg3 zero_offsets, readAt_whole harg8 zero_offsets]
    rfl
  -- the positives' sum
  isplitl [H7]
  · iexists _; isplitr; swap; · iexact H7
    ipureintro
    sl_unfold_run_names
    rw [read_writes_whole_cons _ _ zero_offsets]
    simp only [readAt_whole harg2 zero_offsets, readAt_whole harg3 zero_offsets, readAt_whole harg4 zero_offsets, readAt_whole harg5 zero_offsets, readAt_whole harg8 zero_offsets, readAt_whole harg9 zero_offsets]
    rfl
  -- the off-diagonal sum
  · iexists _; isplitr; swap; · iexact H8
    ipureintro
    sl_unfold_run_names
    rw [read_writes_whole_cons _ _ zero_offsets]
    simp only [readAt_whole harg2 zero_offsets, readAt_whole harg3 zero_offsets, readAt_whole harg8 zero_offsets, readAt_whole harg10 zero_offsets]
    rfl

set_option maxHeartbeats 1000000 in
/-- The LAST column block (and not the first): the scratch buffers are updated and both running sums copied to the
    output blocks, which were at anything. -/
theorem run_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)
    (hc0 : ¬condFirst i) (hc1 : condLast i)
    (x0 x1 : Vec F S512x1024 .f32) (x2 x3 : Vec F S512x64 .f32) (sm sp sn : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare sm ∗ owns (c : Thread nD τ) arg9 fullShare sp ∗ owns (c : Thread nD τ) arg10 fullShare sn
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (stepP i x0 x1 x2 x3 sm sp) ∗ owns (c : Thread nD τ) arg7 fullShare (stepN i x0 x1 sm sn)
            ∗ owns (c : Thread nD τ) arg8 fullShare (stepM i x0 x1 sm)
            ∗ owns (c : Thread nD τ) arg9 fullShare (stepP i x0 x1 x2 x3 sm sp)
            ∗ owns (c : Thread nD τ) arg10 fullShare (stepN i x0 x1 sm sn)) -∗ K ⟨⟩))
      ⊢ wp frame (wpE (defs₀ (F := F)) Variants.none c none) E (cc0__contrastive_kernel i arg2 harg2 arg3 harg3 arg4 harg4 arg5 harg5 arg6 harg6 arg7 harg7 arg8 harg8 arg9 harg9 arg10 harg10) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg8.eq_unread hf6; obtain rfl := harg9.eq_unread hf7; obtain rfl := harg10.eq_unread hf8
  sl_exec (disch := first | exact hc0 | exact hc1)
  sl_step
  iapply Hk
  -- the four input blocks, as they were
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  -- the first output block: the positives' sum, loaded back after its store
  isplitl [H4]
  · iexists _; isplitr; swap; · iexact H4
    ipureintro
    sl_unfold_run_names
    rw [read_writes_whole_cons _ _ zero_offsets]
    simp only [readAt_whole harg2 zero_offsets, readAt_whole harg3 zero_offsets, readAt_whole harg4 zero_offsets, readAt_whole harg5 zero_offsets, readAt_whole harg8 zero_offsets, readAt_whole harg9 zero_offsets, View.readCov_unit_zero (S := S512x1) _ zero_offsets]
    rfl
  -- the second output block: the off-diagonal sum, loaded back after its store
  isplitl [H5]
  · iexists _; isplitr; swap; · iexact H5
    ipureintro
    sl_unfold_run_names
    rw [read_writes_whole_cons _ _ zero_offsets]
    simp only [readAt_whole harg2 zero_offsets, readAt_whole harg3 zero_offsets, readAt_whole harg8 zero_offsets, readAt_whole harg10 zero_offsets, View.readCov_unit_zero (S := S512x1) _ zero_offsets]
    rfl
  -- the running maximum
  isplitl [H6]
  · iexists _; isplitr; swap; · iexact H6
    ipureintro
    sl_unfold_run_names
    rw [read_writes_whole_cons _ _ zero_offsets]
    simp only [readAt_whole harg2 zero_offsets, readAt_whole harg3 zero_offsets, readAt_whole harg8 zero_offsets]
    rfl
  -- the positives' sum
  isplitl [H7]
  · iexists _; isplitr; swap; · iexact H7
    ipureintro
    sl_unfold_run_names
    rw [read_writes_whole_cons _ _ zero_offsets]
    simp only [readAt_whole harg2 zero_offsets, readAt_whole harg3 zero_offsets, readAt_whole harg4 zero_offsets, readAt_whole harg5 zero_offsets, readAt_whole harg8 zero_offsets, readAt_whole harg9 zero_offsets]
    rfl
  -- the off-diagonal sum
  · iexists _; isplitr; swap; · iexact H8
    ipureintro
    sl_unfold_run_names
    rw [read_writes_whole_cons _ _ zero_offsets]
    simp only [readAt_whole harg2 zero_offsets, readAt_whole harg3 zero_offsets, readAt_whole harg8 zero_offsets, readAt_whole harg10 zero_offsets]
    rfl

end Cert.KernelIdeal.Hand

end
-- ==== Proof.KData.lean ====
/-
  The pipeline's proof data: what every staging buffer and the three scratch buffers hold after the body at each grid
  point, and the body obligation.

  The grid is 8 row blocks by 8 column blocks, walked row block by row block: point `t` has row block `t / 8` and
  column block `t % 8`. Input windows 0 and 2 hold the row block of the embeddings and of the labels, windows 1 and 3
  the column block of the same two arrays; output windows 4 and 5 are the positives' and the off-diagonal sums of the row
  block, stored at the last column block only. The three scratch buffers carry the running maximum and both running
  sums from point to point: after point `t` they hold `scAt t`, one step from what point `t - 1` left — from the reset
  values at a first column block.
-/
import proofs.«136322_j23673859736131_1_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers at launch, as a valuation; -/
abbrev V₀ (c : Dev nD) : Valuation τ sig (Elt F) := fun b => m (c, b)
/-- after the host operations before the region; -/
abbrev V0 (c : Dev nD) : Valuation τ sig (Elt F) := StableHlo.after hostOps0 (V₀ m c)
/-- the same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The memrefs the body is called with -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The scratch operands: the running maximum, the positives' sum, the off-diagonal sum. -/
abbrev scM : Memref sig .tc .vmem S512x1 .f32 := Memref.whole cc0_scratch0
abbrev scP : Memref sig .tc .vmem S512x1 .f32 := Memref.whole cc0_scratch1
abbrev scN : Memref sig .tc .vmem S512x1 .f32 := Memref.whole cc0_scratch2

/-! ## What the scratch buffers hold after each point -/

/-- The scratch contents a point starts from: the reset values at a first column block (a point ≡ 0 mod 8), else what the
    point before left. -/
def scPrev (prev : Vec F S512x1 .f32 × Vec F S512x1 .f32 × Vec F S512x1 .f32) (n : ℕ) :
    Vec F S512x1 .f32 × Vec F S512x1 .f32 × Vec F S512x1 .f32 :=
  if n % 8 = 0 then (resetM, resetP, resetN) else prev

/-- One point's step on the scratch triple (maximum, positives' sum, off-diagonal sum). -/
def scStep (c : Dev nD) (t : Fin cfg0.N) (s : Vec F S512x1 .f32 × Vec F S512x1 .f32 × Vec F S512x1 .f32) :
    Vec F S512x1 .f32 × Vec F S512x1 .f32 × Vec F S512x1 .f32 :=
  (stepM (grid0.coords t) (iblk m c 0 t) (iblk m c 1 t) s.1,
   stepP (grid0.coords t) (iblk m c 0 t) (iblk m c 1 t) (iblk m c 2 t) (iblk m c 3 t) s.1 s.2.1,
   stepN (grid0.coords t) (iblk m c 0 t) (iblk m c 1 t) s.1 s.2.2)

/-- THE RECURSION: the scratch triple after the body at point `n`. -/
def scAt (c : Dev nD) : (n : ℕ) → n < cfg0.N → Vec F S512x1 .f32 × Vec F S512x1 .f32 × Vec F S512x1 .f32
  | 0, hn => scStep m c ⟨0, hn⟩ (resetM, resetP, resetN)
  | n + 1, hn => scStep m c ⟨n + 1, hn⟩ (scPrev (scAt c n (Nat.lt_of_succ_lt hn)) (n + 1))

theorem scAt_zero (c : Dev nD) (hn : 0 < cfg0.N) : scAt m c 0 hn = scStep m c ⟨0, hn⟩ (resetM, resetP, resetN) := rfl
theorem scAt_succ (c : Dev nD) (n : ℕ) (hn : n + 1 < cfg0.N) :
    scAt m c (n + 1) hn = scStep m c ⟨n + 1, hn⟩ (scPrev (scAt m c n (Nat.lt_of_succ_lt hn)) (n + 1)) := rfl

/-! ## The region invariant -/

/-- Before point `n`: at the start the class's invariant (every scratch at anything, the generator register at some
    state); afterwards the three scratch buffers at what the point before left, and the generator register. -/
def PhiS (c : Dev nD) : (n : ℕ) → n ≤ cfg0.N → sProp 𝕄
  | 0, _ => Pipeline.ΦA spec0 c
  | n + 1, hn => iprop(owns (c : Thread nD τ) scM fullShare (scAt m c n hn).1 ∗ owns (c : Thread nD τ) scP fullShare (scAt m c n hn).2.1
      ∗ owns (c : Thread nD τ) scN fullShare (scAt m c n hn).2.2 ∗ (∃ r, prngReg c r))

/-! ## The proof data -/

/-- The proof data on core `c`. The embeddings array is read by windows 0 and 1 and the labels array by windows 2 and 3:
    each pair splits its array's full share into the left and the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (scAt m c t.val t.isLt).2.1
    | ⟨5, _⟩ => (scAt m c t.val t.isLt).2.2
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after4 (c : Dev nD) (t : Fin cfg0.N) : (dats m 0 c).after 4 t = (scAt m c t.val t.isLt).2.1 := by dsimp only [dats]
theorem after5 (c : Dev nD) (t : Fin cfg0.N) : (dats m 0 c).after 5 t = (scAt m c t.val t.isLt).2.2 := by dsimp only [dats]

/-! ## The two conditions and the idle points, over the grid -/

/-- The first-column condition holds exactly at the points ≡ 0 (mod 8); -/
theorem hcondFirst : ∀ t : Fin cfg0.N, condFirst (grid0.coords t) ↔ t.val % 8 = 0 :=
  (by decide +kernel : ∀ t : Fin grid0.N, condFirst (grid0.coords t) ↔ t.val % 8 = 0)
/-- the last-column condition exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The two output windows are idle away from the last column block, live at it. -/
theorem idle4 : ∀ t : Fin cfg0.N, ¬t.val % 8 = 7 → cfg0.idle 4 (grid0.coords t) = true :=
  (by decide +kernel : ∀ t : Fin grid0.N, ¬t.val % 8 = 7 → idle0 4 (grid0.coords t) = true)
theorem idle5 : ∀ t : Fin cfg0.N, ¬t.val % 8 = 7 → cfg0.idle 5 (grid0.coords t) = true :=
  (by decide +kernel : ∀ t : Fin grid0.N, ¬t.val % 8 = 7 → idle0 5 (grid0.coords t) = true)
theorem live4 : ∀ t : Fin cfg0.N, t.val % 8 = 7 → cfg0.idle 4 (grid0.coords t) = false :=
  (by decide +kernel : ∀ t : Fin grid0.N, t.val % 8 = 7 → idle0 4 (grid0.coords t) = false)
theorem live5 : ∀ t : Fin cfg0.N, t.val % 8 = 7 → cfg0.idle 5 (grid0.coords t) = false :=
  (by decide +kernel : ∀ t : Fin grid0.N, t.val % 8 = 7 → idle0 5 (grid0.coords t) = false)
/-- Away from the last column block neither output block is written back. -/
theorem noFlush4 (t : Fin cfg0.N) (h : ¬t.val % 8 = 7) : (cfg0.win 4).flush t = false :=
  Bool.eq_false_iff.mpr fun hf => h ((flush0_4 t).mp hf)
theorem noFlush5 (t : Fin cfg0.N) (h : ¬t.val % 8 = 7) : (cfg0.win 5).flush t = false :=
  Bool.eq_false_iff.mpr fun hf => h ((flush0_5 t).mp hf)

/-! ## What the body finds in the input windows -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

/-- Each input window's current staging buffer holds the window's block at every point, fetched there or not: an
    unfetched window's block index has not moved, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The recursion, read at a point of the grid -/

/-- At a first column block the scratch triple steps from the reset values; -/
theorem scAt_first (c : Dev nD) (t : Fin cfg0.N) (h0 : t.val % 8 = 0) :
    scAt m c t.val t.isLt = scStep m c t (resetM, resetP, resetN) := by
  obtain ⟨n, hn⟩ := t
  cases n with
  | zero => rfl
  | succ n =>
    have h0' : (n + 1) % 8 = 0 := h0
    show scAt m c (n + 1) hn = _
    rw [scAt_succ]; unfold scPrev; rw [if_pos h0']

/-- elsewhere from what the point before left. -/
theorem scAt_next (c : Dev nD) (t : Fin cfg0.N) (h0 : ¬t.val % 8 = 0) :
    scAt m c t.val t.isLt = scStep m c t (scAt m c (t.val - 1) (Nat.lt_of_le_of_lt (Nat.sub_le _ _) t.isLt)) := by
  obtain ⟨n, hn⟩ := t
  cases n with
  | zero => exact absurd (Nat.zero_mod _) h0
  | succ n =>
    have h0' : ¬(n + 1) % 8 = 0 := h0
    show scAt m c (n + 1) hn = scStep m c ⟨n + 1, hn⟩ (scAt m c n (Nat.lt_of_succ_lt hn))
    rw [scAt_succ]; unfold scPrev; rw [if_neg h0']

/-! ## The invariant, read at a point -/

theorem PhiS_zero (c : Dev nD) (n : ℕ) (h : n ≤ cfg0.N) (hz : n = 0) : PhiS m c n h = Pipeline.ΦA spec0 c := by
  subst hz; rfl

/-- After point `n`: the scratch buffers at that point's triple. -/
theorem PhiS_succ (c : Dev nD) (n : ℕ) (hn : n < cfg0.N) :
    PhiS m c (n + 1) hn = iprop(owns (c : Thread nD τ) scM fullShare (scAt m c n hn).1 ∗ owns (c : Thread nD τ) scP fullShare (scAt m c n hn).2.1
      ∗ owns (c : Thread nD τ) scN fullShare (scAt m c n hn).2.2 ∗ (∃ r, prngReg c r)) := rfl

/-- Before a point that is not the first: the scratch buffers at the triple of the point before. -/
theorem PhiS_pos (c : Dev nD) (n : ℕ) (h : n ≤ cfg0.N) (hz : n ≠ 0) :
    PhiS m c n h = iprop(owns (c : Thread nD τ) scM fullShare (scAt m c (n - 1) (by omega)).1 ∗ owns (c : Thread nD τ) scP fullShare (scAt m c (n - 1) (by omega)).2.1
      ∗ owns (c : Thread nD τ) scN fullShare (scAt m c (n - 1) (by omega)).2.2 ∗ (∃ r, prngReg c r)) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-- The launch's invariant with the three scratch buffers as memrefs owned at some contents. -/
theorem PhiA_eq (c : Dev nD) :
    (Pipeline.ΦA spec0 c : sProp 𝕄)
      = iprop(iprop((∃ d, owns (c : Thread nD τ) scM fullShare d) ∗ (∃ d, owns (c : Thread nD τ) scP fullShare d) ∗ (∃ d, owns (c : Thread nD τ) scN fullShare d)) ∗ (∃ r, prngReg c r)) := by
  unfold Pipeline.ΦA; rw [scopedRest0_eq]; simp only [scM, scP, scN, owns_whole]; try rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The four input buffers hold their blocks; the column block decides the case. At a first
    column block the scratch buffers arrive at anything (the launch's invariant at the very first point, the previous
    row block's triple afterwards) and are reset; elsewhere they arrive at the triple of the point before. Both output
    buffers are handed back as found except at a last column block, where they receive the two running sums. The core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 8 = 0
  · have h7 : ¬t.val % 8 = 7 := by omega
    rw [Dat.leavesExact_idle (dats m 0 c) 4 t (idle4 t h7) (noFlush4 t h7)]
    rw [Dat.leavesExact_idle (dats m 0 c) 5 t (idle5 t h7) (noFlush5 t h7)]
    rw [scAt_first m c t h0]
    simp only [scStep]
    by_cases hz : t.val = 0
    · rw [PhiS_castSucc m c t, PhiS_zero m c _ _ hz, PhiA_eq]
      iintro ⟨⟨⟨HM, HP, HN⟩, Hg⟩, Ho, ⟨%d0, H0⟩, ⟨%d1, H1⟩, ⟨%d2, H2⟩, ⟨%d3, H3⟩, ⟨%d4, H4⟩, ⟨%d5, H5⟩⟩
      iapply (run_first c (grid0.coords t) _ _ _ _ _ _ _ _ _ _ _ _ _ _ _ _ _ _ ((hcondFirst t).mpr h0) (fun h => h7 ((hcondLast t).mp h))
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HP]; · iexact HP
      isplitl [HN]; · iexact HN
      iintro ⟨H0, H1, H2, H3, H4, H5, HM, HP, HN⟩
      isplitl [HM HP HN Hg]
      · isplitl [HM]; · iexact HM
        isplitl [HP]; · iexact HP
        isplitl [HN]; · iexact HN
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HM, HP, HN, Hg⟩, Ho, ⟨%d0, H0⟩, ⟨%d1, H1⟩, ⟨%d2, H2⟩, ⟨%d3, H3⟩, ⟨%d4, H4⟩, ⟨%d5, H5⟩⟩
      iapply (run_first c (grid0.coords t) _ _ _ _ _ _ _ _ _ _ _ _ _ _ _ _ _ _ ((hcondFirst t).mpr h0) (fun h => h7 ((hcondLast t).mp h))
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexists _; iexact HM
      isplitl [HP]; · iexists _; iexact HP
      isplitl [HN]; · iexists _; iexact HN
      iintro ⟨H0, H1, H2, H3, H4, H5, HM, HP, HN⟩
      isplitl [HM HP HN Hg]
      · isplitl [HM]; · iexact HM
        isplitl [HP]; · iexact HP
        isplitl [HN]; · iexact HN
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    by_cases h7 : t.val % 8 = 7
    · rw [show (dats m 0 c).leavesExact 4 t = owns (c : Thread nD τ) (ms4 t) fullShare ((dats m 0 c).after 4 t) from by
        unfold Dat.leavesExact; rw [live4 t h7], after4]
      rw [show (dats m 0 c).leavesExact 5 t = owns (c : Thread nD τ) (ms5 t) fullShare ((dats m 0 c).after 5 t) from by
        unfold Dat.leavesExact; rw [live5 t h7], after5]
      rw [scAt_next m c t h0]
      simp only [scStep]
      rw [PhiS_castSucc m c t, PhiS_pos m c _ _ hz]
      iintro ⟨⟨HM, HP, HN, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ _ _ _ _ (fun h => h0 ((hcondFirst t).mp h)) ((hcondLast t).mpr h7)
        (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HM]; · iexact HM
      isplitl [HP]; · iexact HP
      isplitl [HN]; · iexact HN
      iintro ⟨H0, H1, H2, H3, H4, H5, HM, HP, HN⟩
      isplitl [HM HP HN Hg]
      · isplitl [HM]; · iexact HM
        isplitl [HP]; · iexact HP
        isplitl [HN]; · iexact HN
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 4 t (idle4 t h7) (noFlush4 t h7)]
      rw [Dat.leavesExact_idle (dats m 0 c) 5 t (idle5 t h7) (noFlush5 t h7)]
      rw [scAt_next m c t h0]
      simp only [scStep]
      rw [PhiS_castSucc m c t, PhiS_pos m c _ _ hz]
      iintro ⟨⟨HM, HP, HN, Hg⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ _ _ _ _ (fun h => h0 ((hcondFirst t).mp h)) (fun h => h7 ((hcondLast t).mp h))
        (iblk m c 0 t) (iblk m c 1 t) (iblk m c 2 t) (iblk m c 3 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HP]; · iexact HP
      isplitl [HN]; · iexact HN
      iintro ⟨H0, H1, H2, H3, H4, H5, HM, HP, HN⟩
      isplitl [HM HP HN Hg]
      · isplitl [HM]; · iexact HM
        isplitl [HP]; · iexact HP
        isplitl [HN]; · iexact HN
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point; -/
theorem Phi_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back (the scratch contents forgotten). -/
theorem Phi_out (c : Dev nD) : (dats m 0 c).Φ (Fin.last cfg0.N) ⊢ Pipeline.ΦA spec0 c := by
  have hN : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨HM, HP, HN, Hg⟩
  isplitl [HM HP HN]
  · isplitl [HM]; · iexists _; iexact HM
    isplitl [HP]; · iexists _; iexact HP
    iexists _; iexact HN
  iexact Hg

end Cert.KernelIdeal.Hand

end
-- ==== Proof.KLaunch.lean ====
/-
  The launch: @main as host operations, the kernel region, host operations — run from any memory with zero counters.

  @main is fifty host operations (the labels as floats, the binary cross-entropy term, the entropy weights), then the
  one kernel region, then thirty-seven host operations in seven stretches that turn the region's two results into the
  scalar loss. The region reads the embeddings through two windows and the float labels through two windows: at its
  entry each of those two arrays' points-to is split into its two half shares, one per window, and at its exit the
  halves — both still at the entry contents, an input array is never written — are joined again. The two result arrays
  leave the region at what the library computes from the proof data (`Dat.arrAt … N`); every other buffer bypasses it.
  The run's post: the result scalar is the host tail's term of the region's exit contents, and the three argument
  arrays are as launched.
-/
import proofs.«136322_j23673859736131_1_alg».proof.Proof.KData
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The core's buffers when the region is left: the windows' arrays at their final contents, every other buffer as the
    region found it. -/
abbrev Vexit (c : Dev nD) : Valuation τ sig (Elt F) :=
  Pipeline.withArrays spec0 c (V0 m c) (fun w => (dats m 0 c).arrAt w cfg0.N)

/-- The core's buffers at the end: after the seven stretches of host operations that follow the region. -/
abbrev Vfin (c : Dev nD) : Valuation τ sig (Elt F) :=
  StableHlo.after hostOps1_6 (StableHlo.after hostOps1_5 (StableHlo.after hostOps1_4 (StableHlo.after hostOps1_3
    (StableHlo.after hostOps1_2 (StableHlo.after hostOps1_1 (StableHlo.after hostOps1 (Vexit m c)))))))

/-! ## The windows' arrays

Windows 0 and 1 read one array, windows 2 and 3 another; windows 4 and 5 are alone on theirs. -/

/-- Two windows on one array are one window, or both inputs. -/
theorem arr_cases : ∀ w w' : Fin 6, Pipeline.arrRef spec0 w' = Pipeline.arrRef spec0 w →
    w' = w ∨ ((cfg0.win w').isOut = false ∧ (cfg0.win w).isOut = false) := by decide

/-- The entry valuation read at a reference is transported along an equation of references to itself. -/
theorem cast_V (c : Dev nD) (b b' : Ref sig .tc) (e : Proc.devRef .tc b' = Proc.devRef (τ := τ) .tc b) :
    cast (congrArg (fun b' : DevRef τ sig => b'.ty.Contents (Elt F)) e) (V m c b') = V m c b := by
  obtain rfl : b' = b := Proc.devRef_injective _ e
  rfl

/-- At every window's array the exit valuation holds that window's final contents: two windows on one array are inputs,
    and end at the entry contents both. -/
theorem Vexit_arr (c : Dev nD) (w : Fin cfg0.W) :
    Vexit m c (Proc.devRef .tc (Pipeline.arrRef spec0 w)) = (dats m 0 c).arrAt w cfg0.N := by
  unfold Vexit Pipeline.withArrays
  have h' : ∃ w', Proc.devRef .tc (Pipeline.arrRef spec0 w') = Proc.devRef (τ := τ) .tc (Pipeline.arrRef spec0 w) := ⟨w, rfl⟩
  rw [dif_pos h']
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from
    this _ h'.choose_spec
  intro w' e
  rcases arr_cases w w' (Proc.devRef_injective _ e) with rfl | ⟨hi', hi⟩
  · rfl
  · rw [(dats m 0 c).arrAt_in w' hi', (dats m 0 c).arrAt_in w hi, A_eq, A_eq]
    exact cast_V m c _ _ e

theorem Vexit_out4 (c : Dev nD) : Vexit m c (Proc.devRef .tc (Pipeline.arrRef spec0 4)) = (dats m 0 c).arrAt 4 cfg0.N :=
  Vexit_arr m c 4
theorem Vexit_out5 (c : Dev nD) : Vexit m c (Proc.devRef .tc (Pipeline.arrRef spec0 5)) = (dats m 0 c).arrAt 5 cfg0.N :=
  Vexit_arr m c 5
theorem Vexit_of_ne (c : Dev nD) (b : Ref sig .tc) (hb : ∀ w, Pipeline.arrRef spec0 w ≠ b) :
    Vexit m c (Proc.devRef .tc b) = V0 m c (Proc.devRef .tc b) :=
  Pipeline.withArrays_of_ne spec0 c (V0 m c) _ b hb

/-- An input window's array leaves the region as it entered. -/
theorem Vexit_in (c : Dev nD) (w : Fin cfg0.W) (hw : (cfg0.win w).isOut = false) :
    Vexit m c (Proc.devRef .tc (Pipeline.arrRef spec0 w)) = V m c (Pipeline.arrRef spec0 w) := by
  rw [Vexit_arr, (dats m 0 c).arrAt_in w hw, A_eq]

/-- A window's array is a whole buffer: its points-to over the memref's elements is the buffer's. -/
theorem arr_term (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- A buffer held whole is its two half shares, the second named through an equal reference. -/
theorem split_halves (c : Dev nD) (Wv : (b : Ref sig .tc) → Buf (Elt F) ((c.tc : Thread nD τ).loc b)) (b b' : Ref sig .tc) (e : b' = b) :
    ((((c.tc : Thread nD τ).loc b) ↦{fullShare} Wv b : sProp 𝕄))
      ⊣⊢ iprop((((c.tc : Thread nD τ).loc b) ↦{fullShare.left} Wv b) ∗ (((c.tc : Thread nD τ).loc b') ↦{fullShare.right} Wv b')) := by
  subst e
  exact pointsTo_share (PosShare.mem_left_op_right fullShare)

/-- THE ARRAYS AT THE REGION'S ENDS. The four distinct buffers behind the six windows, each whole at the full share at
    contents `Wv`, are the pipeline's arrays at contents that agree with `Wv`: the embeddings' and the labels' full
    shares each split into the left half for the row-block window and the right half for the column-block window. -/
theorem arrays_iff (c : Dev nD) (Wv : (b : Ref sig .tc) → Buf (Elt F) ((c.tc : Thread nD τ).loc b))
    (Fw : (w : Fin cfg0.W) → Buf (Elt F) ((cfg0.win w).arr.view.loc (c.tc : Thread nD τ))) (hF : ∀ w, Fw w = Wv (Pipeline.arrRef spec0 w)) :
    (Pipeline.arrBufs spec0 c Wv : sProp 𝕄) ⊣⊢ (dats m 0 c).arrays Fw := by
  have hI : Finset.univ.image (Pipeline.arrRef spec0)
      = {Pipeline.arrRef spec0 0, Pipeline.arrRef spec0 2, Pipeline.arrRef spec0 4, Pipeline.arrRef spec0 5} := by decide
  have s0 : (dats m 0 c).share 0 = fullShare.left := rfl
  have s1 : (dats m 0 c).share 1 = fullShare.right := rfl
  have s2 : (dats m 0 c).share 2 = fullShare.left := rfl
  have s3 : (dats m 0 c).share 3 = fullShare.right := rfl
  have s4 : (dats m 0 c).share 4 = fullShare := rfl
  have s5 : (dats m 0 c).share 5 = fullShare := rfl
  have hB : (Pipeline.arrBufs spec0 c Wv : sProp 𝕄)
      = iprop((((c.tc : Thread nD τ).loc (Pipeline.arrRef spec0 0)) ↦{fullShare} Wv (Pipeline.arrRef spec0 0))
        ∗ (((c.tc : Thread nD τ).loc (Pipeline.arrRef spec0 2)) ↦{fullShare} Wv (Pipeline.arrRef spec0 2))
        ∗ (((c.tc : Thread nD τ).loc (Pipeline.arrRef spec0 4)) ↦{fullShare} Wv (Pipeline.arrRef spec0 4))
        ∗ (((c.tc : Thread nD τ).loc (Pipeline.arrRef spec0 5)) ↦{fullShare} Wv (Pipeline.arrRef spec0 5))) := by
    unfold Pipeline.arrBufs
    rw [hI, bigSep_insert (by decide), bigSep_insert (by decide), bigSep_insert (by decide), bigSep_singleton]
    rfl
  have hA : ((dats m 0 c).arrays Fw : sProp 𝕄)
      = iprop((((c.tc : Thread nD τ).loc (Pipeline.arrRef spec0 0)) ↦{fullShare.left} Wv (Pipeline.arrRef spec0 0))
        ∗ (((c.tc : Thread nD τ).loc (Pipeline.arrRef spec0 1)) ↦{fullShare.right} Wv (Pipeline.arrRef spec0 1))
        ∗ (((c.tc : Thread nD τ).loc (Pipeline.arrRef spec0 2)) ↦{fullShare.left} Wv (Pipeline.arrRef spec0 2))
        ∗ (((c.tc : Thread nD τ).loc (Pipeline.arrRef spec0 3)) ↦{fullShare.right} Wv (Pipeline.arrRef spec0 3))
        ∗ (((c.tc : Thread nD τ).loc (Pipeline.arrRef spec0 4)) ↦{fullShare} Wv (Pipeline.arrRef spec0 4))
        ∗ (((c.tc : Thread nD τ).loc (Pipeline.arrRef spec0 5)) ↦{fullShare} Wv (Pipeline.arrRef spec0 5))) := by
    have h₁ : ((dats m 0 c).arrays Fw : sProp 𝕄) = bigSep Finset.univ fun w : Fin 6 =>
        (((c.tc : Thread nD τ).loc (Pipeline.arrRef spec0 w)) ↦{(dats m 0 c).share w} Wv (Pipeline.arrRef spec0 w) : sProp 𝕄) := by
      unfold Dat.arrays
      exact bigSep_congr fun w _ => by rw [arr_term c w, hF w]
    rw [h₁, bigSep_W0, s0, s1, s2, s3, s4, s5]
  rw [hB, hA]
  constructor
  · iintro ⟨H0, H2, H4, H5⟩
    ihave H0 := (split_halves c Wv _ (Pipeline.arrRef spec0 1) rfl).1 $$ H0
    ihave H2 := (split_halves c Wv _ (Pipeline.arrRef spec0 3) rfl).1 $$ H2
    icases H0 with ⟨H0, H1⟩
    icases H2 with ⟨H2, H3⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    isplitl [H0 H1]
    · iapply (split_halves c Wv _ (Pipeline.arrRef spec0 1) rfl).2
      isplitl [H0] <;> iassumption
    isplitl [H2 H3]
    · iapply (split_halves c Wv _ (Pipeline.arrRef spec0 3) rfl).2
      isplitl [H2] <;> iassumption
    isplitl [H4]; · iexact H4
    iexact H5

/-- Off the windows' arrays the exit valuation is the entry valuation: the buffers that bypass the region. -/
theorem rest_exit (c : Dev nD) :
    (Pipeline.unscopedRest (Ix := Unit) (Name := ℕ) (U := UR sig nD τ) (Lvl := ℕ) spec0 c (fun b => Vexit m c (Proc.devRef .tc b)) : sProp 𝕄)
      = Pipeline.unscopedRest spec0 c (V m c) := by
  unfold Pipeline.unscopedRest
  exact bigSep_congr fun b hb => by
    beta_reduce
    rw [Vexit_of_ne m c b fun w e => (Finset.mem_sdiff.mp hb).2 (Finset.mem_image.mpr ⟨w, Finset.mem_univ _, e⟩)]

/-! ## The arguments are never written

No host operation of any stretch has an argument array as its result. -/

theorem nw0 : ∀ op ∈ (hostOps0 (F := F)), ∀ b ∈ [main_arg0, main_arg1, main_arg2], Proc.devRef (τ := τ) .tc b ∉ op.writes :=
  of_decide_eq_true rfl
theorem nw1 : ∀ op ∈ (hostOps1 (F := F)), ∀ b ∈ [main_arg0, main_arg1, main_arg2], Proc.devRef (τ := τ) .tc b ∉ op.writes :=
  of_decide_eq_true rfl
theorem nw1_1 : ∀ op ∈ (hostOps1_1 (F := F)), ∀ b ∈ [main_arg0, main_arg1, main_arg2], Proc.devRef (τ := τ) .tc b ∉ op.writes :=
  of_decide_eq_true rfl
theorem nw1_2 : ∀ op ∈ (hostOps1_2 (F := F)), ∀ b ∈ [main_arg0, main_arg1, main_arg2], Proc.devRef (τ := τ) .tc b ∉ op.writes :=
  of_decide_eq_true rfl
theorem nw1_3 : ∀ op ∈ (hostOps1_3 (F := F)), ∀ b ∈ [main_arg0, main_arg1, main_arg2], Proc.devRef (τ := τ) .tc b ∉ op.writes :=
  of_decide_eq_true rfl
theorem nw1_4 : ∀ op ∈ (hostOps1_4 (F := F)), ∀ b ∈ [main_arg0, main_arg1, main_arg2], Proc.devRef (τ := τ) .tc b ∉ op.writes :=
  of_decide_eq_true rfl
theorem nw1_5 : ∀ op ∈ (hostOps1_5 (F := F)), ∀ b ∈ [main_arg0, main_arg1, main_arg2], Proc.devRef (τ := τ) .tc b ∉ op.writes :=
  of_decide_eq_true rfl
theorem nw1_6 : ∀ op ∈ (hostOps1_6 (F := F)), ∀ b ∈ [main_arg0, main_arg1, main_arg2], Proc.devRef (τ := τ) .tc b ∉ op.writes :=
  of_decide_eq_true rfl

/-- An argument reaches the region as launched; -/
theorem V0_arg (c : Dev nD) (b : Ref sig .tc) (hb : b ∈ [main_arg0, main_arg1, main_arg2]) :
    V0 m c (Proc.devRef .tc b) = m ((c.tc : Thread nD τ).loc b) :=
  StableHlo.after_of_forall_not_mem hostOps0 (V₀ m c) fun op h => nw0 op h b hb

/-- and the end as the region left it. -/
theorem Vfin_arg (c : Dev nD) (b : Ref sig .tc) (hb : b ∈ [main_arg0, main_arg1, main_arg2]) :
    Vfin m c (Proc.devRef .tc b) = Vexit m c (Proc.devRef .tc b) :=
  (StableHlo.after_of_forall_not_mem hostOps1_6 _ fun op h => nw1_6 op h b hb).trans <|
  (StableHlo.after_of_forall_not_mem hostOps1_5 _ fun op h => nw1_5 op h b hb).trans <|
  (StableHlo.after_of_forall_not_mem hostOps1_4 _ fun op h => nw1_4 op h b hb).trans <|
  (StableHlo.after_of_forall_not_mem hostOps1_3 _ fun op h => nw1_3 op h b hb).trans <|
  (StableHlo.after_of_forall_not_mem hostOps1_2 _ fun op h => nw1_2 op h b hb).trans <|
  (StableHlo.after_of_forall_not_mem hostOps1_1 _ fun op h => nw1_1 op h b hb).trans <|
  (StableHlo.after_of_forall_not_mem hostOps1 _ fun op h => nw1 op h b hb)

theorem Vfin_arg0 (c : Dev nD) : Vfin m c (Proc.devRef .tc main_arg0) = m ((c.tc : Thread nD τ).loc main_arg0) :=
  (Vfin_arg m c main_arg0 (by decide)).trans ((Vexit_in m c 0 rfl).trans (V0_arg m c main_arg0 (by decide)))
theorem Vfin_arg1 (c : Dev nD) : Vfin m c (Proc.devRef .tc main_arg1) = m ((c.tc : Thread nD τ).loc main_arg1) :=
  (Vfin_arg m c main_arg1 (by decide)).trans ((Vexit_of_ne m c main_arg1 (by decide)).trans (V0_arg m c main_arg1 (by decide)))
theorem Vfin_arg2 (c : Dev nD) : Vfin m c (Proc.devRef .tc main_arg2) = m ((c.tc : Thread nD τ).loc main_arg2) :=
  (Vfin_arg m c main_arg2 (by decide)).trans ((Vexit_of_ne m c main_arg2 (by decide)).trans (V0_arg m c main_arg2 (by decide)))

/-- An unscoped TensorCore reference is among the buffers the host stretches hold. -/
theorem mem_uc (b : Ref sig .tc) (hb : (Proc.devRef (τ := τ) .tc b).isScoped = false) : Proc.devRef (τ := τ) .tc b ∈ Pipeline.ucRefs τ sig :=
  Finset.mem_filter.mpr ⟨StableHlo.devRef_mem_tcRefs b, by rw [hb]; exact Bool.false_ne_true⟩

/-! ## The launch: @main as segments -/

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through every host stretch: the generator register at some state and the core
    owing nothing. -/
abbrev R (c : Dev nD) : sProp 𝕄 :=
  iprop((∃ r, prngReg c r) ∗ ∃ W, owes (c : Thread nD τ) (0 : CellTallies nD τ sig Unit) W)

/-- The TensorCore's unscoped references: the set every host stretch runs within. -/
abbrev uc : Finset (DevRef τ sig) := Pipeline.ucRefs τ sig

/-- The fifty operations before the region. -/
def seg0 : Pipeline.HostSeg (Name := ℕ) (U := UR sig nD τ) (pcfgs (F := F)) defs₀ 𝒱₀ L lv :=
  Pipeline.HostSeg.ofOps _ _ _ _ _ uc hostOps0 (fun op h => Pipeline.sub_ucRefs op ((List.forall_iff_forall_mem.mp hostOps0_sub) op h))
    (by intro _ h; (repeat (cases h with | head => rfl | tail _ h => ?_)); exact nomatch h) (V₀ m) R

/-- The seven stretches after the region, each from what the one before left. -/
def seg1 : Pipeline.HostSeg (Name := ℕ) (U := UR sig nD τ) (pcfgs (F := F)) defs₀ 𝒱₀ L lv :=
  Pipeline.HostSeg.ofOps _ _ _ _ _ uc hostOps1 (fun op h => Pipeline.sub_ucRefs op ((List.forall_iff_forall_mem.mp hostOps1_sub) op h))
    (by intro _ h; (repeat (cases h with | head => rfl | tail _ h => ?_)); exact nomatch h) (Vexit m) R
def seg2 : Pipeline.HostSeg (Name := ℕ) (U := UR sig nD τ) (pcfgs (F := F)) defs₀ 𝒱₀ L lv :=
  Pipeline.HostSeg.ofOps _ _ _ _ _ uc hostOps1_1 (fun op h => Pipeline.sub_ucRefs op ((List.forall_iff_forall_mem.mp hostOps1_1_sub) op h))
    (by intro _ h; (repeat (cases h with | head => rfl | tail _ h => ?_)); exact nomatch h)
    (fun c => StableHlo.after hostOps1 (Vexit m c)) R
def seg3 : Pipeline.HostSeg (Name := ℕ) (U := UR sig nD τ) (pcfgs (F := F)) defs₀ 𝒱₀ L lv :=
  Pipeline.HostSeg.ofOps _ _ _ _ _ uc hostOps1_2 (fun op h => Pipeline.sub_ucRefs op ((List.forall_iff_forall_mem.mp hostOps1_2_sub) op h))
    (by intro _ h; (repeat (cases h with | head => rfl | tail _ h => ?_)); exact nomatch h)
    (fun c => StableHlo.after hostOps1_1 (StableHlo.after hostOps1 (Vexit m c))) R
def seg4 : Pipeline.HostSeg (Name := ℕ) (U := UR sig nD τ) (pcfgs (F := F)) defs₀ 𝒱₀ L lv :=
  Pipeline.HostSeg.ofOps _ _ _ _ _ uc hostOps1_3 (fun op h => Pipeline.sub_ucRefs op ((List.forall_iff_forall_mem.mp hostOps1_3_sub) op h))
    (by intro _ h; (repeat (cases h with | head => rfl | tail _ h => ?_)); exact nomatch h)
    (fun c => StableHlo.after hostOps1_2 (StableHlo.after hostOps1_1 (StableHlo.after hostOps1 (Vexit m c)))) R
def seg5 : Pipeline.HostSeg (Name := ℕ) (U := UR sig nD τ) (pcfgs (F := F)) defs₀ 𝒱₀ L lv :=
  Pipeline.HostSeg.ofOps _ _ _ _ _ uc hostOps1_4 (fun op h => Pipeline.sub_ucRefs op ((List.forall_iff_forall_mem.mp hostOps1_4_sub) op h))
    (by intro _ h; (repeat (cases h with | head => rfl | tail _ h => ?_)); exact nomatch h)
    (fun c => StableHlo.after hostOps1_3 (StableHlo.after hostOps1_2 (StableHlo.after hostOps1_1 (StableHlo.after hostOps1 (Vexit m c))))) R
def seg6 : Pipeline.HostSeg (Name := ℕ) (U := UR sig nD τ) (pcfgs (F := F)) defs₀ 𝒱₀ L lv :=
  Pipeline.HostSeg.ofOps _ _ _ _ _ uc hostOps1_5 (fun op h => Pipeline.sub_ucRefs op ((List.forall_iff_forall_mem.mp hostOps1_5_sub) op h))
    (by intro _ h; (repeat (cases h with | head => rfl | tail _ h => ?_)); exact nomatch h)
    (fun c => StableHlo.after hostOps1_4 (StableHlo.after hostOps1_3 (StableHlo.after hostOps1_2 (StableHlo.after hostOps1_1
      (StableHlo.after hostOps1 (Vexit m c)))))) R
def seg7 : Pipeline.HostSeg (Name := ℕ) (U := UR sig nD τ) (pcfgs (F := F)) defs₀ 𝒱₀ L lv :=
  Pipeline.HostSeg.ofOps _ _ _ _ _ uc hostOps1_6 (fun op h => Pipeline.sub_ucRefs op ((List.forall_iff_forall_mem.mp hostOps1_6_sub) op h))
    (by intro _ h; (repeat (cases h with | head => rfl | tail _ h => ?_)); exact nomatch h)
    (fun c => StableHlo.after hostOps1_5 (StableHlo.after hostOps1_4 (StableHlo.after hostOps1_3 (StableHlo.after hostOps1_2
      (StableHlo.after hostOps1_1 (StableHlo.after hostOps1 (Vexit m c))))))) R

set_option backward.isDefEq.respectTransparency.types false in
/-- THE REGION: entered from what the fifty operations left. At the entry the embeddings' and the labels' points-to are each
    split into half shares, one per window on the array; the generator register enters the invariant; every buffer that
    is no window's array bypasses. At the exit the halves — an input array is never written — are joined again, and
    the buffers are held at the exit valuation. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) uc (V0 m c) ∗ R c)
  post c := iprop(StableHlo.held (c : Thread nD τ) uc (Vexit m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) uc (V0 m c) = unscopedBufs c (V m c) from (Pipeline.unscopedBufs_held c _).symm,
      Pipeline.unscopedBufs_split₀ cfgs 0 winFacts₀0.arr_unscoped c (V m c)]
    iintro ⟨⟨⟨Hab, Hrest⟩, Hp, HO⟩, -, -⟩
    ihave Ha := (arrays_iff m c (V m c) (fun w => (dats m 0 c).arrAt w 0) (fun w => A_eq m c w)).1 $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (Phi_in m c)
    unfold Pipeline.ΦA
    iintro ⟨Hp, -, Hr⟩
    isplitl [Hr] <;> iassumption
  hout c := by
    refine (Phi_out m c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) uc (Vexit m c) = unscopedBufs c (fun b => Vexit m c (Proc.devRef .tc b)) from
        (Pipeline.unscopedBufs_held c _).symm,
      Pipeline.unscopedBufs_split₀ cfgs 0 winFacts₀0.arr_unscoped c (fun b => Vexit m c (Proc.devRef .tc b)), rest_exit]
    iintro ⟨Ha, HO, Hp, Hrest⟩
    ihave Hab := (arrays_iff m c (fun b => Vexit m c (Proc.devRef .tc b)) (fun w => (dats m 0 c).arrAt w cfg0.N)
      (fun w => (Vexit_arr m c w).symm)).2 $$ Ha
    imodintro
    isplitl [Hab Hrest]
    · isplitl [Hab] <;> iassumption
    isplitl [Hp]; · iexact Hp
    unfold Pipeline.Dat.owesAt Pipeline.owesWithin
    icases HO with ⟨%W, -, HO⟩; iexists W; iexact HO

/-- @main as the list of the nine: fifty operations, the region, seven stretches of operations. -/
abbrev segs : List (Pipeline.Seg (pcfgs (F := F)) adm (dats m) () defs₀ 𝒱₀ L lv) :=
  [.host (seg0 m), .region (reg0 m), .host (seg1 m), .host (seg2 m), .host (seg3 m), .host (seg4 m), .host (seg5 m), .host (seg6 m),
    .host (seg7 m)]

set_option backward.isDefEq.respectTransparency.types false in
/-- THE RUN. At the compiled mesh, from any memory with zero counters: every weakly fair execution of @main on the
    TensorCores terminates, nothing faulting, the result holding the host tail's term and the arguments as launched. -/
theorem run_main : θ_run defs (onTc (τ := τ) (main (F := F))) (s₀ m ρ) (fun r => ∀ c : Dev nD,
      r.2.mem ((c.tc : Thread nD τ).loc main_v60) = Vfin m c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (dats m) () cellOf_inj emb₁ defs₀ 𝒱₀ L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) uc (V₀ m c) ∗ R c))
    (Tₙ := fun c => iprop(StableHlo.held (c : Thread nD τ) uc (Vfin m c) ∗ ∃ r, prngReg c r))
    (hch := ⟨fun _ => .rfl, fun _ => .rfl, fun _ => .rfl, fun _ => .rfl, fun _ => .rfl, fun _ => .rfl, fun _ => .rfl, fun _ => .rfl,
      fun _ => .rfl, fun c => sep_assoc.2⟩)
    (hinit := by
      refine Pipeline.initEach L lv fun c => ?_
      rw [show unscopedBufs c (fun b => m ((c : Thread nD τ).loc b)) = StableHlo.held (c : Thread nD τ) uc (V₀ m c) from
        Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v60) = Vfin m c (Proc.devRef .tc main_v60)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨⟨Hh, -⟩, HSI⟩
      ihave Hr := (pointsTo_read_all uc (fun b => ((c.tc : Thread nD τ).1, b)) (Vfin m c) s') $$ [Hh HSI]
      · isplitl [Hh] <;> iassumption
      icases Hr with ⟨%ha, HSI⟩
      imodintro
      isplitr
      · ipureintro
        exact ⟨ha _ (mem_uc main_v60 rfl), (ha _ (mem_uc main_arg0 rfl)).trans (Vfin_arg0 m c),
          (ha _ (mem_uc main_arg1 rfl)).trans (Vfin_arg1 m c), (ha _ (mem_uc main_arg2 rfl)).trans (Vfin_arg2 m c)⟩
      iexact HSI)
    (hQ := fun _ h => h)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.RefClose.lean ====
/-
  The closing chain both programs share: from the binary cross-entropy term, the per-row weights, the "row has a
  positive" bits and the two masked row sums to the scalar loss.

  ratio = positives' sum / (off-diagonal sum + 1e-8) where the row has a positive, else 1; per-row loss = -log ratio · weight;
  the contrastive term is the mean of the per-row losses over the rows that have a positive (0 if there is none); the
  result adds it to the cross-entropy term. The reference's last stage is this function of its five stages.
-/
import proofs.«136322_j23673859736131_1_alg».proof.Proof.RefRead

noncomputable section

namespace Cert.ReferenceIdeal.HandValue

open Cert.ReferenceIdeal Cert.ReferenceIdeal.Gen Cert.ReferenceIdeal.ReadP
open Idealize.ShloMosaic Idealize.ShloMosaic.TcCoe

variable {F : FTy → Type} [FloatOps F]

/-- The closing chain. -/
def closing (bce : (⟨S_, .f32⟩ : BufTy).Contents (Elt F)) (w : (⟨S4096, .f32⟩ : BufTy).Contents (Elt F)) (valid : (⟨S4096, .i1⟩ : BufTy).Contents (Elt F))
    (pos neg : (⟨S4096, .f32⟩ : BufTy).Contents (Elt F)) : (⟨S_, .f32⟩ : BufTy).Contents (Elt F) :=
  addf bce
    (mulf (constant S_ .f32 0x3F800000#32)
      (select
        (cmpi .sgt (Host.reduce IntOp.addi (extui 32 valid natLt_1_32) (constantI S_ 32 0#32) reducesTo_S4096_S_d0 h_S_) (constantI S_ 32 0#32))
        (Host.divf
          (Host.reduceAdd
            (select valid
              (mulf (Host.negf (Host.log
                (select valid
                  (Host.divf pos (addf neg (broadcastInDim S4096 ![] bcast_S_S4096 (constant S_ .f32 0x322BCC77#32))))
                  (broadcastInDim S4096 ![] bcast_S_S4096 (id (constant S_ .f32 0x3F800000#32)))))) w)
              (broadcastInDim S4096 ![] bcast_S_S4096 (id (constant S_ .f32 0x00000000#32))))
            (constant S_ .f32 0x00000000#32) reducesTo_S4096_S_d0 h_S_)
          (sitofp (F := F) .f32 (maxsi (Host.reduce IntOp.addi (extui 32 valid natLt_1_32) (constantI S_ 32 0#32) reducesTo_S4096_S_d0 h_S_) (constantI S_ 32 1#32))))
        (id (constant S_ .f32 0x00000000#32))))

/-- The reference's result stage is the closing chain of its five stages. -/
theorem ref_closing (x0 : (⟨S4096x1024, .f32⟩ : BufTy).Contents (Elt F)) (x1 : (⟨S4096x64, .f32⟩ : BufTy).Contents (Elt F)) (x2 : (⟨S4096x64, .i32⟩ : BufTy).Contents (Elt F)) :
    val_main_v81 (F := F) x0 x1 x2
      = closing (val_main_v11 (F := F) x1 x2) (val_main_v37 (F := F) x1 x2) (val_main_v53 (F := F) x2)
          (val_main_v61 (F := F) x0 x2) (val_main_v63 (F := F) x0) := by
  unfold val_main_v81 val_main_v80 val_main_v79 val_main_v78 val_main_v77 val_main_v76 val_main_v75 val_main_v74 val_main_v73
    val_main_v72 val_main_v71 val_main_v70 val_main_v69 val_main_v68 val_main_v67 val_main_v66 val_main_v65 val_main_v64
    val_main_cst_28 val_main_call5_v0 val_main_cst_27 val_main_c_26 val_main_cst_25 val_main_call4_v1 val_main_call4_v0
    val_main_cst_24 val_main_c_23 val_main_c_22 val_main_call3_v1 val_main_call3_v0 val_main_cst_21 val_main_cst_20 closing
  rfl

end Cert.ReferenceIdeal.HandValue

end
-- ==== Proof.KClose.lean ====
/-
  The kernel program's result as the closing chain of RefClose.lean, and its host prefix as the reference's stages.

  After the region the host tail reshapes the two result arrays [4096, 1] to vectors, takes "the positives' sum is
  positive" as the row's validity bit, and runs the same closing chain as the reference: the ratio, its negated
  logarithm times the weights, the mean over the valid rows, added to the cross-entropy term. Before the region the
  fifty host operations compute the float labels, the cross-entropy term and the weights exactly as the reference's
  first stages do: operation for operation the same functions of the arguments.
-/
import proofs.«136322_j23673859736131_1_alg».proof.Proof.KLaunch
import proofs.«136322_j23673859736131_1_alg».proof.Proof.RefClose

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.ReferenceIdeal.HandValue (closing)

variable (m : (ℓ : Loc nD τ sig) → Buf (Elt F) ℓ)

/-- The two result arrays as the tail reads them: reshaped to vectors of 4096. -/
abbrev posVec (c : Dev nD) : (⟨S4096, .f32⟩ : BufTy).Contents (Elt F) :=
  shapeCast S4096 (Vexit m c (Proc.devRef .tc main_v38_0)) shapeCasts_S4096x1_S4096
abbrev negVec (c : Dev nD) : (⟨S4096, .f32⟩ : BufTy).Contents (Elt F) :=
  shapeCast S4096 (Vexit m c (Proc.devRef .tc main_v38_1)) shapeCasts_S4096x1_S4096

/-- The host tail over any exit contents `Ve`: the result scalar is the closing chain of what `Ve` holds at the
    cross-entropy term, at the weights and — reshaped to vectors — at the two result arrays. The module-local calls
    carry their values through casts along equal buffer types, which are the identity. -/
theorem tail_closing (Ve : Valuation τ sig (Elt F)) :
    StableHlo.after (hostOps1_6 (F := F)) (StableHlo.after hostOps1_5 (StableHlo.after hostOps1_4 (StableHlo.after hostOps1_3
      (StableHlo.after hostOps1_2 (StableHlo.after hostOps1_1 (StableHlo.after hostOps1 Ve)))))) (Proc.devRef .tc main_v60)
      = closing (Ve (Proc.devRef .tc main_v11)) (Ve (Proc.devRef .tc main_v37))
          (cmpf (F := F) .ogt (shapeCast S4096 (Ve (Proc.devRef .tc main_v38_0)) shapeCasts_S4096x1_S4096)
            (broadcastInDim S4096 ![] bcast_S_S4096 (constant S_ .f32 0x00000000#32)))
          (shapeCast S4096 (Ve (Proc.devRef .tc main_v38_0)) shapeCasts_S4096x1_S4096)
          (shapeCast S4096 (Ve (Proc.devRef .tc main_v38_1)) shapeCasts_S4096x1_S4096) := by
  after_results_simp
  simp only [StableHlo.TRef.ofBuf, StableHlo.TRef.toBuf, cast_eq]
  unfold closing
  rfl

/-- The cross-entropy term and the weights are no window's array: the region leaves them as it found them. -/
theorem Vexit_v11 (c : Dev nD) : Vexit m c (Proc.devRef .tc main_v11) = V0 m c (Proc.devRef .tc main_v11) :=
  Pipeline.withArrays_of_ne spec0 c (V0 m c) _ main_v11 (by decide)
theorem Vexit_v37 (c : Dev nD) : Vexit m c (Proc.devRef .tc main_v37) = V0 m c (Proc.devRef .tc main_v37) :=
  Pipeline.withArrays_of_ne spec0 c (V0 m c) _ main_v37 (by decide)

/-- The result scalar is the closing chain of the prefix's cross-entropy term and weights, the validity bits
    "positives' sum > 0", and the two reshaped result arrays. -/
theorem kernel_closing (c : Dev nD) :
    Vfin m c (Proc.devRef .tc main_v60)
      = closing (V0 m c (Proc.devRef .tc main_v11)) (V0 m c (Proc.devRef .tc main_v37))
          (cmpf (F := F) .ogt (posVec m c) (broadcastInDim S4096 ![] bcast_S_S4096 (constant S_ .f32 0x00000000#32)))
          (posVec m c) (negVec m c) := by
  have h := tail_closing (F := F) (Vexit m c)
  rw [Vexit_v11, Vexit_v37] at h
  exact h

/-- The host prefix: the float labels, the cross-entropy term and the weights are the reference's stages of the
    arguments; the embeddings are untouched. Each side is the same chain of operations over the same arguments. -/
theorem prefix_labels (c : Dev nD) :
    V0 m c (Proc.devRef .tc main_v0) = Cert.ReferenceIdeal.ReadP.val_main_v0 (F := F) (m ((c.tc : Thread nD τ).loc main_arg2)) := by
  show StableHlo.after hostOps0 (V₀ m c) (Proc.devRef .tc main_v0) = _
  after_results_simp
  rfl
theorem prefix_bce (c : Dev nD) :
    V0 m c (Proc.devRef .tc main_v11)
      = Cert.ReferenceIdeal.ReadP.val_main_v11 (F := F) (m ((c.tc : Thread nD τ).loc main_arg1)) (m ((c.tc : Thread nD τ).loc main_arg2)) := by
  show StableHlo.after hostOps0 (V₀ m c) (Proc.devRef .tc main_v11) = _
  after_results_simp
  rfl
theorem prefix_w (c : Dev nD) :
    V0 m c (Proc.devRef .tc main_v37)
      = Cert.ReferenceIdeal.ReadP.val_main_v37 (F := F) (m ((c.tc : Thread nD τ).loc main_arg1)) (m ((c.tc : Thread nD τ).loc main_arg2)) := by
  show StableHlo.after hostOps0 (V₀ m c) (Proc.devRef .tc main_v37) = _
  after_results_simp
  rfl
theorem prefix_arg0 (c : Dev nD) : V0 m c (Proc.devRef .tc main_arg0) = m ((c.tc : Thread nD τ).loc main_arg0) := by
  show StableHlo.after hostOps0 (V₀ m c) (Proc.devRef .tc main_arg0) = _
  after_results_simp
  try rfl

end Cert.KernelIdeal.Hand

end
-- ==== Proof.Spec.lean ====
/-
  The mathematics of the masked row-wise softmax sums, free of any program.

  For one row, `s j` is the row's similarity with column `j`, `off j` says the column is not the row's own
  (an off-diagonal entry) and `pm j` that it is a positive (the two rows share a label and differ).
  The two-pass form takes the maximum `c` of the off-diagonal similarities and then the sums of
  `exp (s j - c)` over the positives and over the off-diagonal columns.  The one-pass (online) form walks
  the columns block by block, keeping a running maximum and rescaling the running sums by
  `exp (m_old - m_new)` at every block.  On real similarities, with an off-diagonal column in every
  block, the two forms agree: `exp (a - b) * exp (x - a) = exp (x - b)` on the reals, and the first
  block's rescaling factor is `exp ⊥ = 0` against sums that are still `0`.
-/
import Idealize.ShloMosaic.PureOps.Ideal
import Mathlib.Algebra.BigOperators.Intervals
import Mathlib.Order.Interval.Finset.Nat

noncomputable section

namespace Cert.Softmax

open Idealize.ShloMosaic

/-- The state the one-pass form carries: the running maximum, the positives' sum, the off-diagonal sum. -/
abbrev St := EReal × EReal × EReal

/-- The masked maximum of a block of `B` similarities: `⊥` where the mask is off. -/
def blockMax (B : ℕ) (sb : ℕ → EReal) (ob : ℕ → Bool) : EReal :=
  (Finset.range B).sup fun q => if ob q then sb q else ⊥

/-- The masked sum of `exp (sb q - c)` over a block. -/
def blockSum (B : ℕ) (sb : ℕ → EReal) (mb : ℕ → Bool) (c : EReal) : EReal :=
  ∑ q ∈ Finset.range B, if mb q then Ideal.exp (sb q - c) else 0

/-- One block of the one-pass form: the new maximum, and both sums rescaled by `exp (m - m')` plus the block's. -/
def stepBlk (B : ℕ) (st : St) (sb : ℕ → EReal) (ob pb : ℕ → Bool) : St :=
  let m' := max st.1 (blockMax B sb ob)
  let a := Ideal.exp (st.1 - m')
  (m', a * st.2.1 + blockSum B sb pb m', a * st.2.2 + blockSum B sb ob m')

/-- The state before any block: maximum `⊥`, sums `0`. -/
def st0 : St := (⊥, 0, 0)

/-- The one-pass form after the first `n` blocks of `B` columns. -/
def online (B : ℕ) (s : ℕ → EReal) (off pm : ℕ → Bool) : ℕ → St
  | 0 => st0
  | n + 1 => stepBlk B (online B s off pm n) (fun q => s (n * B + q)) (fun q => off (n * B + q)) (fun q => pm (n * B + q))

/-- The two-pass form's maximum over the first `N` columns. -/
def rowMax (N : ℕ) (s : ℕ → EReal) (off : ℕ → Bool) : EReal :=
  (Finset.range N).sup fun j => if off j then s j else ⊥

/-- The two-pass form's masked sum over the first `N` columns. -/
def rowSum (N : ℕ) (s : ℕ → EReal) (msk : ℕ → Bool) (c : EReal) : EReal :=
  ∑ j ∈ Finset.range N, if msk j then Ideal.exp (s j - c) else 0

/-! ### Splitting the first `a + b` columns into the first `a` and the block of `b` after them -/

/-- The maximum over `a + b` columns is the larger of the maximum over the first `a` and the next block's. -/
theorem rowMax_add (a b : ℕ) (s : ℕ → EReal) (off : ℕ → Bool) :
    rowMax (a + b) s off = max (rowMax a s off) (blockMax b (fun q => s (a + q)) (fun q => off (a + q))) := by
  induction b with
  | zero => simp [rowMax, blockMax]
  | succ b ih =>
    have ih' := ih
    simp only [rowMax, blockMax] at ih' ⊢
    rw [← Nat.add_assoc, Finset.range_add_one, Finset.sup_insert, ih', Finset.range_add_one, Finset.sup_insert]
    exact max_left_comm _ _ _

/-- The masked sum over `a + b` columns is the sum over the first `a` plus the next block's. -/
theorem rowSum_add (a b : ℕ) (s : ℕ → EReal) (msk : ℕ → Bool) (c : EReal) :
    rowSum (a + b) s msk c = rowSum a s msk c + blockSum b (fun q => s (a + q)) (fun q => msk (a + q)) c := by
  simp only [rowSum, blockSum, Finset.sum_range_add]

/-! ### The maximum of real similarities over a mask that is somewhere on is real -/

theorem rowMax_real (N : ℕ) (s : ℕ → EReal) (off : ℕ → Bool)
    (hreal : ∀ j, ∃ r : ℝ, s j = (r : EReal)) (hoff : ∃ j, j < N ∧ off j = true) :
    ∃ M : ℝ, rowMax N s off = (M : EReal) := by
  obtain ⟨j, hj, hjo⟩ := hoff
  obtain ⟨r, hr⟩ := hreal j
  have hne_bot : rowMax N s off ≠ ⊥ := by
    have hle : (fun j => if off j then s j else ⊥) j ≤ rowMax N s off :=
      Finset.le_sup (f := fun j => if off j then s j else ⊥) (Finset.mem_range.mpr hj)
    simp only [hjo, if_true, hr] at hle
    intro h
    rw [h] at hle
    exact absurd (le_bot_iff.mp hle) (EReal.coe_ne_bot r)
  have hne_top : rowMax N s off ≠ ⊤ := by
    have hlt : rowMax N s off < ⊤ := by
      rw [rowMax, Finset.sup_lt_iff (bot_lt_top)]
      intro i _
      obtain ⟨ri, hri⟩ := hreal i
      split_ifs
      · rw [hri]; exact EReal.coe_lt_top ri
      · exact bot_lt_top
    exact ne_of_lt hlt
  exact ⟨(rowMax N s off).toReal, (EReal.coe_toReal hne_top hne_bot).symm⟩

/-! ### The masked sums on the reals -/

/-- The masked sum of `exp (r j - c)` over the first `N` columns, as a real number. -/
def realSum (N : ℕ) (r : ℕ → ℝ) (msk : ℕ → Bool) (c : ℝ) : ℝ :=
  ∑ j ∈ Finset.range N, if msk j then Real.exp (r j - c) else 0

/-- On real similarities and a real centre the masked sum is the coercion of the real one. -/
theorem rowSum_coe (N : ℕ) (s : ℕ → EReal) (r : ℕ → ℝ) (hs : ∀ j, s j = (r j : EReal)) (msk : ℕ → Bool) (c : ℝ) :
    rowSum N s msk (c : EReal) = (realSum N r msk c : EReal) := by
  induction N with
  | zero => simp [rowSum, realSum]
  | succ N ih =>
    have ih' := ih
    simp only [rowSum, realSum] at ih' ⊢
    rw [Finset.sum_range_succ, Finset.sum_range_succ, EReal.coe_add, ih']
    congr 1
    split_ifs
    · rw [hs N, ← EReal.coe_sub, Ideal.exp_coe]
    · rfl

/-- Moving the centre: `exp (m - m') * exp (x - m) = exp (x - m')`, summed. -/
theorem realSum_rescale (N : ℕ) (r : ℕ → ℝ) (msk : ℕ → Bool) (m m' : ℝ) :
    Real.exp (m - m') * realSum N r msk m = realSum N r msk m' := by
  simp only [realSum, Finset.mul_sum]
  refine Finset.sum_congr rfl fun j _ => ?_
  split_ifs
  · rw [← Real.exp_add]; congr 1; ring
  · exact mul_zero _

/-- The same on the extended reals, for real centres. -/
theorem rowSum_rescale (N : ℕ) (s : ℕ → EReal) (hreal : ∀ j, ∃ r : ℝ, s j = (r : EReal)) (msk : ℕ → Bool) (m m' : ℝ) :
    Ideal.exp ((m : EReal) - (m' : EReal)) * rowSum N s msk (m : EReal) = rowSum N s msk (m' : EReal) := by
  choose r hs using hreal
  rw [rowSum_coe N s r hs, rowSum_coe N s r hs, ← EReal.coe_sub, Ideal.exp_coe, ← EReal.coe_mul, realSum_rescale]

/-- The real masked sum is positive exactly when the mask is on somewhere. -/
theorem realSum_pos_iff (N : ℕ) (r : ℕ → ℝ) (msk : ℕ → Bool) (c : ℝ) :
    0 < realSum N r msk c ↔ ∃ j, j < N ∧ msk j = true := by
  constructor
  · intro h
    by_contra hno
    have hz : realSum N r msk c = 0 := by
      refine Finset.sum_eq_zero fun j hj => ?_
      have : msk j ≠ true := fun hm => hno ⟨j, Finset.mem_range.mp hj, hm⟩
      simp [this]
    rw [hz] at h
    exact lt_irrefl _ h
  · rintro ⟨j, hj, hm⟩
    refine Finset.sum_pos' (fun i _ => ?_) ⟨j, Finset.mem_range.mpr hj, ?_⟩
    · split_ifs
      · exact (Real.exp_pos _).le
      · exact le_rfl
    · simp only [hm, if_true]; exact Real.exp_pos _

/-! ### The law, from no block on -/

/-- After any number of blocks (none included: maximum `⊥`, sums `0`) the one-pass state is the two-pass one. -/
theorem online_eq_all (B : ℕ) (s : ℕ → EReal) (off pm : ℕ → Bool)
    (hreal : ∀ j, ∃ r : ℝ, s j = (r : EReal)) (hoff : ∀ n, ∃ q, q < B ∧ off (n * B + q) = true) (n : ℕ) :
    online B s off pm n
      = (rowMax (n * B) s off, rowSum (n * B) s pm (rowMax (n * B) s off), rowSum (n * B) s off (rowMax (n * B) s off)) := by
  induction n with
  | zero => simp [online, st0, rowMax, rowSum]
  | succ k ih =>
    have hmax : rowMax ((k + 1) * B) s off
        = max (rowMax (k * B) s off) (blockMax B (fun q => s (k * B + q)) (fun q => off (k * B + q))) := by
      rw [Nat.succ_mul, rowMax_add]
    -- the rescaling of the sums carried so far
    have hresc : ∀ msk : ℕ → Bool,
        Ideal.exp (rowMax (k * B) s off - rowMax ((k + 1) * B) s off) * rowSum (k * B) s msk (rowMax (k * B) s off)
          = rowSum (k * B) s msk (rowMax ((k + 1) * B) s off) := by
      intro msk
      rcases Nat.eq_zero_or_pos k with hk | hk
      · subst hk
        simp [rowSum]
      · obtain ⟨q, hq, hqo⟩ := hoff 0
        have hq0 : off q = true := by simpa using hqo
        have hBk : B ≤ k * B := Nat.le_mul_of_pos_left B hk
        obtain ⟨m, hm⟩ := rowMax_real (k * B) s off hreal ⟨q, lt_of_lt_of_le hq hBk, hq0⟩
        obtain ⟨m', hm'⟩ := rowMax_real ((k + 1) * B) s off hreal
          ⟨q, lt_of_lt_of_le hq (le_trans hBk (Nat.mul_le_mul_right B (Nat.le_succ k))), hq0⟩
        rw [hm, hm']
        exact rowSum_rescale (k * B) s hreal msk m m'
    have hsum : ∀ msk : ℕ → Bool,
        Ideal.exp (rowMax (k * B) s off - rowMax ((k + 1) * B) s off) * rowSum (k * B) s msk (rowMax (k * B) s off)
            + blockSum B (fun q => s (k * B + q)) (fun q => msk (k * B + q)) (rowMax ((k + 1) * B) s off)
          = rowSum ((k + 1) * B) s msk (rowMax ((k + 1) * B) s off) := by
      intro msk
      rw [hresc msk, Nat.succ_mul k B, rowSum_add]
    rw [online, ih]
    simp only [stepBlk]
    rw [← hmax, hsum pm, hsum off]

/-- THE LAW. On real similarities, with an off-diagonal column in every block, after `n ≥ 1` blocks the one-pass
    state is the two-pass maximum and sums over the first `n * B` columns. -/
theorem online_eq (B : ℕ) (s : ℕ → EReal) (off pm : ℕ → Bool)
    (hreal : ∀ j, ∃ r : ℝ, s j = (r : EReal)) (hoff : ∀ n, ∃ q, q < B ∧ off (n * B + q) = true) (n : ℕ) (hn : 0 < n) :
    online B s off pm n
      = (rowMax (n * B) s off, rowSum (n * B) s pm (rowMax (n * B) s off), rowSum (n * B) s off (rowMax (n * B) s off)) := by
  exact online_eq_all B s off pm hreal hoff n

/-- The positives' sum is positive exactly when the row has a positive (every term is `exp` of a real). -/
theorem rowSum_pos_iff (N : ℕ) (s : ℕ → EReal) (off pm : ℕ → Bool)
    (hreal : ∀ j, ∃ r : ℝ, s j = (r : EReal)) (hoff : ∃ j, j < N ∧ off j = true) :
    0 < rowSum N s pm (rowMax N s off) ↔ ∃ j, j < N ∧ pm j = true := by
  obtain ⟨m, hm⟩ := rowMax_real N s off hreal hoff
  choose r hs using hreal
  rw [hm, rowSum_coe N s r hs, EReal.coe_pos]
  exact realSum_pos_iff N r pm m

end Cert.Softmax

end
-- ==== Proof.RowSpec.lean ====
/-
  The masked softmax sums of the contrastive term, as functions of the embeddings and the float labels.

  Row `r`'s similarity with column `j` is the dot product of the two embedding rows times the reciprocal temperature
  (the exact rational the kernel's constant stands for; the reference divides by its reciprocal). Column `j` is
  off-diagonal when `j ≠ r` and a positive when moreover the two label rows' dot product is positive. The reference's
  maximum `cmax`, and its two sums `posSum` and `negSum` of `exp (similarity - cmax)` over the positives and over the
  off-diagonal columns, are the two-pass forms of Spec.lean over the 4096 columns; the kernel's eight column blocks of
  512 are the one-pass form, and `online_rows` is Spec.lean's law at these sizes.
-/
import proofs.«136322_j23673859736131_1_alg».proof.Proof.Spec
import Idealize.ShloMosaic.Lib.ValueIdx

noncomputable section

namespace Cert.Softmax

open Idealize.ShloMosaic Idealize.ShloMosaic.ValueIdx

/-- An embeddings array and a float-labels array at the ideal values. -/
abbrev EArr := (⟨2, ![4096, 1024]⟩ : Shape).Idx → EReal
abbrev LArr := (⟨2, ![4096, 64]⟩ : Shape).Idx → EReal

/-- The reciprocal temperature: 1 / f32(0.07), exactly. -/
def invT : EReal := ((134217728 / 9395241 : ℝ) : EReal)

/-- The dot product of two embedding rows, and of two label rows. -/
def dotE (E : EArr) (r j : Fin 4096) : EReal := ∑ k : Fin 1024, E (ix2 r k) * E (ix2 j k)
def dotL (L : LArr) (r j : Fin 4096) : EReal := ∑ k : Fin 64, L (ix2 r k) * L (ix2 j k)

/-- Row `r`'s similarities, column by column (0 past the last column: never read). -/
def simN (E : EArr) (r : Fin 4096) (j : ℕ) : EReal := if h : j < 4096 then dotE E r ⟨j, h⟩ * invT else 0
/-- The off-diagonal columns of row `r`. -/
def offN (r : Fin 4096) (j : ℕ) : Bool := decide (j ≠ r.val)
/-- The positives of row `r`: off-diagonal columns whose label row shares a label with row `r`'s. -/
def pmN (L : LArr) (r : Fin 4096) (j : ℕ) : Bool :=
  if h : j < 4096 then (decide (0 < dotL L r ⟨j, h⟩) && decide (j ≠ r.val)) else false

/-- The maximum of row `r`'s off-diagonal similarities, -/
def cmax (E : EArr) (r : Fin 4096) : EReal := rowMax 4096 (simN E r) (offN r)
/-- the positives' sum of `exp (similarity - cmax)`, -/
def posSum (E : EArr) (L : LArr) (r : Fin 4096) : EReal := rowSum 4096 (simN E r) (pmN L r) (cmax E r)
/-- and the off-diagonal sum. -/
def negSum (E : EArr) (r : Fin 4096) : EReal := rowSum 4096 (simN E r) (offN r) (cmax E r)

/-- Every entry of the array is a real. -/
def Finite (E : EArr) : Prop := ∀ i, ∃ x : ℝ, E i = (x : EReal)

/-- A finite sum of reals is a real. -/
theorem sum_real {ι : Type*} (S : Finset ι) (g : ι → EReal) (hg : ∀ i ∈ S, ∃ x : ℝ, g i = (x : EReal)) :
    ∃ x : ℝ, ∑ i ∈ S, g i = (x : EReal) := by
  induction S using Finset.cons_induction with
  | empty => exact ⟨0, by simp⟩
  | cons a S ha ih =>
    obtain ⟨x, hx⟩ := hg a (Finset.mem_cons_self a S)
    obtain ⟨y, hy⟩ := ih fun i hi => hg i (Finset.mem_cons.mpr (Or.inr hi))
    exact ⟨x + y, by rw [Finset.sum_cons, hx, hy, EReal.coe_add]⟩

/-- On finite embeddings every similarity is a real. -/
theorem simN_real (E : EArr) (hE : Finite E) (r : Fin 4096) (j : ℕ) : ∃ x : ℝ, simN E r j = (x : EReal) := by
  unfold simN
  split_ifs with h
  · -- each product of two real entries is real, so is their sum, and so is its product with the real `invT`
    obtain ⟨x, hx⟩ := sum_real Finset.univ (fun k : Fin 1024 => E (ix2 r k) * E (ix2 ⟨j, h⟩ k)) (fun k _ => by
      obtain ⟨a, ha⟩ := hE (ix2 r k)
      obtain ⟨b, hb⟩ := hE (ix2 ⟨j, h⟩ k)
      exact ⟨a * b, by simp only [ha, hb, EReal.coe_mul]⟩)
    refine ⟨x * (134217728 / 9395241 : ℝ), ?_⟩
    rw [dotE, hx, invT, EReal.coe_mul]
  · exact ⟨0, EReal.coe_zero.symm⟩

/-- Every block of 512 columns has an off-diagonal column. -/
theorem offN_block (r : Fin 4096) (n : ℕ) : ∃ q, q < 512 ∧ offN r (n * 512 + q) = true := by
  -- the block's first two columns are distinct, so at most one of them is the row's own
  by_cases h : n * 512 = r.val
  · refine ⟨1, by norm_num, ?_⟩
    simp only [offN, decide_eq_true_eq]
    omega
  · refine ⟨0, by norm_num, ?_⟩
    simp only [offN, decide_eq_true_eq]
    omega

/-- THE LAW at these sizes: eight blocks of 512 columns, walked in one pass, end at the reference's maximum and sums. -/
theorem online_rows (E : EArr) (L : LArr) (hE : Finite E) (r : Fin 4096) :
    online 512 (simN E r) (offN r) (pmN L r) 8 = (cmax E r, posSum E L r, negSum E r) := by
  have h := online_eq 512 (simN E r) (offN r) (pmN L r) (simN_real E hE r) (offN_block r) 8 (by norm_num)
  unfold cmax posSum negSum cmax
  exact h

/-- The positives' sum is positive exactly when the row has a positive. -/
theorem posSum_pos_iff (E : EArr) (L : LArr) (hE : Finite E) (r : Fin 4096) :
    0 < posSum E L r ↔ ∃ j, j < 4096 ∧ pmN L r j = true := by
  unfold posSum cmax
  refine rowSum_pos_iff 4096 (simN E r) (offN r) (pmN L r) (simN_real E hE r) ?_
  obtain ⟨q, hq, ho⟩ := offN_block r 0
  exact ⟨q, by omega, by simpa using ho⟩

end Cert.Softmax

end
-- ==== Proof.KPay.lean ====
/-
  One grid point's arithmetic at one row, at the ideal values: the body's three stored values, read at row `p` of the
  block, are one block step of the one-pass softmax form (Spec.lean's `stepBlk`) on that row's running maximum and sums.

  At a point with coordinates (row block, column block) and for row `p` of the row block and column `q` of the column block:
  the similarity is the dot product of row `p` of the first embedding block and row `q` of the second, times the reciprocal
  temperature (the kernel's constant, named the exact rational); the column is off-diagonal when
  `512 · row block + p ≠ 512 · column block + q` (two iotas offset by the block bases, compared as 32-bit words: no
  overflow below 4096); it is a positive when moreover the two label rows' dot product is positive; the masked maximum
  fills the diagonal with the constant named -∞. A change of float format is the identity and a matmul into zero is the sum.
-/
import proofs.«136322_j23673859736131_1_alg».proof.Proof.KBody
import proofs.«136322_j23673859736131_1_alg».proof.Proof.RowSpec
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.HandValue

open Cert.KernelIdeal Cert.KernelIdeal.Gen Cert.KernelIdeal.Hand Cert.Softmax
open Idealize.ShloMosaic Idealize.ShloMosaic.TcCoe Idealize.ShloMosaic.ValueIdx

/-! ## Layout: a column of one -/

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The constants -/

/-- The kernel's reciprocal temperature is the exact rational. -/
theorem named_invT : Named.named (F := Ideal) κ "inv_temperature" (φ := .f32) 0x41649249#32 = invT :=
  IdealRules.named_const.ideal_named_scalar _ _ _ _ rfl
/-- The kernel's mask fill is -∞. -/
theorem named_negBig : Named.named (F := Ideal) κ "neg_big" (φ := .f32) 0xFF333332#32 = (⊥ : EReal) :=
  IdealRules.named_const.ideal_named_scalar _ _ _ _ rfl
/-- The word of -∞ denotes `⊥`. -/
theorem ofBits_negInf : Ideal.ofBits .f32 0xFF800000#32 = (⊥ : EReal) := by simp [Ideal.ofBits, Ideal.ieee]

/-! ## The two block products -/

theorem lhsE_0 (j : S512x512.Idx) (q : dot_S512x1024_S1024x512_S512x512_1_0_0_1_n_n.contr.Idx) :
    (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhsE_1 (j : S512x512.Idx) (q : dot_S512x1024_S1024x512_S512x512_1_0_0_1_n_n.contr.Idx) :
    (dot_S512x1024_S1024x512_S512x512_1_0_0_1_n_n.lhsIdx j q 1).val = (q ⟨0, by decide⟩).val :=
  dot_S512x1024_S1024x512_S512x512_1_0_0_1_n_n.lhsIdx_val_of_single rfl j q
theorem rhsE_0 (j : S512x512.Idx) (q : dot_S512x1024_S1024x512_S512x512_1_0_0_1_n_n.contr.Idx) :
    (dot_S512x1024_S1024x512_S512x512_1_0_0_1_n_n.rhsIdx j q 0).val = (q ⟨0, by decide⟩).val :=
  dot_S512x1024_S1024x512_S512x512_1_0_0_1_n_n.rhsIdx_val_of_single rfl j q
theorem rhsE_1 (j : S512x512.Idx) (q : dot_S512x1024_S1024x512_S512x512_1_0_0_1_n_n.contr.Idx) :
    (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The block product into zero, read at row `p` and column `q`: the sum over the contracted axis. -/
theorem matmulE_at (A : FVec Ideal S512x1024 .bf16) (Bt : FVec Ideal S1024x512 .bf16) (p q : Fin 512) :
    FloatOps.matmul dot_S512x1024_S1024x512_S512x512_1_0_0_1_n_n none A Bt (constant (F := Ideal) S512x512 .f32 0x00000000#32) (ix2 p q)
      = ∑ k : Fin 1024, A (ix2 p k) * Bt (ix2 k q) := by
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
    match a with
    | ⟨0, _⟩ => exact lhsE_0 _ _
    | ⟨1, _⟩ => exact (lhsE_1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
    match a with
    | ⟨0, _⟩ => exact (rhsE_0 _ _).trans hk
    | ⟨1, _⟩ => exact rhsE_1 _ _)
  rw [el, er]

theorem lhsL_0 (j : S512x512.Idx) (q : dot_S512x64_S64x512_S512x512_1_0_0_1_n_n.contr.Idx) :
    (dot_S512x64_S64x512_S512x512_1_0_0_1_n_n.lhsIdx j q 0).val = (j 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhsL_1 (j : S512x512.Idx) (q : dot_S512x64_S64x512_S512x512_1_0_0_1_n_n.contr.Idx) :
    (dot_S512x64_S64x512_S512x512_1_0_0_1_n_n.lhsIdx j q 1).val = (q ⟨0, by decide⟩).val :=
  dot_S512x64_S64x512_S512x512_1_0_0_1_n_n.lhsIdx_val_of_single rfl j q
theorem rhsL_0 (j : S512x512.Idx) (q : dot_S512x64_S64x512_S512x512_1_0_0_1_n_n.contr.Idx) :
    (dot_S512x64_S64x512_S512x512_1_0_0_1_n_n.rhsIdx j q 0).val = (q ⟨0, by decide⟩).val :=
  dot_S512x64_S64x512_S512x512_1_0_0_1_n_n.rhsIdx_val_of_single rfl j q
theorem rhsL_1 (j : S512x512.Idx) (q : dot_S512x64_S64x512_S512x512_1_0_0_1_n_n.contr.Idx) :
    (dot_S512x64_S64x512_S512x512_1_0_0_1_n_n.rhsIdx j q 1).val = (j 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The block product into zero, read at row `p` and column `q`: the sum over the contracted axis. -/
theorem matmulL_at (A : FVec Ideal S512x64 .bf16) (Bt : FVec Ideal S64x512 .bf16) (p q : Fin 512) :
    FloatOps.matmul dot_S512x64_S64x512_S512x512_1_0_0_1_n_n none A Bt (constant (F := Ideal) S512x512 .f32 0x00000000#32) (ix2 p q)
      = ∑ k : Fin 64, A (ix2 p k) * Bt (ix2 k q) := by
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p q) ((contrEquiv1 dot_S512x64_S64x512_S512x512_1_0_0_1_n_n 64 rfl rfl).symm k) = ix2 p k := funext fun a => Fin.ext (by
    match a with
    | ⟨0, _⟩ => exact lhsL_0 _ _
    | ⟨1, _⟩ => exact (lhsL_1 _ _).trans hk)
  have er : dot_S512x64_S64x512_S512x512_1_0_0_1_n_n.rhsIdx (ix2 p q) ((contrEquiv1 dot_S512x64_S64x512_S512x512_1_0_0_1_n_n 64 rfl rfl).symm k) = ix2 k q := funext fun a => Fin.ext (by
    match a with
    | ⟨0, _⟩ => exact (rhsL_0 _ _).trans hk
    | ⟨1, _⟩ => exact rhsL_1 _ _)
  rw [el, er]

/-! ## The payloads at an index -/

/-- The scaled similarity of row `p` of the first embedding block with row `q` of the second. -/
theorem pay9_at (x0 x1 : Vec Ideal S512x1024 .f32) (p q : Fin 512) :
    k0_pay9 (F := Ideal) x0 x1 (ix2 p q) = (∑ k : Fin 1024, x0 (ix2 p k) * x1 (ix2 q k)) * invT := by
  unfold k0_pay9
  refine (congrArg₂ (· * ·) (matmulE_at _ _ p q) named_invT).trans ?_
  refine congrArg (· * invT) (Finset.sum_congr rfl fun k _ => ?_)
  exact congrArg (x0 (ix2 p k) * ·) (transpose_ix2_apply _ _ k q)

/-! ## One-bit words -/

/-- A decided bit is `1` exactly when the decision is `true`. -/
theorem ofBool_eq_one_iff (b : Bool) : BitVec.ofBool b = 1#1 ↔ b = true := by
  cases b <;> decide
/-- The conjunction of two bits is `1` exactly when both are. -/
theorem and_eq_one_iff (x y : BitVec 1) : x &&& y = 1#1 ↔ x = 1#1 ∧ y = 1#1 := by
  rcases BitVec.eq_zero_or_eq_one x with rfl | rfl <;> rcases BitVec.eq_zero_or_eq_one y with rfl | rfl <;> decide
/-- A select on a bit that is `1` exactly when `P` holds is the `if` on `P`. -/
theorem select_of_iff {α : Type} {c : BitVec 1} {P : Prop} [Decidable P] (h : c = 1#1 ↔ P) (a b : α) :
    Scalar.select c a b = if P then a else b := by
  unfold Scalar.select
  by_cases hP : P
  · rw [if_pos (show c = 1 from h.mpr hP), if_pos hP]
  · rw [if_neg (show ¬c = 1 from fun hc => hP (h.mp hc)), if_neg hP]

/-! ## The off-diagonal mask: two 32-bit column numbers compared, with no wrap below 4096 -/

theorem word_eq_iff (a b p q : ℕ) (ha : a < 8) (hb : b < 8) (hp : p < 512) (hq : q < 512) :
    (BitVec.ofNat 32 a * 512#32 + BitVec.ofNat 32 p = BitVec.ofNat 32 b * 512#32 + BitVec.ofNat 32 q) ↔ 512 * a + p = 512 * b + q := by
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The off-diagonal mask at row `p`, column `q` of the block is `1` exactly when the two global positions differ. -/
theorem pay10_one_iff (i : grid0.Coords) (p q : Fin 512) :
    k0_pay10 i (ix2 p q) = 1#1 ↔ 512 * (i 0).val + p.val ≠ 512 * (i 1).val + q.val := by
  have ha : (i 0).val < 8 := (i 0).isLt
  have hb : (i 1).val < 8 := (i 1).isLt
  unfold k0_pay10
  show IntOp.cmpi .ne (IntOp.addi (Scalar.muli (BitVec.ofNat 32 (i 0).val) 512#32) (iota .tc S512x512 32 [0] iota_S512x512_d0_w32 (ix2 p q)))
        (IntOp.addi (Scalar.muli (BitVec.ofNat 32 (i 1).val) 512#32) (iota .tc S512x512 32 [1] iota_S512x512_d1_w32 (ix2 p q))) = 1#1 ↔ _
  rw [iota_single_apply, iota_single_apply]
  show BitVec.ofBool ((BitVec.ofNat 32 (i 0).val * 512#32 + BitVec.ofNat 32 p.val) != (BitVec.ofNat 32 (i 1).val * 512#32 + BitVec.ofNat 32 q.val)) = 1#1 ↔ _
  rw [ofBool_eq_one_iff, bne_iff_ne, Ne, word_eq_iff _ _ _ _ ha hb p.isLt q.isLt]

/-- The two label blocks' product as the payload writes it (a format change is the identity, the right operand transposed):
    the dot product of row `p` of the first label block with row `q` of the second. -/
theorem dotL_at (x2 x3 : Vec Ideal S512x64 .f32) (p q : Fin 512) :
    FloatOps.matmul dot_S512x64_S64x512_S512x512_1_0_0_1_n_n none (truncf (F := Ideal) .bf16 x2 bitsLt_bf16_f32)
        (transpose S64x512 [1, 0] (truncf (F := Ideal) .bf16 x3 bitsLt_bf16_f32) transposes_S512x64_p1_0_S64x512)
        (constant (F := Ideal) S512x512 .f32 0x00000000#32) (ix2 p q)
      = ∑ k : Fin 64, x2 (ix2 p k) * x3 (ix2 q k) :=
  (matmulL_at _ _ p q).trans (Finset.sum_congr rfl fun k _ => congrArg (x2 (ix2 p k) * ·) (transpose_ix2_apply _ _ k q))

/-- The positives' mask at row `p`, column `q`: the two label rows' dot product is positive, and the column is off-diagonal. -/
theorem pay11_one_iff (i : grid0.Coords) (x2 x3 : Vec Ideal S512x64 .f32) (p q : Fin 512) :
    k0_pay11 (F := Ideal) i x2 x3 (ix2 p q) = 1#1
      ↔ (0 < ∑ k : Fin 64, x2 (ix2 p k) * x3 (ix2 q k)) ∧ 512 * (i 0).val + p.val ≠ 512 * (i 1).val + q.val := by
  unfold k0_pay11
  rw [shapeCast_self x2, shapeCast_self x3]
  show IntOp.andi (Ideal.cmp .ogt (FloatOps.matmul dot_S512x64_S64x512_S512x512_1_0_0_1_n_n none (truncf (F := Ideal) .bf16 x2 bitsLt_bf16_f32)
        (transpose S64x512 [1, 0] (truncf (F := Ideal) .bf16 x3 bitsLt_bf16_f32) transposes_S512x64_p1_0_S64x512)
        (constant (F := Ideal) S512x512 .f32 0x00000000#32) (ix2 p q)) (Ideal.ofBits .f32 0x00000000#32)) (k0_pay10 i (ix2 p q)) = 1#1 ↔ _
  rw [dotL_at, Ideal.ofBits_zero_f32]
  show BitVec.ofBool (decide ((0 : EReal) < _)) &&& _ = 1#1 ↔ _
  rw [and_eq_one_iff, ofBool_eq_one_iff, decide_eq_true_eq, pay10_one_iff]

/-! ## The lane reductions of a `512 × 512` block, read at row `p` -/

/-- The reduced index `p` with the column `k` put back is `(p, k)`. -/
theorem lift_ix (p k : Fin 512) : reduces_S512x512_S512.lift (ix1 p) k = ix2 p k :=
  funext fun a => Fin.ext (match a with | ⟨0, _⟩ => rfl | ⟨1, _⟩ => rfl)

/-- A lane sum at row `p` is the sum over the row's columns. -/
theorem rowSum_read (src : FVec Ideal S512x512 .f32) (hφ : FKind.Formats .f32)
    (hacc : (0x00000000#32 : BitVec 32) = FKind.add.neutral .f32 hφ) (p : Fin 512) :
    multiReduction (F := Ideal) .add [1] S512 src 0x00000000#32 reduces_S512x512_S512 hφ hacc (ix1 p) = ∑ q : Fin 512, src (ix2 p q) :=
  (Ideal.multiReduction_add_single src _ reduces_S512x512_S512 hφ hacc (ix1 p)).trans
    (Finset.sum_congr rfl fun (q : Fin 512) _ => congrArg src (lift_ix p q))

/-- A lane maximum from -∞ at row `p` is the supremum over the row's columns. -/
theorem rowMax_read (src : FVec Ideal S512x512 .f32) (hφ : FKind.Formats .f32)
    (hacc : (0xFF800000#32 : BitVec 32) = FKind.maximumf.neutral .f32 hφ) (p : Fin 512) :
    multiReduction (F := Ideal) .maximumf [1] S512 src 0xFF800000#32 reduces_S512x512_S512 hφ hacc (ix1 p)
      = (Finset.univ : Finset (Fin 512)).sup fun q => src (ix2 p q) := by
  refine (Ideal.multiReduction_maximumf_single src _ reduces_S512x512_S512 hφ hacc (ix1 p)).trans ?_
  have e : src ∘ reduces_S512x512_S512.lift (ix1 p) = fun q : Fin 512 => src (ix2 p q) :=
    funext fun (q : Fin 512) => congrArg src (lift_ix p q)
  rw [e]
  show (Finset.univ : Finset (Fin 512)).fold max (Ideal.ofBits .f32 0xFF800000#32) _ = _
  rw [ofBits_negInf]
  rfl

/-- The supremum over `Fin n` is the supremum over `range n`. -/
theorem sup_fin_range (n : ℕ) (f : ℕ → EReal) : (Finset.univ : Finset (Fin n)).sup (fun q => f q.val) = (Finset.range n).sup f := by
  apply le_antisymm
  · exact Finset.sup_le fun q _ => Finset.le_sup (f := f) (Finset.mem_range.mpr q.isLt)
  · exact Finset.sup_le fun j hj => Finset.le_sup (f := fun q : Fin n => f q.val) (Finset.mem_univ ⟨j, Finset.mem_range.mp hj⟩)

/-! ## The stored values at a row -/

/-- The stored maximum is the computed one (a cast to the same shape). -/
theorem pay5_eq (v36 : FVec Ideal S512x1 .f32) : k0_pay5 (F := Ideal) v36 = v36 := by
  unfold k0_pay5
  exact shapeCast_self _ _

/-- The new maximum at row `p`: the larger of the old one and the row's maximum of the masked similarities. -/
theorem pay12_at (i : grid0.Coords) (x0 x1 : Vec Ideal S512x1024 .f32) (sm : Vec Ideal S512x1 .f32) (p : Fin 512) :
    k0_pay12 (F := Ideal) i x0 x1 sm (ix2 p 0)
      = max (sm (ix2 p 0)) ((Finset.univ : Finset (Fin 512)).sup fun q =>
          Scalar.select (k0_pay10 i (ix2 p q)) (k0_pay9 (F := Ideal) x0 x1 (ix2 p q)) (⊥ : EReal)) := by
  unfold k0_pay12
  refine congrArg (max (sm (ix2 p 0))) ?_
  refine (shapeCast_a_a1_apply _ _ p 0).trans ?_
  refine (rowMax_read _ _ _ p).trans ?_
  refine Finset.sup_congr rfl fun q _ => ?_
  show Scalar.select (k0_pay10 i (ix2 p q)) (k0_pay9 (F := Ideal) x0 x1 (ix2 p q))
      (Named.named (F := Ideal) κ "neg_big" (φ := .f32) 0xFF333332#32) = _
  rw [named_negBig]

/-- A rescaled running sum plus the block's masked sum, at row `p` (the positives' sum is this with the positives' mask). -/
theorem pay3_at (v10 : FVec Ideal S512x512 .f32) (v30 : IVec S512x512 1) (v36 : FVec Ideal S512x1 .f32) (v37 v43 : Vec Ideal S512x1 .f32) (p : Fin 512) :
    k0_pay3 (F := Ideal) v10 v30 v36 v37 v43 (ix2 p 0)
      = Ideal.exp (v37 (ix2 p 0) - v36 (ix2 p 0)) * v43 (ix2 p 0)
        + ∑ q : Fin 512, Scalar.select (v30 (ix2 p q)) (Ideal.exp (v10 (ix2 p q) - v36 (ix2 p 0))) (0 : EReal) := by
  unfold k0_pay3 k0_pay1 k0_pay2
  refine (congrFun (shapeCast_self _ _) _).trans ?_
  refine congrArg (Ideal.exp (v37 (ix2 p 0) - v36 (ix2 p 0)) * v43 (ix2 p 0) + ·) ?_
  refine (shapeCast_a_a1_apply _ _ p 0).trans ?_
  refine (rowSum_read _ _ _ p).trans ?_
  refine Finset.sum_congr rfl fun q _ => ?_
  show Scalar.select (v30 (ix2 p q)) (Ideal.exp (v10 (ix2 p q) - broadcastTo S512x512 v36 broadcasts_S512x1_S512x512 (ix2 p q)))
      (Ideal.ofBits .f32 0x00000000#32) = _
  rw [broadcastTo_a1_ab_apply, Ideal.ofBits_zero_f32]

/-- The same for the off-diagonal sum. -/
theorem pay4_at (v10 : FVec Ideal S512x512 .f32) (v27 : IVec S512x512 1) (v36 : FVec Ideal S512x1 .f32) (v37 v53 : Vec Ideal S512x1 .f32) (p : Fin 512) :
    k0_pay4 (F := Ideal) v10 v27 v36 v37 v53 (ix2 p 0)
      = Ideal.exp (v37 (ix2 p 0) - v36 (ix2 p 0)) * v53 (ix2 p 0)
        + ∑ q : Fin 512, Scalar.select (v27 (ix2 p q)) (Ideal.exp (v10 (ix2 p q) - v36 (ix2 p 0))) (0 : EReal) := by
  unfold k0_pay4 k0_pay1 k0_pay2
  refine (congrFun (shapeCast_self _ _) _).trans ?_
  refine congrArg (Ideal.exp (v37 (ix2 p 0) - v36 (ix2 p 0)) * v53 (ix2 p 0) + ·) ?_
  refine (shapeCast_a_a1_apply _ _ p 0).trans ?_
  refine (rowSum_read _ _ _ p).trans ?_
  refine Finset.sum_congr rfl fun q _ => ?_
  show Scalar.select (v27 (ix2 p q)) (Ideal.exp (v10 (ix2 p q) - broadcastTo S512x512 v36 broadcasts_S512x1_S512x512 (ix2 p q)))
      (Ideal.ofBits .f32 0x00000000#32) = _
  rw [broadcastTo_a1_ab_apply, Ideal.ofBits_zero_f32]

/-- The reset values at a row: the maximum -∞, both sums 0 — the one-pass form's starting state. -/
theorem reset_at (p : Fin 512) :
    ((resetM (F := Ideal)) (ix2 p 0), (resetP (F := Ideal)) (ix2 p 0), (resetN (F := Ideal)) (ix2 p 0)) = st0 := by
  refine Prod.ext ?_ (Prod.ext ?_ ?_)
  · show k0_pay6 (F := Ideal) (ix2 p 0) = ⊥
    unfold k0_pay6
    rw [shapeCast_self]
    exact ofBits_negInf
  · show k0_pay7 (F := Ideal) (ix2 p 0) = 0
    unfold k0_pay7
    rw [shapeCast_self]
    exact Ideal.ofBits_zero_f32
  · show k0_pay8 (F := Ideal) (ix2 p 0) = 0
    unfold k0_pay8
    rw [shapeCast_self]
    exact Ideal.ofBits_zero_f32

/-- ONE POINT AT ONE ROW. With `s`, `ob`, `pb` the block's similarities, off-diagonal mask and positives' mask of row `p`
    (columns `q < 512`; what they are past the block is not read), the three stored values at row `p` are the block step. -/
theorem step_at (i : grid0.Coords) (x0 x1 : Vec Ideal S512x1024 .f32) (x2 x3 : Vec Ideal S512x64 .f32)
    (sm sp sn : Vec Ideal S512x1 .f32) (p : Fin 512) (s : ℕ → EReal) (ob pb : ℕ → Bool)
    (hs : ∀ q : Fin 512, s q.val = (∑ k : Fin 1024, x0 (ix2 p k) * x1 (ix2 q k)) * invT)
    (hob : ∀ q : Fin 512, ob q.val = decide (512 * (i 0).val + p.val ≠ 512 * (i 1).val + q.val))
    (hpb : ∀ q : Fin 512, pb q.val = (decide (0 < ∑ k : Fin 64, x2 (ix2 p k) * x3 (ix2 q k)) && ob q.val)) :
    (stepM (F := Ideal) i x0 x1 sm (ix2 p 0), stepP (F := Ideal) i x0 x1 x2 x3 sm sp (ix2 p 0), stepN (F := Ideal) i x0 x1 sm sn (ix2 p 0))
      = stepBlk 512 (sm (ix2 p 0), sp (ix2 p 0), sn (ix2 p 0)) s ob pb := by
  -- the two masks, as the interface's booleans
  have hob' : ∀ q : Fin 512, k0_pay10 i (ix2 p q) = 1#1 ↔ ob q.val = true := fun q => by
    rw [pay10_one_iff, hob q, decide_eq_true_eq]
  have hpb' : ∀ q : Fin 512, k0_pay11 (F := Ideal) i x2 x3 (ix2 p q) = 1#1 ↔ pb q.val = true := fun q => by
    rw [pay11_one_iff, hpb q, Bool.and_eq_true, decide_eq_true_eq, hob q, decide_eq_true_eq]
  -- the new maximum
  have hM : k0_pay12 (F := Ideal) i x0 x1 sm (ix2 p 0) = max (sm (ix2 p 0)) (blockMax 512 s ob) := by
    rw [pay12_at]
    refine congrArg (max (sm (ix2 p 0))) ?_
    rw [blockMax, ← sup_fin_range 512 (fun q => if ob q then s q else ⊥)]
    refine Finset.sup_congr rfl fun q _ => ?_
    rw [select_of_iff (hob' q), pay9_at, ← hs q]
  -- a masked sum of the block
  have hsum : ∀ (msk : IVec S512x512 1) (mb : ℕ → Bool), (∀ q : Fin 512, msk (ix2 p q) = 1#1 ↔ mb q.val = true) → ∀ c : EReal,
      ∑ q : Fin 512, Scalar.select (msk (ix2 p q)) (Ideal.exp (k0_pay9 (F := Ideal) x0 x1 (ix2 p q) - c)) (0 : EReal) = blockSum 512 s mb c := by
    intro msk mb hm c
    rw [blockSum, ← Fin.sum_univ_eq_sum_range (fun q => if mb q then Ideal.exp (s q - c) else 0) 512]
    refine Finset.sum_congr rfl fun q _ => ?_
    rw [select_of_iff (hm q), pay9_at, ← hs q]
  refine Prod.ext ?_ (Prod.ext ?_ ?_)
  · show stepM (F := Ideal) i x0 x1 sm (ix2 p 0) = max (sm (ix2 p 0)) (blockMax 512 s ob)
    unfold stepM
    rw [pay5_eq, hM]
  · show stepP (F := Ideal) i x0 x1 x2 x3 sm sp (ix2 p 0)
        = Ideal.exp (sm (ix2 p 0) - max (sm (ix2 p 0)) (blockMax 512 s ob)) * sp (ix2 p 0)
          + blockSum 512 s pb (max (sm (ix2 p 0)) (blockMax 512 s ob))
    unfold stepP
    rw [pay3_at, hM, hsum _ pb hpb']
  · show stepN (F := Ideal) i x0 x1 sm sn (ix2 p 0)
        = Ideal.exp (sm (ix2 p 0) - max (sm (ix2 p 0)) (blockMax 512 s ob)) * sn (ix2 p 0)
          + blockSum 512 s ob (max (sm (ix2 p 0)) (blockMax 512 s ob))
    unfold stepN
    rw [pay4_at, hM, hsum _ ob hob']

end Cert.KernelIdeal.HandValue

end
-- ==== Proof.KValue.lean ====
/-
  What the kernel leaves in its two result arrays, at the ideal values: row `r` of the first holds the positives' sum
  and of the second the off-diagonal sum of `exp (similarity - maximum)` over all 4096 columns.

  Row block `b` is walked in eight points, one per column block; after the `j`-th of them the three scratch buffers hold, at
  row `p` of the block, the one-pass state of Spec.lean after `j + 1` blocks for row `512 b + p` (the induction over the
  points); the last point copies both sums to the output blocks, which the pipeline writes back to rows
  `512 b … 512 b + 511`; the eight write-backs tile the 4096 rows; and the one-pass state after eight blocks is the
  two-pass one (`online_rows`).
-/
import proofs.«136322_j23673859736131_1_alg».proof.Proof.KData
import proofs.«136322_j23673859736131_1_alg».proof.Proof.RowSpec
import proofs.«136322_j23673859736131_1_alg».proof.Proof.KPay
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand Cert.Softmax Idealize.ShloMosaic.ValueIdx

variable (m : (ℓ : Loc nD τ sig) → Buf (Elt Ideal) ℓ)

/-- The embeddings and the float labels as the region finds them. -/
abbrev Earr (c : Dev nD) : EArr := V (F := Ideal) m c main_arg0
abbrev Larr (c : Dev nD) : LArr := V (F := Ideal) m c main_v0

/-! ## The grid and the index maps -/

/-- The printed index maps, decided over the grid: point `t` has row block `t / 8` and column block `t % 8`; the first
    embedding and label windows and both result windows sit at the row block, the second embedding and label windows at the
    column block, all at block column 0. -/
theorem index_maps : ∀ t : Fin cfg0.N,
    win0_0.index t (0 : Fin 2) = t.val / 8 ∧ win0_0.index t (1 : Fin 2) = 0
  ∧ win0_1.index t (0 : Fin 2) = t.val % 8 ∧ win0_1.index t (1 : Fin 2) = 0
  ∧ win0_2.index t (0 : Fin 2) = t.val / 8 ∧ win0_2.index t (1 : Fin 2) = 0
  ∧ win0_3.index t (0 : Fin 2) = t.val % 8 ∧ win0_3.index t (1 : Fin 2) = 0
  ∧ win0_4.index t (0 : Fin 2) = t.val / 8 ∧ win0_4.index t (1 : Fin 2) = 0
  ∧ win0_5.index t (0 : Fin 2) = t.val / 8 ∧ win0_5.index t (1 : Fin 2) = 0
  ∧ (grid0.coords t 0).val = t.val / 8 ∧ (grid0.coords t 1).val = t.val % 8 :=
  (by decide +kernel : ∀ t : Fin grid0.N, _)

/-! ## A block at an index -/

/-- Row `p`, column `k` of the first embedding block at point `t` is row `512 (t / 8) + p` of the embeddings. -/
theorem embRows_at (c : Dev nD) (t : Fin cfg0.N) (p : Fin 512) (k : Fin 1024) (r : Fin 4096)
    (hr : r.val = 512 * (t.val / 8) + p.val) :
    (iblk (F := Ideal) m c 0 t : Vec Ideal S512x1024 .f32) (ix2 p k) = Earr m c (ix2 r k) := by
  obtain ⟨e00, e01, e10, e11, e20, e21, e30, e31, e40, e41, e50, e51, g0, g1⟩ := index_maps t
  unfold iblk
  rw [View.read_apply]
  show V m c main_arg0 (((cfg0.win 0).blk t).view.emb (ix2 p k)) = V m c main_arg0 (ix2 r k)
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- Row `q`, column `k` of the second embedding block at point `t` is row `512 (t % 8) + q` of the embeddings. -/
theorem embCols_at (c : Dev nD) (t : Fin cfg0.N) (q : Fin 512) (k : Fin 1024) (r : Fin 4096)
    (hr : r.val = 512 * (t.val % 8) + q.val) :
    (iblk (F := Ideal) m c 1 t : Vec Ideal S512x1024 .f32) (ix2 q k) = Earr m c (ix2 r k) := by
  obtain ⟨e00, e01, e10, e11, e20, e21, e30, e31, e40, e41, e50, e51, g0, g1⟩ := index_maps t
  unfold iblk
  rw [View.read_apply]
  show V m c main_arg0 (((cfg0.win 1).blk t).view.emb (ix2 q k)) = V m c main_arg0 (ix2 r k)
  congr 1
  funext a
  apply Fin.ext
  match a with
  | ⟨0, _⟩ => show win0_1.index t (0 : Fin 2) * 512 + 1 * q.val = r.val; omega
  | ⟨1, _⟩ => show win0_1.index t (1 : Fin 2) * 1024 + 1 * k.val = k.val; omega

/-- Row `p`, column `k` of the first label block at point `t` is row `512 (t / 8) + p` of the labels. -/
theorem labRows_at (c : Dev nD) (t : Fin cfg0.N) (p : Fin 512) (k : Fin 64) (r : Fin 4096)
    (hr : r.val = 512 * (t.val / 8) + p.val) :
    (iblk (F := Ideal) m c 2 t : Vec Ideal S512x64 .f32) (ix2 p k) = Larr m c (ix2 r k) := by
  obtain ⟨e00, e01, e10, e11, e20, e21, e30, e31, e40, e41, e50, e51, g0, g1⟩ := index_maps t
  unfold iblk
  rw [View.read_apply]
  show V m c main_v0 (((cfg0.win 2).blk t).view.emb (ix2 p k)) = V m c main_v0 (ix2 r k)
  congr 1
  funext a
  apply Fin.ext
  match a with
  | ⟨0, _⟩ => show win0_2.index t (0 : Fin 2) * 512 + 1 * p.val = r.val; omega
  | ⟨1, _⟩ => show win0_2.index t (1 : Fin 2) * 64 + 1 * k.val = k.val; omega

/-- Row `q`, column `k` of the second label block at point `t` is row `512 (t % 8) + q` of the labels. -/
theorem labCols_at (c : Dev nD) (t : Fin cfg0.N) (q : Fin 512) (k : Fin 64) (r : Fin 4096)
    (hr : r.val = 512 * (t.val % 8) + q.val) :
    (iblk (F := Ideal) m c 3 t : Vec Ideal S512x64 .f32) (ix2 q k) = Larr m c (ix2 r k) := by
  obtain ⟨e00, e01, e10, e11, e20, e21, e30, e31, e40, e41, e50, e51, g0, g1⟩ := index_maps t
  unfold iblk
  rw [View.read_apply]
  show V m c main_v0 (((cfg0.win 3).blk t).view.emb (ix2 q k)) = V m c main_v0 (ix2 r k)
  congr 1
  funext a
  apply Fin.ext
  match a with
  | ⟨0, _⟩ => show win0_3.index t (0 : Fin 2) * 512 + 1 * q.val = r.val; omega
  | ⟨1, _⟩ => show win0_3.index t (1 : Fin 2) * 64 + 1 * k.val = k.val; omega

/-! ## One point at one row, and the induction over a row block's points -/

/-- Two block rows that are rows `r` and `r'` of the embeddings have the two rows' dot product; -/
theorem dotE_of_blocks (E : EArr) (x0 x1 : Vec Ideal S512x1024 .f32) (p q : Fin 512) (r r' : Fin 4096)
    (h0 : ∀ k, x0 (ix2 p k) = E (ix2 r k)) (h1 : ∀ k, x1 (ix2 q k) = E (ix2 r' k)) :
    (∑ k : Fin 1024, x0 (ix2 p k) * x1 (ix2 q k)) = dotE E r r' := by
  unfold dotE
  exact Finset.sum_congr rfl fun k _ => by rw [h0, h1]

/-- likewise for the labels. -/
theorem dotL_of_blocks (L : LArr) (x2 x3 : Vec Ideal S512x64 .f32) (p q : Fin 512) (r r' : Fin 4096)
    (h2 : ∀ k, x2 (ix2 p k) = L (ix2 r k)) (h3 : ∀ k, x3 (ix2 q k) = L (ix2 r' k)) :
    (∑ k : Fin 64, x2 (ix2 p k) * x3 (ix2 q k)) = dotL L r r' := by
  unfold dotL
  exact Finset.sum_congr rfl fun k _ => by rw [h2, h3]

/-- ONE POINT AT ONE ROW of the array: at a point of row block `b` and column block `j`, the step on the scratch triple,
    read at row `p`, is the one-pass form's block step for row `512 b + p` on the `j`-th block of 512 columns. -/
theorem scStep_at (c : Dev nD) (t : Fin cfg0.N) (b j : ℕ) (hb : t.val / 8 = b) (hj : t.val % 8 = j)
    (p : Fin 512) (r : Fin 4096) (hr : r.val = 512 * b + p.val)
    (s : Vec Ideal S512x1 .f32 × Vec Ideal S512x1 .f32 × Vec Ideal S512x1 .f32) :
    (((scStep m c t s).1 : Vec Ideal S512x1 .f32) (ix2 p 0), ((scStep m c t s).2.1 : Vec Ideal S512x1 .f32) (ix2 p 0),
        ((scStep m c t s).2.2 : Vec Ideal S512x1 .f32) (ix2 p 0))
      = stepBlk 512 (s.1 (ix2 p 0), s.2.1 (ix2 p 0), s.2.2 (ix2 p 0))
          (fun q => simN (Earr m c) r (j * 512 + q)) (fun q => offN r (j * 512 + q)) (fun q => pmN (Larr m c) r (j * 512 + q)) := by
  obtain ⟨e00, e01, e10, e11, e20, e21, e30, e31, e40, e41, e50, e51, g0, g1⟩ := index_maps t
  have hj8 : j < 8 := by omega
  unfold scStep
  refine step_at (grid0.coords t) (iblk m c 0 t) (iblk m c 1 t) (iblk m c 2 t) (iblk m c 3 t) s.1 s.2.1 s.2.2 p _ _ _ ?_ ?_ ?_
  · intro q
    have hq : j * 512 + q.val < 4096 := by have := q.isLt; omega
    show simN (Earr m c) r (j * 512 + q.val) = _
    unfold simN
    rw [dif_pos hq, dotE_of_blocks (Earr m c) (iblk m c 0 t) (iblk m c 1 t) p q r ⟨j * 512 + q.val, hq⟩
      (fun k => embRows_at m c t p k r (by omega)) (fun k => embCols_at m c t q k ⟨j * 512 + q.val, hq⟩ (by show j * 512 + q.val = _; omega))]
  · intro q
    show offN r (j * 512 + q.val) = _
    unfold offN
    rw [decide_eq_decide]
    omega
  · intro q
    have hq : j * 512 + q.val < 4096 := by have := q.isLt; omega
    show pmN (Larr m c) r (j * 512 + q.val) = (_ && offN r (j * 512 + q.val))
    unfold pmN offN
    rw [dif_pos hq, dotL_of_blocks (Larr m c) (iblk m c 2 t) (iblk m c 3 t) p q r ⟨j * 512 + q.val, hq⟩
      (fun k => labRows_at m c t p k r (by omega)) (fun k => labCols_at m c t q k ⟨j * 512 + q.val, hq⟩ (by show j * 512 + q.val = _; omega))]

/-- A point at a first column block starts from the reset values; -/
theorem scAt_first (c : Dev nD) (n : ℕ) (hn : n < cfg0.N) (h0 : n % 8 = 0) :
    scAt m c n hn = scStep m c ⟨n, hn⟩ (resetM, resetP, resetN) := by
  cases n with
  | zero => exact scAt_zero m c hn
  | succ n => rw [scAt_succ]; unfold scPrev; rw [if_pos h0]

/-- any other point from what the point before left. -/
theorem scAt_next (c : Dev nD) (n : ℕ) (hn : n + 1 < cfg0.N) (h0 : (n + 1) % 8 ≠ 0) :
    scAt m c (n + 1) hn = scStep m c ⟨n + 1, hn⟩ (scAt m c n (Nat.lt_of_succ_lt hn)) := by
  rw [scAt_succ]; unfold scPrev; rw [if_neg h0]

/-- THE INDUCTION over the eight points of row block `b`: after the point of column block `j` the three scratch buffers
    hold, at row `p`, the one-pass state of row `512 b + p` after `j + 1` blocks of 512 columns. -/
theorem sc_online (c : Dev nD) (b : ℕ) (hb : b < 8) (p : Fin 512) (r : Fin 4096) (hr : r.val = 512 * b + p.val) :
    ∀ (j : ℕ), j < 8 → ∀ (n : ℕ) (hn : n < cfg0.N), n = 8 * b + j →
      (((scAt m c n hn).1 : Vec Ideal S512x1 .f32) (ix2 p 0), ((scAt m c n hn).2.1 : Vec Ideal S512x1 .f32) (ix2 p 0),
        ((scAt m c n hn).2.2 : Vec Ideal S512x1 .f32) (ix2 p 0))
        = online 512 (simN (Earr m c) r) (offN r) (pmN (Larr m c) r) (j + 1) := by
  intro j
  induction j with
  | zero =>
    intro _ n hn hnj
    rw [scAt_first m c n hn (by omega),
      scStep_at m c ⟨n, hn⟩ b 0 (by show n / 8 = b; omega) (by show n % 8 = 0; omega) p r hr]
    show stepBlk 512 ((resetM (F := Ideal)) (ix2 p 0), (resetP (F := Ideal)) (ix2 p 0), (resetN (F := Ideal)) (ix2 p 0)) _ _ _
      = stepBlk 512 st0 _ _ _
    rw [reset_at]
  | succ j ih =>
    intro hj n hn hnj
    obtain ⟨n', rfl⟩ : ∃ n', n = n' + 1 := ⟨n - 1, by omega⟩
    rw [scAt_next m c n' hn (by omega),
      scStep_at m c ⟨n' + 1, hn⟩ b (j + 1) (by show (n' + 1) / 8 = b; omega) (by show (n' + 1) % 8 = j + 1; omega) p r hr,
      ih (by omega) n' (Nat.lt_of_succ_lt hn) (by omega)]
    rfl

/-- The grid has 64 points. -/
theorem grid_points : cfg0.N = 64 := by decide +kernel

/-- At a last column block the scratch buffers hold, at row `p`, the row's maximum and both its sums. -/
theorem last_at (c : Dev nD) (hE : Finite (Earr m c)) (t : Fin cfg0.N) (ht : t.val % 8 = 7) (p : Fin 512) (r : Fin 4096)
    (hr : r.val = 512 * (t.val / 8) + p.val) :
    (((scAt m c t.val t.isLt).1 : Vec Ideal S512x1 .f32) (ix2 p 0), ((scAt m c t.val t.isLt).2.1 : Vec Ideal S512x1 .f32) (ix2 p 0),
      ((scAt m c t.val t.isLt).2.2 : Vec Ideal S512x1 .f32) (ix2 p 0))
      = (cmax (Earr m c) r, posSum (Earr m c) (Larr m c) r, negSum (Earr m c) r) := by
  have hN : cfg0.N = 64 := grid_points
  have hlt := t.isLt
  rw [sc_online m c (t.val / 8) (by omega) p r hr 7 (by norm_num) t.val t.isLt (by omega)]
  exact online_rows (Earr m c) (Larr m c) hE r

/-- An index of a one-column block is its row and column 0. -/
theorem oneCol_idx (y : S512x1.Idx) : y = ix2 (y 0) (0 : Fin 1) := by
  funext a
  match a with
  | ⟨0, _⟩ => rfl
  | ⟨1, _⟩ => exact Fin.ext (by have := idx2_lt1 y; show (y 1).val = 0; omega)

/-- So at a last column block the positives' scratch buffer holds, at the block's row of array row `i 0`, that row's
    positives' sum; -/
theorem pos_at (c : Dev nD) (hE : Finite (Earr m c)) (t : Fin cfg0.N) (ht : t.val % 8 = 7) (y : S512x1.Idx) (i : S4096x1.Idx)
    (hi : (i 0).val = 512 * (t.val / 8) + (y 0).val) :
    ((scAt m c t.val t.isLt).2.1 : Vec Ideal S512x1 .f32) y = posSum (Earr m c) (Larr m c) (i 0) := by
  rw [oneCol_idx y]
  exact congrArg (fun s : St => s.2.1) (last_at m c hE t ht (y 0) (i 0) hi)

/-- and the off-diagonal scratch buffer that row's off-diagonal sum. -/
theorem neg_at (c : Dev nD) (hE : Finite (Earr m c)) (t : Fin cfg0.N) (ht : t.val % 8 = 7) (y : S512x1.Idx) (i : S4096x1.Idx)
    (hi : (i 0).val = 512 * (t.val / 8) + (y 0).val) :
    ((scAt m c t.val t.isLt).2.2 : Vec Ideal S512x1 .f32) y = negSum (Earr m c) (i 0) := by
  rw [oneCol_idx y]
  exact congrArg (fun s : St => s.2.2) (last_at m c hE t ht (y 0) (i 0) hi)

/-! ## From the write-backs to the arrays -/

/-- WHAT A POINT AT A LAST COLUMN BLOCK WRITES BACK to the first result array is its block of the positives' sums; -/
theorem flushed4_eq (c : Dev nD) (hE : Finite (Earr m c)) (t : Fin cfg0.N) (hf : (cfg0.win 4).flush t = true) :
    (dats (F := Ideal) m 0 c).flushed 4 t
      = ((cfg0.win 4).blk t).view.read (Elt Ideal) (fun i => posSum (Earr m c) (Larr m c) (i 0)) := by
  have ht := (flush0_4 t).mp hf
  obtain ⟨e00, e01, e10, e11, e20, e21, e30, e31, e40, e41, e50, e51, g0, g1⟩ := index_maps t
  show (cfg0.win 4).cut (grid0.coords t) ((dats (F := Ideal) m 0 c).after 4 t) = _
  rw [after4]
  funext y
  show ((scAt m c t.val t.isLt).2.1 : Vec Ideal S512x1 .f32) y
    = posSum (Earr m c) (Larr m c) ((((cfg0.win 4).blk t).view.emb y) 0)
  refine pos_at m c hE t ht y _ ?_
  show win0_4.index t (0 : Fin 2) * 512 + 1 * (y 0).val = _
  omega

/-- and to the second its block of the off-diagonal sums. -/
theorem flushed5_eq (c : Dev nD) (hE : Finite (Earr m c)) (t : Fin cfg0.N) (hf : (cfg0.win 5).flush t = true) :
    (dats (F := Ideal) m 0 c).flushed 5 t
      = ((cfg0.win 5).blk t).view.read (Elt Ideal) (fun i => negSum (Earr m c) (i 0)) := by
  have ht := (flush0_5 t).mp hf
  obtain ⟨e00, e01, e10, e11, e20, e21, e30, e31, e40, e41, e50, e51, g0, g1⟩ := index_maps t
  show (cfg0.win 5).cut (grid0.coords t) ((dats (F := Ideal) m 0 c).after 5 t) = _
  rw [after5]
  funext y
  show ((scAt m c t.val t.isLt).2.2 : Vec Ideal S512x1 .f32) y
    = negSum (Earr m c) ((((cfg0.win 5).blk t).view.emb y) 0)
  refine neg_at m c hE t ht y _ ?_
  show win0_5.index t (0 : Fin 2) * 512 + 1 * (y 0).val = _
  omega

/-- An index of the first result array is in point `t`'s block iff each coordinate is in the block's range on its axis. -/
theorem mem_blk4 (t : Fin cfg0.N) (i : S4096x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v38_0).slice (win0_4.rect t)).set ↔ _
  rw [View.set_slice_whole, Rect.mem_set_unit]
  exact Iff.rfl

/-- The same for the second result array. -/
theorem mem_blk5 (t : Fin cfg0.N) (i : S4096x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v38_1).slice (win0_5.rect t)).set ↔ _
  rw [View.set_slice_whole, Rect.mem_set_unit]
  exact Iff.rfl

/-- THE COVER: row `i 0` lies in the block written back at the last column block of its row block. -/
theorem cover4 (i : S4096x1.Idx) :
    ∃ t : Fin cfg0.N, (cfg0.win 4).flush t = true ∧ i ∈ ((cfg0.win 4).blk t).view.set := by
  have hN : cfg0.N = 64 := grid_points
  have hi0 : (i 0).val < 4096 := idx2_lt0 i
  have hi1 : (i 1).val < 1 := idx2_lt1 i
  obtain ⟨t, htv⟩ : ∃ t : Fin cfg0.N, t.val = 8 * ((i 0).val / 512) + 7 := ⟨⟨_, by omega⟩, rfl⟩
  obtain ⟨e00, e01, e10, e11, e20, e21, e30, e31, e40, e41, e50, e51, g0, g1⟩ := index_maps t
  refine ⟨t, (flush0_4 t).mpr (by omega), ?_⟩
  rw [mem_blk4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1 ≤ (i 1).val ∧ (i 1).val < win0_4.index t (1 : Fin 2) * 1 + 1
    omega

/-- The same for the second result array. -/
theorem cover5 (i : S4096x1.Idx) :
    ∃ t : Fin cfg0.N, (cfg0.win 5).flush t = true ∧ i ∈ ((cfg0.win 5).blk t).view.set := by
  have hN : cfg0.N = 64 := grid_points
  have hi0 : (i 0).val < 4096 := idx2_lt0 i
  have hi1 : (i 1).val < 1 := idx2_lt1 i
  obtain ⟨t, htv⟩ : ∃ t : Fin cfg0.N, t.val = 8 * ((i 0).val / 512) + 7 := ⟨⟨_, by omega⟩, rfl⟩
  obtain ⟨e00, e01, e10, e11, e20, e21, e30, e31, e40, e41, e50, e51, g0, g1⟩ := index_maps t
  refine ⟨t, (flush0_5 t).mpr (by omega), ?_⟩
  rw [mem_blk5]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1 ≤ (i 1).val ∧ (i 1).val < win0_5.index t (1 : Fin 2) * 1 + 1
    omega

/-- The first result array after the run: the positives' sums. -/
theorem final_pos (c : Dev nD) (hE : Finite (Earr m c)) :
    (dats (F := Ideal) m 0 c).arrAt 4 cfg0.N = fun i => posSum (Earr m c) (Larr m c) (i 0) :=
  (dats (F := Ideal) m 0 c).arrAt_eq_of_cover 4 _ (fun t hf => flushed4_eq m c hE t hf) cover4

/-- The second result array after the run: the off-diagonal sums. -/
theorem final_neg (c : Dev nD) (hE : Finite (Earr m c)) :
    (dats (F := Ideal) m 0 c).arrAt 5 cfg0.N = fun i => negSum (Earr m c) (i 0) :=
  (dats (F := Ideal) m 0 c).arrAt_eq_of_cover 5 _ (fun t hf => flushed5_eq m c hE t hf) cover5

end Cert.KernelIdeal.HandValue

end
-- ==== Proof.RefValue.lean ====
/-
  The reference's three row quantities at the ideal values: its positives' sums and off-diagonal sums are `posSum` and
  `negSum` of RowSpec.lean, and its "row has a positive" bit is the existence of a positive column.

  The reference forms the full 4096 × 4096 similarity matrix (the embeddings' Gram matrix divided by the temperature
  — the product with the exact reciprocal, on every extended real, the temperature a nonzero real), the off-diagonal
  mask (two iotas compared), the positives' mask (the float labels' Gram matrix compared with 0, and off-diagonal), the
  row maxima of the similarities with the diagonal at -∞, the exponentials of the differences, and the two masked row
  sums. Each is read at an index by the run's stage lemmas; a row's maximum and sums are then the two-pass forms over
  the 4096 columns.
-/
import proofs.«136322_j23673859736131_1_alg».proof.Proof.RefRead
import proofs.«136322_j23673859736131_1_alg».proof.Proof.RowSpec
import Idealize.ShloMosaic.Lib.ValueLayout

set_option maxRecDepth 16384

noncomputable section

namespace Cert.ReferenceIdeal.HandValue

open Cert.ReferenceIdeal Cert.ReferenceIdeal.ReadP Cert.Softmax
open Idealize.ShloMosaic Idealize.ShloMosaic.TcCoe Idealize.ShloMosaic.ValueIdx

/-! ## The constants, and one-bit words as Booleans -/

/-- The temperature's word (sign 0, exponent 123, fraction 1006633) denotes the rational 9395241 / 2^27. -/
theorem ofBits_temp : Ideal.ofBits .f32 0x3D8F5C29#32 = ((9395241 / 134217728 : ℝ) : EReal) := by
  simp [Ideal.ofBits, Ideal.ieee, -EReal.coe_mul]; norm_num

/-- The word with all exponent bits set, sign 1 and fraction 0 denotes -∞. -/
theorem ofBits_ninf : Ideal.ofBits .f32 0xFF800000#32 = ⊥ := by simp [Ideal.ofBits, Ideal.ieee]

/-- The quotient by the temperature is the product with its exact reciprocal, on every extended real. -/
theorem div_temp (x : EReal) : Ideal.div x (Ideal.ofBits .f32 0x3D8F5C29#32) = x * invT := by
  rw [ofBits_temp, Ideal.div_coe (by norm_num)]
  unfold invT
  congr 2
  norm_num

/-- Two coordinates below 4096, as 32-bit words (the first plus the zero word), are equal words exactly when they are
    equal: a word below 2^32 is its own remainder. -/
theorem iota_eq (a b : ℕ) (ha : a < 4096) (hb : b < 4096) :
    IntOp.cmpi .eq (IntOp.addi (BitVec.ofNat 32 a) 0#32) (BitVec.ofNat 32 b) = BitVec.ofBool (decide (a = b)) := by
  unfold IntOp.cmpi IntOp.addi
  rw [BitVec.add_zero]
  congr 1
  by_cases h : a = b
  · subst h; simp
  · have hne : BitVec.ofNat 32 a ≠ BitVec.ofNat 32 b := by
      intro h'
      have h2 := congrArg BitVec.toNat h'
      rw [BitVec.toNat_ofNat, BitVec.toNat_ofNat, Nat.mod_eq_of_lt (by omega), Nat.mod_eq_of_lt (by omega)] at h2
      exact h h2
    simp [h, hne]

/-- The complement of a Boolean's bit is the negation's bit. -/
theorem not_ofBool (b : Bool) : ~~~(BitVec.ofBool b) = BitVec.ofBool (!b) := by cases b <;> decide

/-- The conjunction of two Booleans' bits is the conjunction's bit. -/
theorem and_ofBool (p q : Bool) : IntOp.andi (BitVec.ofBool p) (BitVec.ofBool q) = BitVec.ofBool (p && q) := by
  cases p <;> cases q <;> decide

/-- A select on a Boolean's bit is the conditional on the Boolean. -/
theorem select_ofBool {α : Type} (b : Bool) (x y : α) : Scalar.select (BitVec.ofBool b) x y = if b then x else y := by
  cases b
  · exact select_zero x y
  · exact select_one x y

/-- A Boolean's bit is set exactly when the Boolean is true. -/
theorem ofBool_eq_one (b : Bool) : BitVec.ofBool b = 1#1 ↔ b = true := by cases b <;> decide

/-- "Greater than zero" on the extended reals, as a bit. -/
theorem cmp_ogt_zero (x : EReal) : Ideal.cmp .ogt x 0 = BitVec.ofBool (decide (0 < x)) := rfl

/-! ## Folds over a row's 4096 coordinates -/

/-- A supremum over the `n` coordinates is the supremum over the first `n` naturals. -/
theorem sup_univ_eq_sup_range (n : ℕ) (f : ℕ → EReal) :
    (Finset.univ : Finset (Fin n)).sup (fun k => f k.val) = (Finset.range n).sup f := by
  refine le_antisymm (Finset.sup_le fun k _ => Finset.le_sup (f := f) (Finset.mem_range.mpr k.isLt)) ?_
  exact Finset.sup_le fun j hj => Finset.le_sup (f := fun k : Fin n => f k.val) (Finset.mem_univ ⟨j, Finset.mem_range.mp hj⟩)

/-- The fold of the maximum from -∞ over the coordinates is that supremum (a supremum of a finite family IS the fold of
    the binary one from the bottom, and the binary supremum of a linear order is its maximum). -/
theorem fold_max_univ (n : ℕ) (g : Fin n → EReal) (f : ℕ → EReal) (hg : ∀ k : Fin n, g k = f k.val) :
    (Finset.univ : Finset (Fin n)).fold (FloatOps.maximumf (F := Ideal) (φ := .f32)) (⊥ : EReal) g = (Finset.range n).sup f := by
  rw [← sup_univ_eq_sup_range, show g = fun k => f k.val from funext hg]
  rfl

/-- A disjunction of two bits is set exactly when one of them is. -/
theorem or_eq_one (a b : BitVec 1) : IntOp.ori a b = 1#1 ↔ a = 1#1 ∨ b = 1#1 := by
  revert a b; decide

/-- The fold of the disjunction from the clear bit over a finite family is set exactly when some member is. -/
theorem fold_ori_eq_one_iff {ι : Type} (s : Finset ι) (g : ι → BitVec 1) :
    s.fold IntOp.ori 0#1 g = 1#1 ↔ ∃ k ∈ s, g k = 1#1 := by
  induction s using Finset.cons_induction with
  | empty => simp
  | cons a s ha ih =>
    rw [Finset.fold_cons, or_eq_one, ih]
    simp only [Finset.mem_cons, exists_eq_or_imp]

/-- Row `r` of the reduced array with column `k` put back is the entry (r, k). -/
theorem lift_eq (h : (⟨2, ![4096, 4096]⟩ : Shape).Reduces [1] (⟨1, ![4096]⟩ : Shape)) (r : Fin 4096)
    (k : Fin ((⟨2, ![4096, 4096]⟩ : Shape).size 1)) : h.lift (ix1 r) k = ix2 r (⟨k.val, k.isLt⟩ : Fin 4096) := by
  funext c; apply Fin.ext
  fin_cases c <;> rfl

/-! ## The generated index maps on coordinates -/

theorem lidx39 (r j : Fin 4096) (k : Fin 1024) : lidx_main_v39 (ix2 r j) k = ix2 r k :=
  funext fun a => Fin.ext (by match a with | ⟨0, _⟩ => rfl | ⟨1, _⟩ => rfl)
theorem ridx39 (r j : Fin 4096) (k : Fin 1024) : idx_main_v38 (ridx_main_v39 (ix2 r j) k) = ix2 j k :=
  funext fun a => Fin.ext (by match a with | ⟨0, _⟩ => rfl | ⟨1, _⟩ => rfl)
theorem lidx49 (r j : Fin 4096) (k : Fin 64) : lidx_main_v49 (ix2 r j) k = ix2 r k :=
  funext fun a => Fin.ext (by match a with | ⟨0, _⟩ => rfl | ⟨1, _⟩ => rfl)
theorem ridx49 (r j : Fin 4096) (k : Fin 64) : idx_main_v48 (ridx_main_v49 (ix2 r j) k) = ix2 j k :=
  funext fun a => Fin.ext (by match a with | ⟨0, _⟩ => rfl | ⟨1, _⟩ => rfl)
theorem idx5657 (r j : Fin 4096) : idx_main_v56 (idx_main_v57 (ix2 r j)) = ix1 r :=
  funext fun a => Fin.ext (by match a with | ⟨0, _⟩ => rfl)
theorem idx61 (r k : Fin 4096) : idx_main_v61 (ix1 r) k = ix2 r k :=
  funext fun a => Fin.ext (by match a with | ⟨0, _⟩ => rfl | ⟨1, _⟩ => rfl)
theorem idx63 (r k : Fin 4096) : idx_main_v63 (ix1 r) k = ix2 r k :=
  funext fun a => Fin.ext (by match a with | ⟨0, _⟩ => rfl | ⟨1, _⟩ => rfl)

/-! ## The reference's stages at an entry -/

/-- The similarity matrix: entry (r, j) is the two embedding rows' dot product times the reciprocal temperature. -/
theorem sim_apply (x0 : (⟨S4096x1024, .f32⟩ : BufTy).Contents (Elt Ideal)) (r j : Fin 4096) :
    val_main_v41 (F := Ideal) x0 (ix2 r j) = simN (x0 : EArr) r j.val := by
  rw [val_main_v41_apply, val_main_v39_apply, val_main_v40_apply, val_main_cst_11_apply]
  simp only [val_main_v38_apply, lidx39, ridx39, Ideal.hostDivf_def, Ideal.ofBits_def]
  rw [div_temp]
  unfold simN dotE
  rw [dif_pos j.isLt]

/-- The off-diagonal mask: entry (r, j) is the bit of j ≠ r. -/
theorem off_apply (r j : Fin 4096) : val_main_v47 (F := Ideal) (ix2 r j) = BitVec.ofBool (offN r j.val) := by
  rw [val_main_v47_apply, val_main_v46_apply, val_main_v45_apply, val_main_v42_apply, val_main_v44_apply, val_main_c_apply,
    val_main_v43_apply]
  show ~~~(IntOp.cmpi .eq (IntOp.addi (BitVec.ofNat 32 r.val) 0#32) (BitVec.ofNat 32 j.val)) = _
  rw [iota_eq r.val j.val r.isLt j.isLt, not_ofBool]
  unfold offN
  congr 1
  by_cases h : r.val = j.val
  · simp [h]
  · have h' : j.val ≠ r.val := fun e => h e.symm
    simp [h, h']

/-- The positives' mask: entry (r, j) is the bit of "the two label rows' dot product is positive, and j ≠ r". -/
theorem pm_apply (x2 : (⟨S4096x64, .i32⟩ : BufTy).Contents (Elt Ideal)) (r j : Fin 4096) :
    val_main_v52 (F := Ideal) x2 (ix2 r j) = BitVec.ofBool (pmN (val_main_v0 (F := Ideal) x2 : LArr) r j.val) := by
  rw [val_main_v52_apply, val_main_v51_apply, val_main_v49_apply, val_main_v50_apply, val_main_cst_12_apply, off_apply]
  simp only [val_main_v48_apply, lidx49, ridx49, Ideal.cmpf_def, Ideal.ofBits_def, Ideal.ofBits_zero_f32]
  rw [cmp_ogt_zero, and_ofBool]
  unfold pmN dotL offN
  rw [dif_pos j.isLt]

/-- The row maxima: row r's is the maximum of its off-diagonal similarities. -/
theorem max_apply (x0 : (⟨S4096x1024, .f32⟩ : BufTy).Contents (Elt Ideal)) (r : Fin 4096) :
    val_main_v55 (F := Ideal) x0 (ix1 r) = cmax (x0 : EArr) r := by
  unfold val_main_v55
  rw [Host.reduce_eq_fold_single FloatOps.maximumf _ _ Gen.reducesTo_S4096x4096_S4096_d1 (by decide) Gen.h_S_]
  have h0 : val_main_cst_15 (F := Ideal) (Shape.Idx.first Gen.h_S_) = (⊥ : EReal) := ofBits_ninf
  rw [h0]
  unfold cmax rowMax
  refine fold_max_univ _ _ _ fun k => ?_
  rw [Function.comp_apply, lift_eq, val_main_v54_apply, off_apply, sim_apply, val_main_call0_v1_apply, val_main_call0_v0_apply,
    val_main_cst_14_apply, select_ofBool]
  simp only [Ideal.ofBits_def, ofBits_ninf]

/-- The exponentials: entry (r, j) is exp (similarity - row maximum). -/
theorem exp_apply (x0 : (⟨S4096x1024, .f32⟩ : BufTy).Contents (Elt Ideal)) (r j : Fin 4096) :
    val_main_v59 (F := Ideal) x0 (ix2 r j) = Ideal.exp (simN (x0 : EArr) r j.val - cmax (x0 : EArr) r) := by
  rw [val_main_v59_apply, val_main_v58_apply, sim_apply, val_main_v57_apply, val_main_v56_apply, idx5657, max_apply]
  rfl

/-- The positives' exponentials, 0 elsewhere. -/
theorem posTerm_apply (x0 : (⟨S4096x1024, .f32⟩ : BufTy).Contents (Elt Ideal)) (x2 : (⟨S4096x64, .i32⟩ : BufTy).Contents (Elt Ideal))
    (r j : Fin 4096) :
    val_main_v60 (F := Ideal) x0 x2 (ix2 r j)
      = if pmN (val_main_v0 (F := Ideal) x2 : LArr) r j.val then Ideal.exp (simN (x0 : EArr) r j.val - cmax (x0 : EArr) r) else 0 := by
  rw [val_main_v60_apply, pm_apply, exp_apply, val_main_call1_v1_apply, val_main_call1_v0_apply, val_main_cst_16_apply, select_ofBool]
  simp only [Ideal.ofBits_def, Ideal.ofBits_zero_f32]

/-- The off-diagonal exponentials, 0 on the diagonal. -/
theorem negTerm_apply (x0 : (⟨S4096x1024, .f32⟩ : BufTy).Contents (Elt Ideal)) (r j : Fin 4096) :
    val_main_v62 (F := Ideal) x0 (ix2 r j)
      = if offN r j.val then Ideal.exp (simN (x0 : EArr) r j.val - cmax (x0 : EArr) r) else 0 := by
  rw [val_main_v62_apply, off_apply, exp_apply, val_main_call2_v1_apply, val_main_call2_v0_apply, val_main_cst_18_apply, select_ofBool]
  simp only [Ideal.ofBits_def, Ideal.ofBits_zero_f32]

/-! ## The three row quantities -/

/-- The reference's positives' sums. -/
theorem ref_pos (x0 : (⟨S4096x1024, .f32⟩ : BufTy).Contents (Elt Ideal)) (x2 : (⟨S4096x64, .i32⟩ : BufTy).Contents (Elt Ideal))
    (hE : Finite (x0 : EArr)) :
    val_main_v61 (F := Ideal) x0 x2 = fun i => posSum (x0 : EArr) (val_main_v0 (F := Ideal) x2 : LArr) (i 0) := by
  funext i
  obtain ⟨r, rfl⟩ : ∃ r : Fin 4096, i = ix1 r := ⟨i 0, eq_ix1 i⟩
  show _ = posSum (x0 : EArr) (val_main_v0 (F := Ideal) x2 : LArr) r
  rw [val_main_v61_apply, val_main_cst_17_apply]
  simp only [Ideal.ofBits_def, Ideal.ofBits_zero_f32, zero_add, idx61, posTerm_apply]
  unfold posSum rowSum
  exact Fin.sum_univ_eq_sum_range
    (fun j => if pmN (val_main_v0 (F := Ideal) x2 : LArr) r j then Ideal.exp (simN (x0 : EArr) r j - cmax (x0 : EArr) r) else 0) 4096

/-- The reference's off-diagonal sums. -/
theorem ref_neg (x0 : (⟨S4096x1024, .f32⟩ : BufTy).Contents (Elt Ideal)) (hE : Finite (x0 : EArr)) :
    val_main_v63 (F := Ideal) x0 = fun i => negSum (x0 : EArr) (i 0) := by
  funext i
  obtain ⟨r, rfl⟩ : ∃ r : Fin 4096, i = ix1 r := ⟨i 0, eq_ix1 i⟩
  show _ = negSum (x0 : EArr) r
  rw [val_main_v63_apply, val_main_cst_19_apply]
  simp only [Ideal.ofBits_def, Ideal.ofBits_zero_f32, zero_add, idx63, negTerm_apply]
  unfold negSum rowSum
  exact Fin.sum_univ_eq_sum_range
    (fun j => if offN r j then Ideal.exp (simN (x0 : EArr) r j - cmax (x0 : EArr) r) else 0) 4096

/-- The reference's "row has a positive" bit. -/
theorem ref_valid (x2 : (⟨S4096x64, .i32⟩ : BufTy).Contents (Elt Ideal)) (i : S4096.Idx) :
    val_main_v53 (F := Ideal) x2 i = 1#1 ↔ ∃ j, j < 4096 ∧ pmN (val_main_v0 (F := Ideal) x2 : LArr) (i 0) j = true := by
  obtain ⟨r, rfl⟩ : ∃ r : Fin 4096, i = ix1 r := ⟨i 0, eq_ix1 i⟩
  show _ ↔ ∃ j, j < 4096 ∧ pmN (val_main_v0 (F := Ideal) x2 : LArr) r j = true
  unfold val_main_v53
  rw [Host.reduce_eq_fold_single IntOp.ori _ _ Gen.reducesTo_S4096x4096_S4096_d1 (by decide) Gen.h_S_]
  have h0 : val_main_c_13 (F := Ideal) (Shape.Idx.first Gen.h_S_) = 0#1 := rfl
  rw [h0, fold_ori_eq_one_iff]
  constructor
  · rintro ⟨k, _, hk⟩
    rw [Function.comp_apply, lift_eq, pm_apply, ofBool_eq_one] at hk
    exact ⟨k.val, k.isLt, hk⟩
  · rintro ⟨j, hj, hp⟩
    refine ⟨(⟨j, hj⟩ : Fin (S4096x4096.size 1)), Finset.mem_univ _, ?_⟩
    rw [Function.comp_apply, lift_eq, pm_apply, ofBool_eq_one]
    exact hp

end Cert.ReferenceIdeal.HandValue

end
-- ==== Proof.RefRunH.lean ====
/-
  The reference program's run, read back stage by stage.

  @main is a straight line of 124 host operations, so every weakly fair execution terminates with each buffer at the
  fold of the operations' results over the launch contents. The result buffer's fold is read in three stretches, cut where
  the values the next stretch reads are few: the first fifty operations (the float labels, the cross-entropy term, the
  weights), the similarity matrix, masks, row maxima and the two masked row sums, and the closing chain — each stretch's
  results as the stage functions of the arguments, so that no step compares more than one stretch's term.
-/
import proofs.«136322_j23673859736131_1_alg».proof.Proof.RefOps
import proofs.«136322_j23673859736131_1_alg».proof.Proof.RefRead
import proofs.«136322_j23673859736131_1_alg».proof.Proof.RefClose

noncomputable section

namespace Cert.ReferenceIdeal.HandRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The three stretches -/

/-- The first fifty operations: the float labels, the cross-entropy term, the per-row weights. -/
abbrev opsA : List (HloOp τ sig (Elt F)) :=
  [ unary main_arg2 main_v0 (sitofp (F := F) .f32 : (⟨S4096x64, .i32⟩ : BufTy).Contents (Elt F) → (⟨S4096x64, .f32⟩ : BufTy).Contents (Elt F)),
    nullary main_cst (constant S_ .f32 0x00000000#32),
    unary main_cst main_v1 (broadcastInDim S4096x64 ![] bcast_S_S4096x64 : (⟨S_, .f32⟩ : BufTy).Contents (Elt F) → (⟨S4096x64, .f32⟩ : BufTy).Contents (Elt F)),
    binary main_arg1 main_v1 main_v2 (maximumf : (⟨S4096x64, .f32⟩ : BufTy).Contents (Elt F) → (⟨S4096x64, .f32⟩ : BufTy).Contents (Elt F) → (⟨S4096x64, .f32⟩ : BufTy).Contents (Elt F)),
    binary main_arg1 main_v0 main_v3 (mulf : (⟨S4096x64, .f32⟩ : BufTy).Contents (Elt F) → (⟨S4096x64, .f32⟩ : BufTy).Contents (Elt F) → (⟨S4096x64, .f32⟩ : BufTy).Contents (Elt F)),
    binary main_v2 main_v3 main_v4 (subf : (⟨S4096x64, .f32⟩ : BufTy).Contents (Elt F) → (⟨S4096x64, .f32⟩ : BufTy).Contents (Elt F) → (⟨S4096x64, .f32⟩ : BufTy).Contents (Elt F)),
    unary main_arg1 main_v5 (Host.absf : (⟨S4096x64, .f32⟩ : BufTy).Contents (Elt F) → (⟨S4096x64, .f32⟩ : BufTy).Contents (Elt F)),
    unary main_v5 main_v6 (Host.negf : (⟨S4096x64, .f32⟩ : BufTy).Contents (Elt F) → (⟨S4096x64, .f32⟩ : BufTy).Contents (Elt F)),
    unary main_v6 main_v7 (Host.exp : (⟨S4096x64, .f32⟩ : BufTy).Contents (Elt F) → (⟨S4096x64, .f32⟩ : BufTy).Contents (Elt F)),
    unary main_v7 main_v8 (Host.log1p : (⟨S4096x64, .f32⟩ : BufTy).Contents (Elt F) → (⟨S4096x64, .f32⟩ : BufTy).Contents (Elt F)),
    binary main_v4 main_v8 main_v9 (addf : (⟨S4096x64, .f32⟩ : BufTy).Contents (Elt F) → (⟨S4096x64, .f32⟩ : BufTy).Contents (Elt F) → (⟨S4096x64, .f32⟩ : BufTy).Contents (Elt F)),
    nullary main_cst_0 (constant S_ .f32 0x00000000#32),
    binary main_v9 main_cst_0 main_v10 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_1 (constant S_ .f32 0x48800000#32),
    binary main_v10 main_cst_1 main_v11 (Host.divf : (⟨S_, .f32⟩ : BufTy).Contents (Elt F) → (⟨S_, .f32⟩ : BufTy).Contents (Elt F) → (⟨S_, .f32⟩ : BufTy).Contents (Elt F)),
    unary main_arg1 main_v12 (Host.negf : (⟨S4096x64, .f32⟩ : BufTy).Contents (Elt F) → (⟨S4096x64, .f32⟩ : BufTy).Contents (Elt F)),
    unary main_v12 main_v13 (Host.exp : (⟨S4096x64, .f32⟩ : BufTy).Contents (Elt F) → (⟨S4096x64, .f32⟩ : BufTy).Contents (Elt F)),
    nullary main_cst_2 (constant S_ .f32 0x3F800000#32),
    unary main_cst_2 main_v14 (broadcastInDim S4096x64 ![] bcast_S_S4096x64 : (⟨S_, .f32⟩ : BufTy).Contents (Elt F) → (⟨S4096x64, .f32⟩ : BufTy).Contents (Elt F)),
    binary main_v14 main_v13 main_v15 (addf : (⟨S4096x64, .f32⟩ : BufTy).Contents (Elt F) → (⟨S4096x64, .f32⟩ : BufTy).Contents (Elt F) → (⟨S4096x64, .f32⟩ : BufTy).Contents (Elt F)),
    nullary main_cst_3 (constant S_ .f32 0x3F800000#32),
    unary main_cst_3 main_v16 (broadcastInDim S4096x64 ![] bcast_S_S4096x64 : (⟨S_, .f32⟩ : BufTy).Contents (Elt F) → (⟨S4096x64, .f32⟩ : BufTy).Contents (Elt F)),
    binary main_v16 main_v15 main_v17 (Host.divf : (⟨S4096x64, .f32⟩ : BufTy).Contents (Elt F) → (⟨S4096x64, .f32⟩ : BufTy).Contents (Elt F) → (⟨S4096x64, .f32⟩ : BufTy).Contents (Elt F)),
    nullary main_cst_4 (constant S_ .f32 0x322BCC77#32),
    unary main_cst_4 main_v18 (broadcastInDim S4096x64 ![] bcast_S_S4096x64 : (⟨S_, .f32⟩ : BufTy).Contents (Elt F) → (⟨S4096x64, .f32⟩ : BufTy).Contents (Elt F)),
    binary main_v17 main_v18 main_v19 (addf : (⟨S4096x64, .f32⟩ : BufTy).Contents (Elt F) → (⟨S4096x64, .f32⟩ : BufTy).Contents (Elt F) → (⟨S4096x64, .f32⟩ : BufTy).Contents (Elt F)),
    unary main_v19 main_v20 (Host.log : (⟨S4096x64, .f32⟩ : BufTy).Contents (Elt F) → (⟨S4096x64, .f32⟩ : BufTy).Contents (Elt F)),
    binary main_v17 main_v20 main_v21 (mulf : (⟨S4096x64, .f32⟩ : BufTy).Contents (Elt F) → (⟨S4096x64, .f32⟩ : BufTy).Contents (Elt F) → (⟨S4096x64, .f32⟩ : BufTy).Contents (Elt F)),
    nullary main_cst_5 (constant S_ .f32 0x3F800000#32),
    unary main_cst_5 main_v22 (broadcastInDim S4096x64 ![] bcast_S_S4096x64 : (⟨S_, .f32⟩ : BufTy).Contents (Elt F) → (⟨S4096x64, .f32⟩ : BufTy).Contents (Elt F)),
    binary main_v22 main_v17 main_v23 (subf : (⟨S4096x64, .f32⟩ : BufTy).Contents (Elt F) → (⟨S4096x64, .f32⟩ : BufTy).Contents (Elt F) → (⟨S4096x64, .f32⟩ : BufTy).Contents (Elt F)),
    nullary main_cst_6 (constant S_ .f32 0x3F800000#32),
    unary main_cst_6 main_v24 (broadcastInDim S4096x64 ![] bcast_S_S4096x64 : (⟨S_, .f32⟩ : BufTy).Contents (Elt F) → (⟨S4096x64, .f32⟩ : BufTy).Contents (Elt F)),
    binary main_v24 main_v17 main_v25 (subf : (⟨S4096x64, .f32⟩ : BufTy).Contents (Elt F) → (⟨S4096x64, .f32⟩ : BufTy).Contents (Elt F) → (⟨S4096x64, .f32⟩ : BufTy).Contents (Elt F)),
    nullary main_cst_7 (constant S_ .f32 0x322BCC77#32),
    unary main_cst_7 main_v26 (broadcastInDim S4096x64 ![] bcast_S_S4096x64 : (⟨S_, .f32⟩ : BufTy).Contents (Elt F) → (⟨S4096x64, .f32⟩ : BufTy).Contents (Elt F)),
    binary main_v25 main_v26 main_v27 (addf : (⟨S4096x64, .f32⟩ : BufTy).Contents (Elt F) → (⟨S4096x64, .f32⟩ : BufTy).Contents (Elt F) → (⟨S4096x64, .f32⟩ : BufTy).Contents (Elt F)),
    unary main_v27 main_v28 (Host.log : (⟨S4096x64, .f32⟩ : BufTy).Contents (Elt F) → (⟨S4096x64, .f32⟩ : BufTy).Contents (Elt F)),
    binary main_v23 main_v28 main_v29 (mulf : (⟨S4096x64, .f32⟩ : BufTy).Contents (Elt F) → (⟨S4096x64, .f32⟩ : BufTy).Contents (Elt F) → (⟨S4096x64, .f32⟩ : BufTy).Contents (Elt F)),
    binary main_v21 main_v29 main_v30 (addf : (⟨S4096x64, .f32⟩ : BufTy).Contents (Elt F) → (⟨S4096x64, .f32⟩ : BufTy).Contents (Elt F) → (⟨S4096x64, .f32⟩ : BufTy).Contents (Elt F)),
    unary main_v30 main_v31 (Host.negf : (⟨S4096x64, .f32⟩ : BufTy).Contents (Elt F) → (⟨S4096x64, .f32⟩ : BufTy).Contents (Elt F)),
    binary main_v31 main_v0 main_v32 (mulf : (⟨S4096x64, .f32⟩ : BufTy).Contents (Elt F) → (⟨S4096x64, .f32⟩ : BufTy).Contents (Elt F) → (⟨S4096x64, .f32⟩ : BufTy).Contents (Elt F)),
    nullary main_cst_8 (constant S_ .f32 0x00000000#32),
    binary main_v32 main_cst_8 main_v33 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    nullary main_cst_9 (constant S_ .f32 0x00000000#32),
    binary main_v0 main_cst_9 main_v34 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    nullary main_cst_10 (constant S_ .f32 0x322BCC77#32),
    unary main_cst_10 main_v35 (broadcastInDim S4096 ![] bcast_S_S4096 : (⟨S_, .f32⟩ : BufTy).Contents (Elt F) → (⟨S4096, .f32⟩ : BufTy).Contents (Elt F)),
    binary main_v34 main_v35 main_v36 (addf : (⟨S4096, .f32⟩ : BufTy).Contents (Elt F) → (⟨S4096, .f32⟩ : BufTy).Contents (Elt F) → (⟨S4096, .f32⟩ : BufTy).Contents (Elt F)),
    binary main_v33 main_v36 main_v37 (Host.divf : (⟨S4096, .f32⟩ : BufTy).Contents (Elt F) → (⟨S4096, .f32⟩ : BufTy).Contents (Elt F) → (⟨S4096, .f32⟩ : BufTy).Contents (Elt F)) ]

/-- The similarity matrix, the masks, the "row has a positive" bits, the row maxima and the two masked row sums. -/
abbrev opsB : List (HloOp τ sig (Elt F)) :=
  [ unary main_arg0 main_v38 ((transpose S1024x4096 [1, 0] · transposes_S4096x1024_S1024x4096_1_0) : (⟨S4096x1024, .f32⟩ : BufTy).Contents (Elt F) → (⟨S1024x4096, .f32⟩ : BufTy).Contents (Elt F)),
    binary main_arg0 main_v38 main_v39 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    nullary main_cst_11 (constant S_ .f32 0x3D8F5C29#32),
    unary main_cst_11 main_v40 (broadcastInDim S4096x4096 ![] bcast_S_S4096x4096 : (⟨S_, .f32⟩ : BufTy).Contents (Elt F) → (⟨S4096x4096, .f32⟩ : BufTy).Contents (Elt F)),
    binary main_v39 main_v40 main_v41 (Host.divf : (⟨S4096x4096, .f32⟩ : BufTy).Contents (Elt F) → (⟨S4096x4096, .f32⟩ : BufTy).Contents (Elt F) → (⟨S4096x4096, .f32⟩ : BufTy).Contents (Elt F)),
    nullary main_v42 (iotaInDim S4096x4096 32 0),
    nullary main_v43 (iotaInDim S4096x4096 32 1),
    nullary main_c (constantI S_ 32 0#32),
    unary main_c main_v44 (broadcastInDim S4096x4096 ![] bcast_S_S4096x4096 : (⟨S_, .i32⟩ : BufTy).Contents (Elt F) → (⟨S4096x4096, .i32⟩ : BufTy).Contents (Elt F)),
    binary main_v42 main_v44 main_v45 (addi : (⟨S4096x4096, .i32⟩ : BufTy).Contents (Elt F) → (⟨S4096x4096, .i32⟩ : BufTy).Contents (Elt F) → (⟨S4096x4096, .i32⟩ : BufTy).Contents (Elt F)),
    binary main_v45 main_v43 main_v46 (cmpi .eq : (⟨S4096x4096, .i32⟩ : BufTy).Contents (Elt F) → (⟨S4096x4096, .i32⟩ : BufTy).Contents (Elt F) → (⟨S4096x4096, .i1⟩ : BufTy).Contents (Elt F)),
    unary main_v46 main_v47 (noti : (⟨S4096x4096, .i1⟩ : BufTy).Contents (Elt F) → (⟨S4096x4096, .i1⟩ : BufTy).Contents (Elt F)),
    unary main_v0 main_v48 ((transpose S64x4096 [1, 0] · transposes_S4096x64_S64x4096_1_0) : (⟨S4096x64, .f32⟩ : BufTy).Contents (Elt F) → (⟨S64x4096, .f32⟩ : BufTy).Contents (Elt F)),
    binary main_v0 main_v48 main_v49 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)),
    nullary main_cst_12 (constant S_ .f32 0x00000000#32),
    unary main_cst_12 main_v50 (broadcastInDim S4096x4096 ![] bcast_S_S4096x4096 : (⟨S_, .f32⟩ : BufTy).Contents (Elt F) → (⟨S4096x4096, .f32⟩ : BufTy).Contents (Elt F)),
    binary main_v49 main_v50 main_v51 (cmpf (F := F) .ogt : (⟨S4096x4096, .f32⟩ : BufTy).Contents (Elt F) → (⟨S4096x4096, .f32⟩ : BufTy).Contents (Elt F) → (⟨S4096x4096, .i1⟩ : BufTy).Contents (Elt F)),
    binary main_v51 main_v47 main_v52 (andi : (⟨S4096x4096, .i1⟩ : BufTy).Contents (Elt F) → (⟨S4096x4096, .i1⟩ : BufTy).Contents (Elt F) → (⟨S4096x4096, .i1⟩ : BufTy).Contents (Elt F)),
    nullary main_c_13 (constantI S_ 1 0#1),
    binary main_v52 main_c_13 main_v53 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    nullary main_cst_14 (constant S_ .f32 0xFF800000#32),
    TRef.unary (TRef.of (T := ⟨S_, .f32⟩) main_cst_14) (TRef.of (T := ⟨S_, .f32⟩) main_call0_v0) id,
    TRef.unary (TRef.of (T := ⟨S_, .f32⟩) main_call0_v0) (TRef.of (T := ⟨S4096x4096, .f32⟩) main_call0_v1) (broadcastInDim S4096x4096 ![] bcast_S_S4096x4096),
    TRef.ternary (TRef.of (T := ⟨S4096x4096, .i1⟩) main_v47) (TRef.of (T := ⟨S4096x4096, .f32⟩) main_v41) (TRef.of (T := ⟨S4096x4096, .f32⟩) main_call0_v1) (TRef.of (T := ⟨S4096x4096, .f32⟩) main_v54) select,
    nullary main_cst_15 (constant S_ .f32 0xFF800000#32),
    binary main_v54 main_cst_15 main_v55 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v55 main_v56 (broadcastInDim S4096x1 ![0] bcast_S4096_S4096x1_0 : (⟨S4096, .f32⟩ : BufTy).Contents (Elt F) → (⟨S4096x1, .f32⟩ : BufTy).Contents (Elt F)),
    unary main_v56 main_v57 (broadcastInDim S4096x4096 ![0, 1] bcast_S4096x1_S4096x4096_0_1 : (⟨S4096x1, .f32⟩ : BufTy).Contents (Elt F) → (⟨S4096x4096, .f32⟩ : BufTy).Contents (Elt F)),
    binary main_v41 main_v57 main_v58 (subf : (⟨S4096x4096, .f32⟩ : BufTy).Contents (Elt F) → (⟨S4096x4096, .f32⟩ : BufTy).Contents (Elt F) → (⟨S4096x4096, .f32⟩ : BufTy).Contents (Elt F)),
    unary main_v58 main_v59 (Host.exp : (⟨S4096x4096, .f32⟩ : BufTy).Contents (Elt F) → (⟨S4096x4096, .f32⟩ : BufTy).Contents (Elt F)),
    nullary main_cst_16 (constant S_ .f32 0x00000000#32),
    TRef.unary (TRef.of (T := ⟨S_, .f32⟩) main_cst_16) (TRef.of (T := ⟨S_, .f32⟩) main_call1_v0) id,
    TRef.unary (TRef.of (T := ⟨S_, .f32⟩) main_call1_v0) (TRef.of (T := ⟨S4096x4096, .f32⟩) main_call1_v1) (broadcastInDim S4096x4096 ![] bcast_S_S4096x4096),
    TRef.ternary (TRef.of (T := ⟨S4096x4096, .i1⟩) main_v52) (TRef.of (T := ⟨S4096x4096, .f32⟩) main_v59) (TRef.of (T := ⟨S4096x4096, .f32⟩) main_call1_v1) (TRef.of (T := ⟨S4096x4096, .f32⟩) main_v60) select,
    nullary main_cst_17 (constant S_ .f32 0x00000000#32),
    binary main_v60 main_cst_17 main_v61 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_18 (constant S_ .f32 0x00000000#32),
    TRef.unary (TRef.of (T := ⟨S_, .f32⟩) main_cst_18) (TRef.of (T := ⟨S_, .f32⟩) main_call2_v0) id,
    TRef.unary (TRef.of (T := ⟨S_, .f32⟩) main_call2_v0) (TRef.of (T := ⟨S4096x4096, .f32⟩) main_call2_v1) (broadcastInDim S4096x4096 ![] bcast_S_S4096x4096),
    TRef.ternary (TRef.of (T := ⟨S4096x4096, .i1⟩) main_v47) (TRef.of (T := ⟨S4096x4096, .f32⟩) main_v59) (TRef.of (T := ⟨S4096x4096, .f32⟩) main_call2_v1) (TRef.of (T := ⟨S4096x4096, .f32⟩) main_v62) select,
    nullary main_cst_19 (constant S_ .f32 0x00000000#32),
    binary main_v62 main_cst_19 main_v63 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) ]

/-- The closing chain. -/
abbrev opsC : List (HloOp τ sig (Elt F)) :=
  [ nullary main_cst_20 (constant S_ .f32 0x322BCC77#32),
    unary main_cst_20 main_v64 (broadcastInDim S4096 ![] bcast_S_S4096 : (⟨S_, .f32⟩ : BufTy).Contents (Elt F) → (⟨S4096, .f32⟩ : BufTy).Contents (Elt F)),
    binary main_v63 main_v64 main_v65 (addf : (⟨S4096, .f32⟩ : BufTy).Contents (Elt F) → (⟨S4096, .f32⟩ : BufTy).Contents (Elt F) → (⟨S4096, .f32⟩ : BufTy).Contents (Elt F)),
    binary main_v61 main_v65 main_v66 (Host.divf : (⟨S4096, .f32⟩ : BufTy).Contents (Elt F) → (⟨S4096, .f32⟩ : BufTy).Contents (Elt F) → (⟨S4096, .f32⟩ : BufTy).Contents (Elt F)),
    nullary main_cst_21 (constant S_ .f32 0x3F800000#32),
    TRef.unary (TRef.of (T := ⟨S_, .f32⟩) main_cst_21) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v53) (TRef.of (T := ⟨S4096, .f32⟩) main_v66) (TRef.of (T := ⟨S4096, .f32⟩) main_call3_v1) (TRef.of (T := ⟨S4096, .f32⟩) main_v67) select,
    unary main_v67 main_v68 (Host.log : (⟨S4096, .f32⟩ : BufTy).Contents (Elt F) → (⟨S4096, .f32⟩ : BufTy).Contents (Elt F)),
    unary main_v68 main_v69 (Host.negf : (⟨S4096, .f32⟩ : BufTy).Contents (Elt F) → (⟨S4096, .f32⟩ : BufTy).Contents (Elt F)),
    binary main_v69 main_v37 main_v70 (mulf : (⟨S4096, .f32⟩ : BufTy).Contents (Elt F) → (⟨S4096, .f32⟩ : BufTy).Contents (Elt F) → (⟨S4096, .f32⟩ : BufTy).Contents (Elt F)),
    unary main_v53 main_v71 ((extui 32 · natLt_1_32) : (⟨S4096, .i1⟩ : BufTy).Contents (Elt F) → (⟨S4096, .i32⟩ : BufTy).Contents (Elt F)),
    nullary main_c_22 (constantI S_ 32 0#32),
    binary main_v71 main_c_22 main_v72 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_c_23 (constantI S_ 32 0#32),
    binary main_v72 main_c_23 main_v73 (cmpi .sgt : (⟨S_, .i32⟩ : BufTy).Contents (Elt F) → (⟨S_, .i32⟩ : BufTy).Contents (Elt F) → (⟨S_, .i1⟩ : BufTy).Contents (Elt F)),
    nullary main_cst_24 (constant S_ .f32 0x00000000#32),
    TRef.unary (TRef.of (T := ⟨S_, .f32⟩) main_cst_24) (TRef.of (T := ⟨S_, .f32⟩) main_call4_v0) id,
    TRef.unary (TRef.of (T := ⟨S_, .f32⟩) main_call4_v0) (TRef.of (T := ⟨S4096, .f32⟩) main_call4_v1) (broadcastInDim S4096 ![] bcast_S_S4096),
    TRef.ternary (TRef.of (T := ⟨S4096, .i1⟩) main_v53) (TRef.of (T := ⟨S4096, .f32⟩) main_v70) (TRef.of (T := ⟨S4096, .f32⟩) main_call4_v1) (TRef.of (T := ⟨S4096, .f32⟩) main_v74) select,
    nullary main_cst_25 (constant S_ .f32 0x00000000#32),
    binary main_v74 main_cst_25 main_v75 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_c_26 (constantI S_ 32 1#32),
    binary main_v72 main_c_26 main_v76 (maxsi : (⟨S_, .i32⟩ : BufTy).Contents (Elt F) → (⟨S_, .i32⟩ : BufTy).Contents (Elt F) → (⟨S_, .i32⟩ : BufTy).Contents (Elt F)),
    unary main_v76 main_v77 (sitofp (F := F) .f32 : (⟨S_, .i32⟩ : BufTy).Contents (Elt F) → (⟨S_, .f32⟩ : BufTy).Contents (Elt F)),
    binary main_v75 main_v77 main_v78 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    TRef.unary (TRef.of (T := ⟨S_, .f32⟩) main_cst_27) (TRef.of (T := ⟨S_, .f32⟩) main_call5_v0) id,
    TRef.ternary (TRef.of (T := ⟨S_, .i1⟩) main_v73) (TRef.of (T := ⟨S_, .f32⟩) main_v78) (TRef.of (T := ⟨S_, .f32⟩) main_call5_v0) (TRef.of (T := ⟨S_, .f32⟩) main_v79) select,
    nullary main_cst_28 (constant S_ .f32 0x3F800000#32),
    binary main_cst_28 main_v79 main_v80 (mulf : (⟨S_, .f32⟩ : BufTy).Contents (Elt F) → (⟨S_, .f32⟩ : BufTy).Contents (Elt F) → (⟨S_, .f32⟩ : BufTy).Contents (Elt F)),
    binary main_v11 main_v80 main_v81 (addf : (⟨S_, .f32⟩ : BufTy).Contents (Elt F) → (⟨S_, .f32⟩ : BufTy).Contents (Elt F) → (⟨S_, .f32⟩ : BufTy).Contents (Elt F)) ]

set_option maxRecDepth 8192 in
/-- @main's operations are the three stretches in a row. -/
theorem ops_cut : (ops : List (HloOp τ sig (Elt F))) = opsA ++ opsB ++ opsC := rfl

/-! ## The first stretch, from any contents -/

set_option maxRecDepth 8192 in
set_option maxHeartbeats 4000000 in
theorem stageA_v0 (W : Valuation τ sig (Elt F)) :
    after opsA W (Proc.devRef .tc main_v0) = val_main_v0 (F := F) (W (Proc.devRef .tc main_arg2)) := by
  after_results_simp <;> (unfold val_main_v0; rfl)

set_option maxRecDepth 8192 in
set_option maxHeartbeats 4000000 in
theorem stageA_v11 (W : Valuation τ sig (Elt F)) :
    after opsA W (Proc.devRef .tc main_v11)
      = val_main_v11 (F := F) (W (Proc.devRef .tc main_arg1)) (W (Proc.devRef .tc main_arg2)) := by
  after_results_simp <;> (unfold val_main_v11 val_main_v10 val_main_v9 val_main_v8 val_main_v7 val_main_v6 val_main_v5 val_main_v4 val_main_v3 val_main_v2 val_main_v1 val_main_v0 val_main_cst_1 val_main_cst_0 val_main_cst; rfl)

set_option maxRecDepth 8192 in
set_option maxHeartbeats 4000000 in
theorem stageA_v37 (W : Valuation τ sig (Elt F)) :
    after opsA W (Proc.devRef .tc main_v37)
      = val_main_v37 (F := F) (W (Proc.devRef .tc main_arg1)) (W (Proc.devRef .tc main_arg2)) := by
  after_results_simp <;> (unfold val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v0 val_main_cst_10 val_main_cst_9 val_main_cst_8 val_main_cst_7 val_main_cst_6 val_main_cst_5 val_main_cst_4 val_main_cst_3 val_main_cst_2; rfl)

set_option maxRecDepth 8192 in
set_option maxHeartbeats 4000000 in
/-- No operation of the first stretch writes the embeddings. -/
theorem stageA_arg0 (W : Valuation τ sig (Elt F)) :
    after opsA W (Proc.devRef .tc main_arg0) = W (Proc.devRef .tc main_arg0) := by
  after_results_simp <;> rfl

/-! ## The second stretch, from any contents that hold the embeddings and the float labels -/

set_option maxRecDepth 8192 in
set_option maxHeartbeats 4000000 in
theorem stageB_v53 (W : Valuation τ sig (Elt F)) (x2 : (⟨S4096x64, .i32⟩ : BufTy).Contents (Elt F))
    (h0 : W (Proc.devRef .tc main_v0) = val_main_v0 (F := F) x2) :
    after opsB W (Proc.devRef .tc main_v53) = val_main_v53 (F := F) x2 := by
  after_results_simp
  rw [h0]
  unfold val_main_v53 val_main_v52 val_main_v51 val_main_v50 val_main_v49 val_main_v48 val_main_v47 val_main_v46 val_main_v45 val_main_v44 val_main_v43 val_main_v42 val_main_c_13 val_main_cst_12 val_main_c
  rfl

set_option maxRecDepth 8192 in
set_option maxHeartbeats 4000000 in
theorem stageB_v63 (W : Valuation τ sig (Elt F)) (x0 : (⟨S4096x1024, .f32⟩ : BufTy).Contents (Elt F))
    (ha : W (Proc.devRef .tc main_arg0) = x0) :
    after opsB W (Proc.devRef .tc main_v63) = val_main_v63 (F := F) x0 := by
  after_results_simp
  rw [ha]
  unfold val_main_v63 val_main_v62 val_main_v59 val_main_v58 val_main_v57 val_main_v56 val_main_v55 val_main_v54 val_main_v47 val_main_v46 val_main_v45 val_main_v44 val_main_v43 val_main_v42 val_main_v41 val_main_v40 val_main_v39 val_main_v38 val_main_call2_v1 val_main_call2_v0 val_main_call0_v1 val_main_call0_v0 val_main_cst_19 val_main_cst_18 val_main_cst_15 val_main_cst_14 val_main_cst_11 val_main_c
  simp only [TRef.ofBuf, TRef.toBuf, cast_eq] <;> rfl

set_option maxRecDepth 8192 in
set_option maxHeartbeats 4000000 in
theorem stageB_v61 (W : Valuation τ sig (Elt F)) (x0 : (⟨S4096x1024, .f32⟩ : BufTy).Contents (Elt F))
    (x2 : (⟨S4096x64, .i32⟩ : BufTy).Contents (Elt F))
    (ha : W (Proc.devRef .tc main_arg0) = x0) (h0 : W (Proc.devRef .tc main_v0) = val_main_v0 (F := F) x2) :
    after opsB W (Proc.devRef .tc main_v61) = val_main_v61 (F := F) x0 x2 := by
  after_results_simp
  rw [ha, h0]
  unfold val_main_v61 val_main_v60 val_main_v59 val_main_v58 val_main_v57 val_main_v56 val_main_v55 val_main_v54 val_main_v52 val_main_v51 val_main_v50 val_main_v49 val_main_v48 val_main_v47 val_main_v46 val_main_v45 val_main_v44 val_main_v43 val_main_v42 val_main_v41 val_main_v40 val_main_v39 val_main_v38 val_main_call1_v1 val_main_call1_v0 val_main_call0_v1 val_main_call0_v0 val_main_cst_17 val_main_cst_16 val_main_cst_15 val_main_cst_14 val_main_cst_12 val_main_cst_11 val_main_c
  simp only [TRef.ofBuf, TRef.toBuf, cast_eq] <;> rfl

set_option maxRecDepth 8192 in
set_option maxHeartbeats 4000000 in
/-- No operation of the second stretch writes the cross-entropy term … -/
theorem stageB_v11 (W : Valuation τ sig (Elt F)) :
    after opsB W (Proc.devRef .tc main_v11) = W (Proc.devRef .tc main_v11) := by
  after_results_simp <;> rfl

set_option maxRecDepth 8192 in
set_option maxHeartbeats 4000000 in
/-- … nor the weights. -/
theorem stageB_v37 (W : Valuation τ sig (Elt F)) :
    after opsB W (Proc.devRef .tc main_v37) = W (Proc.devRef .tc main_v37) := by
  after_results_simp <;> rfl

/-! ## The third stretch: the closing chain of the five values it reads -/

set_option maxRecDepth 8192 in
set_option maxHeartbeats 4000000 in
theorem stageC (W : Valuation τ sig (Elt F)) :
    after opsC W (Proc.devRef .tc main_v81)
      = Cert.ReferenceIdeal.HandValue.closing (F := F) (W (Proc.devRef .tc main_v11)) (W (Proc.devRef .tc main_v37)) (W (Proc.devRef .tc main_v53))
          (W (Proc.devRef .tc main_v61)) (W (Proc.devRef .tc main_v63)) := by
  after_results_simp
  unfold Cert.ReferenceIdeal.HandValue.closing
  simp only [TRef.ofBuf, TRef.toBuf, cast_eq]

/-! ## The result, from any contents -/

theorem res81_of (V : Valuation τ sig (Elt F)) :
    after ops V (Proc.devRef .tc main_v81)
      = val_main_v81 (F := F) (V (Proc.devRef .tc main_arg0)) (V (Proc.devRef .tc main_arg1)) (V (Proc.devRef .tc main_arg2)) := by
  rw [ops_cut, after_append, after_append, stageC, Cert.ReferenceIdeal.HandValue.ref_closing, stageB_v11, stageB_v37, stageA_v11, stageA_v37,
    stageB_v53 _ _ (stageA_v0 V), stageB_v61 _ _ _ (stageA_arg0 V) (stageA_v0 V), stageB_v63 _ _ (stageA_arg0 V)]

/-! ## No operation writes an argument -/

set_option maxRecDepth 8192 in
set_option maxHeartbeats 4000000 in
theorem stageA_arg1 (W : Valuation τ sig (Elt F)) :
    after opsA W (Proc.devRef .tc main_arg1) = W (Proc.devRef .tc main_arg1) := by
  after_results_simp <;> rfl

set_option maxRecDepth 8192 in
set_option maxHeartbeats 4000000 in
theorem stageA_arg2 (W : Valuation τ sig (Elt F)) :
    after opsA W (Proc.devRef .tc main_arg2) = W (Proc.devRef .tc main_arg2) := by
  after_results_simp <;> rfl

set_option maxRecDepth 8192 in
set_option maxHeartbeats 4000000 in
theorem stageB_arg0 (W : Valuation τ sig (Elt F)) :
    after opsB W (Proc.devRef .tc main_arg0) = W (Proc.devRef .tc main_arg0) := by
  after_results_simp <;> rfl

set_option maxRecDepth 8192 in
set_option maxHeartbeats 4000000 in
theorem stageB_arg1 (W : Valuation τ sig (Elt F)) :
    after opsB W (Proc.devRef .tc main_arg1) = W (Proc.devRef .tc main_arg1) := by
  after_results_simp <;> rfl

set_option maxRecDepth 8192 in
set_option maxHeartbeats 4000000 in
theorem stageB_arg2 (W : Valuation τ sig (Elt F)) :
    after opsB W (Proc.devRef .tc main_arg2) = W (Proc.devRef .tc main_arg2) := by
  after_results_simp <;> rfl

set_option maxRecDepth 8192 in
set_option maxHeartbeats 4000000 in
theorem stageC_arg0 (W : Valuation τ sig (Elt F)) :
    after opsC W (Proc.devRef .tc main_arg0) = W (Proc.devRef .tc main_arg0) := by
  after_results_simp <;> rfl

set_option maxRecDepth 8192 in
set_option maxHeartbeats 4000000 in
theorem stageC_arg1 (W : Valuation τ sig (Elt F)) :
    after opsC W (Proc.devRef .tc main_arg1) = W (Proc.devRef .tc main_arg1) := by
  after_results_simp <;> rfl

set_option maxRecDepth 8192 in
set_option maxHeartbeats 4000000 in
theorem stageC_arg2 (W : Valuation τ sig (Elt F)) :
    after opsC W (Proc.devRef .tc main_arg2) = W (Proc.devRef .tc main_arg2) := by
  after_results_simp <;> rfl

theorem arg0_of (V : Valuation τ sig (Elt F)) :
    after ops V (Proc.devRef .tc main_arg0) = V (Proc.devRef .tc main_arg0) := by
  rw [ops_cut, after_append, after_append, stageC_arg0, stageB_arg0, stageA_arg0]

theorem arg1_of (V : Valuation τ sig (Elt F)) :
    after ops V (Proc.devRef .tc main_arg1) = V (Proc.devRef .tc main_arg1) := by
  rw [ops_cut, after_append, after_append, stageC_arg1, stageB_arg1, stageA_arg1]

theorem arg2_of (V : Valuation τ sig (Elt F)) :
    after ops V (Proc.devRef .tc main_arg2) = V (Proc.devRef .tc main_arg2) := by
  rw [ops_cut, after_append, after_append, stageC_arg2, stageB_arg2, stageA_arg2]

set_option maxRecDepth 8192 in
set_option maxHeartbeats 4000000 in
/-- On every device, for any float values, from any memory with zero counters: every weakly fair execution of @main
    terminates with the result at the last stage's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81)
          = val_main_v81 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun _ h c => ⟨(h c main_v81).trans (res81_of (launchContents m c)),
      (h c main_arg0).trans (arg0_of (launchContents m c)),
      (h c main_arg1).trans (arg1_of (launchContents m c)),
      (h c main_arg2).trans (arg2_of (launchContents m c))⟩)
    (run_seq scopedRefs_eq scopedSems_eq defs main (fun _ => ops) main_eq (fun _ => ops_sub) m ρ)

end Cert.ReferenceIdeal.HandRun

end
-- ==== Proof.PreFinite.lean ====
/-
  What the precondition gives: every entry of the embeddings array is a real number.

  The printed precondition is the conjunction of two `jnp.all`: of |embeddings| < +∞ and of |logits| < +∞, each an
  and-reduction of the elementwise comparison. Where the whole is 1, the first conjunct is 1, so every comparison of
  the first array is 1: |x| < +∞ on the extended reals, which leaves out both infinities.
-/
import proofs.«136322_j23673859736131_1_alg».proof.Proof.Gen.Pre_finite_inputs
import proofs.«136322_j23673859736131_1_alg».proof.Proof.RowSpec
import Idealize.ShloMosaic.Lib.ReduceAll
import Idealize.ShloMosaic.Lib.ValueIdx

noncomputable section

namespace Cert.Pre_finite_inputs.Hand

open Cert.Pre_finite_inputs Cert.Softmax
open Idealize.ShloMosaic Idealize.ShloMosaic.ValueIdx

/-- Under the precondition every embedding is a real. -/
theorem finite_of_pre (x0 : FVec Ideal S4096x1024 .f32) (x1 : FVec Ideal S4096x64 .f32) (x2 : IVec S4096x64 32)
    (h : Cert.Pre_finite_inputs.fn (F := Ideal) x0 x1 x2 = fun _ => 1#1) : Finite (x0 : EArr) := by
  intro i
  -- the whole predicate is 1 at its one index, so its first conjunct, the and-reduction over the embeddings, is 1
  have h0 := congrFun h ValueIdx.ix0
  dsimp only [Cert.Pre_finite_inputs.fn] at h0
  have h1 := (IntOp.andi_eq_one.1 h0).1
  -- an and-reduction into one index that is 1 met a 1 at every index: the comparison at `i` is 1
  haveI : Subsingleton S_.Idx := ⟨fun a b => funext fun d => d.elim0⟩
  have h2 := Host.reduce_andi_all _ _ _ _ _ h1 i
  -- at the index: |x| = max x (-x) is compared with the constant, which is +∞
  have htop : Ideal.ofBits .f32 0x7F800000#32 = (⊤ : EReal) := by simp [Ideal.ofBits, Ideal.ieee]
  have h3 : Ideal.cmp .olt (max (x0 i) (-(x0 i))) (Ideal.ofBits .f32 0x7F800000#32) = 1#1 := h2
  rw [htop] at h3
  simp only [Ideal.cmp] at h3
  have h4 : max (x0 i) (-(x0 i)) < (⊤ : EReal) := by
    by_contra hn
    rw [decide_eq_false hn] at h3
    exact absurd h3 (by decide)
  -- max x (-x) < +∞ leaves out x = +∞ (the maximum is x) and x = -∞ (the maximum is -x = +∞)
  have key : ∀ y : EReal, max y (-y) < ⊤ → ∃ r : ℝ, y = (r : EReal) := by
    intro y hy
    induction y using EReal.rec with
    | bot => exact absurd hy (by simp)
    | coe r => exact ⟨r, rfl⟩
    | top => exact absurd hy (by simp)
  exact key (x0 i) h4

end Cert.Pre_finite_inputs.Hand

end
-- ==== Proof.Claims.lean ====
/-
  The value claim and the idealized programs' frames.

  At the ideal values, under finite inputs, the kernel program's result is the closing chain of the cross-entropy term,
  the weights, "the positives' sum is positive", and the two result arrays, whose rows are the one-pass masked softmax
  sums; the reference's is the same chain of the same term and weights, "the row has a positive", and its two-pass sums.
  The one-pass and two-pass sums agree on finite embeddings (Spec.lean's law, through KValue.lean and RefValue.lean);
  and the positives' sum, a sum of exponentials of reals, is positive exactly when the row has a positive.
-/
import proofs.«136322_j23673859736131_1_alg».proof.Defs
import proofs.«136322_j23673859736131_1_alg».proof.Proof.KClose
import proofs.«136322_j23673859736131_1_alg».proof.Proof.KValue
import proofs.«136322_j23673859736131_1_alg».proof.Proof.RefValue
import proofs.«136322_j23673859736131_1_alg».proof.Proof.RefRunH
import proofs.«136322_j23673859736131_1_alg».proof.Proof.PreFinite
import Idealize.ShloMosaic.PureOps.IdealRules

set_option maxRecDepth 16384

noncomputable section

namespace Cert.Proof.Claims

open Idealize.ShloMosaic Idealize.ShloMosaic.TcCoe Idealize.SL.Sem Idealize.ShloMosaic.ValueIdx
open Cert.Softmax Cert.KernelIdeal Cert.KernelIdeal.Gen Cert.KernelIdeal.Hand Cert.KernelIdeal.HandValue
open Cert.ReferenceIdeal.HandValue (closing ref_closing ref_pos ref_neg ref_valid)

/-- A [4096, 1] array reshaped to a vector of 4096 reads row `r` at (r, 0). -/
theorem cast_col (x : (⟨2, ![4096, 1]⟩ : Shape).Idx → EReal) (h : (⟨2, ![4096, 1]⟩ : Shape).ShapeCasts ⟨1, ![4096]⟩)
    (i : (⟨1, ![4096]⟩ : Shape).Idx) : shapeCast ⟨1, ![4096]⟩ x h i = x (ix2 (i 0) 0) :=
  shapeCast_apply x h i (ix2 (i 0) 0) (by
    rw [Shape.rowMajor_val_two, Shape.rowMajor_val_one]
    show (i 0).val * 1 + 0 = (i 0).val
    omega)

/-- Two one-bit words that are `1` together are equal. -/
theorem bit_ext {a b : BitVec 1} (h : a = 1#1 ↔ b = 1#1) : a = b := by
  rcases eq_zero_or_one a with ha | ha <;> rcases eq_zero_or_one b with hb | hb
  · rw [ha, hb]
  · exact absurd (ha.symm.trans (h.mpr hb)) (by decide)
  · exact absurd (hb.symm.trans (h.mp ha)) (by decide)
  · rw [ha, hb]
where
  eq_zero_or_one (a : BitVec 1) : a = 0#1 ∨ a = 1#1 := by
    rcases Nat.lt_or_ge a.toNat 1 with h | h
    · left; apply BitVec.eq_of_toNat_eq; simp; omega
    · right; apply BitVec.eq_of_toNat_eq; have := a.isLt; simp; omega

/-- The closing chain respects equal validity bits and row sums. -/
theorem closing_congr {F : FTy → Type} [FloatOps F] {bce : (⟨Cert.ReferenceIdeal.S_, .f32⟩ : BufTy).Contents (Elt F)}
    {w : (⟨Cert.ReferenceIdeal.S4096, .f32⟩ : BufTy).Contents (Elt F)} {v v' : (⟨Cert.ReferenceIdeal.S4096, .i1⟩ : BufTy).Contents (Elt F)}
    {p p' n n' : (⟨Cert.ReferenceIdeal.S4096, .f32⟩ : BufTy).Contents (Elt F)} (hv : v = v') (hp : p = p') (hn : n = n') :
    closing bce w v p n = closing bce w v' p' n' := by
  subst hv; subst hp; subst hn; rfl

/-- The kernel program's result, at any float values, is the closing chain of the reference's cross-entropy stage and
    weights stage of the arguments, the validity bits "positives' sum > 0", and the two reshaped result arrays. -/
theorem kernel_shape {F : FTy → Type} [FloatOps F] [Named F]
    (m : (ℓ : Loc Cert.KernelIdeal.nD Cert.KernelIdeal.τ Cert.KernelIdeal.sig) → Buf (Elt F) ℓ) (c : Dev nD) :
    Vfin m c (Proc.devRef .tc main_v60)
      = closing (Cert.ReferenceIdeal.ReadP.val_main_v11 (F := F) (m ((c.tc : Thread nD τ).loc main_arg1)) (m ((c.tc : Thread nD τ).loc main_arg2)))
          (Cert.ReferenceIdeal.ReadP.val_main_v37 (F := F) (m ((c.tc : Thread nD τ).loc main_arg1)) (m ((c.tc : Thread nD τ).loc main_arg2)))
          (cmpf (F := F) .ogt (posVec m c) (broadcastInDim S4096 ![] bcast_S_S4096 (constant S_ .f32 0x00000000#32)))
          (posVec m c) (negVec m c) := by
  rw [kernel_closing, prefix_bce, prefix_w]

variable (m : (ℓ : Loc Cert.KernelIdeal.nD Cert.KernelIdeal.τ Cert.KernelIdeal.sig) → Buf (Elt Ideal) ℓ)

/-- THE RESULTS AGREE: on finite embeddings the kernel program's result is the reference's last stage of the same
    arguments. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) = fun _ => 1#1) :
    Vfin (F := Ideal) m c (Proc.devRef .tc main_v60)
      = Cert.ReferenceIdeal.ReadP.val_main_v81 (F := Ideal) (m ((c.tc : Thread nD τ).loc main_arg0)) (m ((c.tc : Thread nD τ).loc main_arg1))
          (m ((c.tc : Thread nD τ).loc main_arg2)) := by
  have hE : Finite (m ((c.tc : Thread nD τ).loc main_arg0) : EArr) := Cert.Pre_finite_inputs.Hand.finite_of_pre _ _ _ hpre
  have hEarr : Earr m c = m ((c.tc : Thread nD τ).loc main_arg0) := prefix_arg0 (F := Ideal) m c
  have hLarr : Larr m c = Cert.ReferenceIdeal.ReadP.val_main_v0 (F := Ideal) (m ((c.tc : Thread nD τ).loc main_arg2)) :=
    prefix_labels (F := Ideal) m c
  have hE' : Finite (Earr m c) := by rw [hEarr]; exact hE
  have hpos : ∀ i, posVec (F := Ideal) m c i = posSum (Earr m c) (Larr m c) (i 0) := fun i => by
    show shapeCast _ (Vexit (F := Ideal) m c (Proc.devRef .tc (Pipeline.arrRef spec0 4))) _ i = _
    rw [Vexit_out4, final_pos m c hE', cast_col]; rfl
  have hneg : ∀ i, negVec (F := Ideal) m c i = negSum (Earr m c) (i 0) := fun i => by
    show shapeCast _ (Vexit (F := Ideal) m c (Proc.devRef .tc (Pipeline.arrRef spec0 5))) _ i = _
    rw [Vexit_out5, final_neg m c hE', cast_col]; rfl
  refine (kernel_shape (F := Ideal) m c).trans (Eq.trans (closing_congr ?_ ?_ ?_) (ref_closing (F := Ideal) _ _ _).symm)
  · -- the validity bits: the positives' sum is positive exactly when the row has a positive
    funext i
    apply bit_ext
    rw [ref_valid, ← hLarr, ← posSum_pos_iff (Earr m c) (Larr m c) hE' (i 0), ← hpos i]
    show Ideal.cmp .ogt (posVec (F := Ideal) m c i) (Ideal.ofBits .f32 0x00000000#32) = 1#1 ↔ _
    rw [Ideal.ofBits_zero_f32]
    unfold Ideal.cmp
    show BitVec.ofBool (decide (0 < posVec (F := Ideal) m c i)) = 1#1 ↔ 0 < posVec (F := Ideal) m c i
    by_cases hp : 0 < posVec (F := Ideal) m c i
    · simp [hp]
    · simp [hp]
  · funext i; rw [hpos i, ref_pos _ _ hE, ← hEarr, ← hLarr]
  · funext i; rw [hneg i, ref_neg _ hE, ← hEarr]

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.HandRun.run (F := Ideal) m ρ)

/-- The ledger's two entries: the table gives the reciprocal temperature its exact rational and the mask fill -∞. -/
theorem preserves : Cert.preserves_Kernel_KernelIdeal :=
  ⟨IdealRules.named_const.statement Cert.KernelIdeal.κ "inv_temperature" .f32 0x41649249#32 ((134217728 / 9395241 : ℝ) : EReal) rfl,
   IdealRules.named_const.statement Cert.KernelIdeal.κ "neg_big" .f32 0xFF333332#32 ⊥ rfl⟩

/-- Both idealized programs run, from memories agreeing on the arguments, to equal results. -/
theorem algebraic : Cert.algebraic_KernelIdeal_ReferenceIdeal := by
  intro m ρ m' ρ' hpre hagree
  refine ⟨fun c => Vfin (F := Ideal) m c (Proc.devRef .tc main_v60), Cert.KernelIdeal.Hand.run_main (F := Ideal) m ρ, ?_⟩
  refine (θ_run Cert.ReferenceIdeal.defs _ _).mono (fun r h c => ⟨(h c).1.trans ?_, (h c).2⟩)
    (Cert.ReferenceIdeal.HandRun.run (F := Ideal) m' ρ')
  obtain ⟨h0, h1, h2⟩ := hagree c
  rw [h0, h1, h2]
  exact (result_eq m c (hpre c)).symm

end Cert.Proof.Claims

end
-- ==== Proof.lean ====
/-
  A multi-label contrastive loss: a Pallas kernel for the masked row-wise softmax sums of the embeddings' similarity
  matrix, with the cross-entropy term, the entropy weights and the closing reduction left to the host, against the plain
  two-pass reference.

  For 4096 rows, the similarity of rows r and j is the dot product of the two embeddings divided by the temperature;
  column j is a positive of row r when j ≠ r and the two label rows share a label. The reference takes each row's maximum
  c over the off-diagonal similarities and the sums of exp (similarity - c) over the positives and over the off-diagonal
  columns. The kernel walks the columns in eight blocks of 512 and keeps, in three scratch buffers carried from one grid
  point to the next, a running maximum and both sums rescaled by exp (old maximum - new maximum) at every block; it
  multiplies by the reciprocal temperature, named the exact rational 1 / f32(0.07), and fills the diagonal with a
  constant named -∞. On finite embeddings the one-pass and the two-pass forms agree (Proof/Spec.lean), the kernel's
  "positives' sum > 0" is the reference's "the row has a positive" since every term is an exponential of a real, and
  the host operations around the kernel are the reference's own, operation for operation.

  The frames: the kernel region reads the embeddings through two windows and the float labels through two windows;
  the launch splits each of those arrays' points-to into half shares at the region's entry and joins them at its exit
  (Proof/KLaunch.lean; Proof/BLaunch.lean for the word-level program), the body's triple is Proof/KBody.lean and the
  point-by-point contents Proof/KData.lean. The reference's run is read back stage by stage (Proof/RefRunH.lean).
-/
import proofs.«136322_j23673859736131_1_alg».proof.Defs
import proofs.«136322_j23673859736131_1_alg».proof.Proof.Gen.Kernel
import proofs.«136322_j23673859736131_1_alg».proof.Proof.Gen.KernelIdeal
import proofs.«136322_j23673859736131_1_alg».proof.Proof.Gen.ReferenceIdeal
import proofs.«136322_j23673859736131_1_alg».proof.Proof.Gen.Pre_finite_inputs
import proofs.«136322_j23673859736131_1_alg».proof.Proof.BLaunch
import proofs.«136322_j23673859736131_1_alg».proof.Proof.Claims

noncomputable section

namespace Cert.Proof

open Idealize.ShloMosaic Idealize.SL.Sem

/-- The word-level kernel program runs and leaves its arguments unchanged. -/
theorem frame_p : Cert.frame_Kernel := fun m ρ _ => Cert.Kernel.Hand.frame (F := Bits) m ρ

theorem claim : Cert.Claim :=
  ⟨Cert.Kernel.Gen.facts, Cert.KernelIdeal.Gen.facts, Cert.ReferenceIdeal.Gen.facts, Cert.Pre_finite_inputs.Gen.facts,
    frame_p, Claims.frame_pi, Claims.frame_ri, Claims.preserves, Claims.algebraic⟩

end Cert.Proof

end
